-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4x112 : Shape := ⟨3, ![65536, 4, 112]⟩
abbrev S65536x84 : Shape := ⟨2, ![65536, 84]⟩
abbrev S112 : Shape := ⟨1, ![112]⟩
abbrev S_ : Shape := ⟨0, ![]⟩

class Facts : Prop where
  bcast_S_S65536x4x112 : S_.BroadcastsInDim S65536x4x112 (![] : Fin 0 → Fin S65536x4x112.rank)
  reducesTo_S65536x4x112_S_d0_1_2 : S65536x4x112.ReducesTo [0, 1, 2] S_
  h_S_ : 0 < S_.numel
  bcast_S_S65536x84 : S_.BroadcastsInDim S65536x84 (![] : Fin 0 → Fin S65536x84.rank)
  reducesTo_S65536x84_S_d0_1 : S65536x84.ReducesTo [0, 1] S_
  bcast_S_S112 : S_.BroadcastsInDim S112 (![] : Fin 0 → Fin S112.rank)
  reducesTo_S112_S_d0 : S112.ReducesTo [0] S_

variable [Facts]

def fn_part1 {F : FTy → Type} [FloatOps F] (main_v13 : IVec S_ 1) (main_v16 : IVec S112 1) : IVec S_ 1 :=
  let main_c_5 : IVec S_ 1 := constantI S_ 1 1#1
  let main_v17 : IVec S_ 1 := (fun x v => Host.reduce IntOp.andi x v reducesTo_S112_S_d0 h_S_) main_v16 main_c_5
  let main_v18 : IVec S_ 1 := andi main_v13 main_v17
  main_v18

def fn {F : FTy → Type} [FloatOps F] (main_arg0 : FVec F S65536x4x112 .f32) (main_arg1 : FVec F S65536x84 .f32) (main_arg2 : FVec F S65536x84 .f32) (main_arg3 : FVec F S112 .f32) : IVec S_ 1 :=
  let main_v0 : FVec F S65536x4x112 .f32 := Host.absf main_arg0
  let main_cst : FVec F S_ .f32 := constant S_ .f32 0x7F800000#32
  let main_v1 : FVec F S65536x4x112 .f32 := broadcastInDim S65536x4x112 ![] bcast_S_S65536x4x112 main_cst
  let main_v2 : IVec S65536x4x112 1 := cmpf .olt main_v0 main_v1
  let main_c : IVec S_ 1 := constantI S_ 1 1#1
  let main_v3 : IVec S_ 1 := (fun x v => Host.reduce IntOp.andi x v reducesTo_S65536x4x112_S_d0_1_2 h_S_) main_v2 main_c
  let main_v4 : FVec F S65536x84 .f32 := Host.absf main_arg1
  let main_cst_0 : FVec F S_ .f32 := constant S_ .f32 0x7F800000#32
  let main_v5 : FVec F S65536x84 .f32 := broadcastInDim S65536x84 ![] bcast_S_S65536x84 main_cst_0
  let main_v6 : IVec S65536x84 1 := cmpf .olt main_v4 main_v5
  let main_c_1 : IVec S_ 1 := constantI S_ 1 1#1
  let main_v7 : IVec S_ 1 := (fun x v => Host.reduce IntOp.andi x v reducesTo_S65536x84_S_d0_1 h_S_) main_v6 main_c_1
  let main_v8 : IVec S_ 1 := andi main_v3 main_v7
  let main_v9 : FVec F S65536x84 .f32 := Host.absf main_arg2
  let main_cst_2 : FVec F S_ .f32 := constant S_ .f32 0x7F800000#32
  let main_v10 : FVec F S65536x84 .f32 := broadcastInDim S65536x84 ![] bcast_S_S65536x84 main_cst_2
  let main_v11 : IVec S65536x84 1 := cmpf .olt main_v9 main_v10
  let main_c_3 : IVec S_ 1 := constantI S_ 1 1#1
  let main_v12 : IVec S_ 1 := (fun x v => Host.reduce IntOp.andi x v reducesTo_S65536x84_S_d0_1 h_S_) main_v11 main_c_3
  let main_v13 : IVec S_ 1 := andi main_v8 main_v12
  let main_v14 : FVec F S112 .f32 := Host.absf main_arg3
  let main_cst_4 : FVec F S_ .f32 := constant S_ .f32 0x7F800000#32
  let main_v15 : FVec F S112 .f32 := broadcastInDim S112 ![] bcast_S_S112 main_cst_4
  let main_v16 : IVec S112 1 := cmpf .olt main_v14 main_v15
  fn_part1 (F := F) main_v13 main_v16
-- ==== Kernel.lean ====
abbrev S65536x4x112 : Shape := ⟨3, ![65536, 4, 112]⟩
abbrev S65536x84 : Shape := ⟨2, ![65536, 84]⟩
abbrev S112 : Shape := ⟨1, ![112]⟩
abbrev S65536x1 : Shape := ⟨2, ![65536, 1]⟩
abbrev S1024x4x112 : Shape := ⟨3, ![1024, 4, 112]⟩
abbrev S1024x84 : Shape := ⟨2, ![1024, 84]⟩
abbrev S1024x1 : Shape := ⟨2, ![1024, 1]⟩
abbrev S1024x1x111 : Shape := ⟨3, ![1024, 1, 111]⟩
abbrev S1024x111 : Shape := ⟨2, ![1024, 111]⟩
abbrev S111 : Shape := ⟨1, ![111]⟩
abbrev S1024x109 : Shape := ⟨2, ![1024, 109]⟩
abbrev S1 : Shape := ⟨1, ![1]⟩
abbrev S109 : Shape := ⟨1, ![109]⟩
abbrev S1x111 : Shape := ⟨2, ![1, 111]⟩
abbrev S1024 : Shape := ⟨1, ![1024]⟩
abbrev S65536 : Shape := ⟨1, ![65536]⟩
abbrev S_ : Shape := ⟨0, ![]⟩

abbrev nBuf : Space → Nat
  | .hbm => 62
  | .vmem => 13
  | .smem => 0
  | _ => 0

abbrev bufTy : (tb : Table) → Fin (tcTables nBuf tb) → BufTy
  | .hbm, ⟨0, _⟩ => ⟨S65536x4x112, .f32⟩
  | .hbm, ⟨1, _⟩ => ⟨S65536x84, .f32⟩
  | .hbm, ⟨2, _⟩ => ⟨S65536x84, .f32⟩
  | .hbm, ⟨3, _⟩ => ⟨S112, .f32⟩
  | .hbm, ⟨4, _⟩ => ⟨S65536x1, .f32⟩
  | .hbm, ⟨5, _⟩ => ⟨S65536x1, .f32⟩
  | .hbm, ⟨6, _⟩ => ⟨S65536x1, .f32⟩
  | .hbm, ⟨7, _⟩ => ⟨S65536, .f32⟩
  | .hbm, ⟨8, _⟩ => ⟨S65536, .f32⟩
  | .hbm, ⟨9, _⟩ => ⟨S65536, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S65536, .f32⟩
  | .hbm, ⟨15, _⟩ => ⟨S_, .f32⟩
  | .hbm, ⟨16, _⟩ => ⟨S65536, .f32⟩
  | .hbm, ⟨17, _⟩ => ⟨S65536, .i1⟩
  | .hbm, ⟨18, _⟩ => ⟨S65536, .f32⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .f32⟩
  | .hbm, ⟨26, _⟩ => ⟨S65536, .f32⟩
  | .hbm, ⟨27, _⟩ => ⟨S_, .f32⟩
  | .hbm, ⟨28, _⟩ => ⟨S65536, .f32⟩
  | .hbm, ⟨29, _⟩ => ⟨S65536, .f32⟩
  | .hbm, ⟨30, _⟩ => ⟨S65536, .f32⟩
  | .hbm, ⟨31, _⟩ => ⟨S_, .f32⟩
  | .hbm, ⟨32, _⟩ => ⟨S65536, .f32⟩
  | .hbm, ⟨33, _⟩ => ⟨S65536, .f32⟩
  | .hbm, ⟨34, _⟩ => ⟨S65536, .f32⟩
  | .hbm, ⟨35, _⟩ => ⟨S65536, .f32⟩
  | .hbm, ⟨36, _⟩ => ⟨S65536, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S_, .f32⟩
  | .hbm, ⟨44, _⟩ => ⟨S_, .f32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .i32⟩
  | .hbm, ⟨52, _⟩ => ⟨S_, .i1⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S1024x4x112, .f32⟩
  | .local _ .vmem, ⟨1, _⟩ => ⟨S1024x4x112, .f32⟩
  | .local _ .vmem, ⟨2, _⟩ => ⟨S1024x84, .f32⟩
  | .local _ .vmem, ⟨3, _⟩ => ⟨S1024x84, .f32⟩
  | .local _ .vmem, ⟨4, _⟩ => ⟨S1024x84, .f32⟩
  | .local _ .vmem, ⟨5, _⟩ => ⟨S1024x84, .f32⟩
  | .local _ .vmem, ⟨6, _⟩ => ⟨S112, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S65536x4x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_c_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_cst_13 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x84 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x84 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1024x4x112_S1024x1x111_0_0_0 : ∀ a, (![0, 0, 0] : Fin 3 → Nat) a + S1024x1x111.size a ≤ S1024x4x112.size a
  h_S1024x1x111 : 0 < S1024x1x111.numel
  shapeCasts_S1024x1x111_S1024x111 : S1024x1x111.ShapeCasts S1024x111
  inb_S1024x4x112_S1024x1x111_0_3_0 : ∀ a, (![0, 3, 0] : Fin 3 → Nat) a + S1024x1x111.size a ≤ S1024x4x112.size a
  inb_S112_S111_0 : ∀ a, (![0] : Fin 1 → Nat) a + S111.size a ≤ S112.size a
  h_S111 : 0 < S111.numel
  slices_S1024x111_o0_1_S1024x1 : S1024x111.Slices ![0, 1] S1024x1
  slices_S1024x111_o0_0_S1024x1 : S1024x111.Slices ![0, 0] S1024x1
  slices_S1024x111_o0_2_S1024x109 : S1024x111.Slices ![0, 2] S1024x109
  slices_S1024x111_o0_0_S1024x109 : S1024x111.Slices ![0, 0] S1024x109
  slices_S1024x111_o0_110_S1024x1 : S1024x111.Slices ![0, 110] S1024x1
  slices_S1024x111_o0_109_S1024x1 : S1024x111.Slices ![0, 109] S1024x1
  concatenates_S1024x1_S1024x109_S1024x1_S1024x111_d1 : Shape.Concatenates [S1024x1, S1024x109, S1024x1] S1024x111 1
  slices_S111_o1_S1 : S111.Slices ![1] S1
  slices_S111_o0_S1 : S111.Slices ![0] S1
  slices_S111_o2_S109 : S111.Slices ![2] S109
  slices_S111_o0_S109 : S111.Slices ![0] S109
  slices_S111_o110_S1 : S111.Slices ![110] S1
  slices_S111_o109_S1 : S111.Slices ![109] S1
  concatenates_S1_S109_S1_S111_d0 : Shape.Concatenates [S1, S109, S1] S111 0
  shapeCasts_S111_S1x111 : S111.ShapeCasts S1x111
  broadcasts_S1x111_S1024x111 : S1x111.Broadcasts S1024x111
  reduces_S1024x111_S1024 : S1024x111.Reduces [1] S1024
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  shapeCasts_S1024_S1024x1 : S1024.ShapeCasts S1024x1
  inb_S1024x84_S1024x84_0_0 : ∀ a, (![0, 0] : Fin 2 → Nat) a + S1024x84.size a ≤ S1024x84.size a
  h_S1024x84 : 0 < S1024x84.numel
  slices_S1024x84_o0_3_S1024x1 : S1024x84.Slices ![0, 3] S1024x1
  slices_S1024x84_o0_7_S1024x1 : S1024x84.Slices ![0, 7] S1024x1
  slices_S1024x84_o0_11_S1024x1 : S1024x84.Slices ![0, 11] S1024x1
  reduces_S1024x84_S1024 : S1024x84.Reduces [1] S1024
  shapeCasts_S65536x1_S65536 : S65536x1.ShapeCasts S65536
  reducesTo_S65536_S_d0 : S65536.ReducesTo [0] S_
  h_S_ : 0 < S_.numel
  bcast_S_S65536 : S_.BroadcastsInDim S65536 (![] : Fin 0 → Fin S65536.rank)
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4x112.size a ≤ S65536x4x112.size a
  hwx0_0 : ∀ i : grid0.Coords, EltTy.bits .f32 = 32 ∨ (Rect.block (s := S65536x4x112) S1024x4x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x84.size a ≤ S65536x84.size a
  hwx0_1 : ∀ i : grid0.Coords, EltTy.bits .f32 = 32 ∨ (Rect.block (s := S65536x84) S1024x84.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x84.size a ≤ S65536x84.size a
  hwx0_2 : ∀ i : grid0.Coords, EltTy.bits .f32 = 32 ∨ (Rect.block (s := S65536x84) S1024x84.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S112.size a ≤ S112.size a
  hwx0_3 : ∀ i : grid0.Coords, EltTy.bits .f32 = 32 ∨ (Rect.block (s := S112) S112.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S65536x1.size a
  hwx0_4 : ∀ i : grid0.Coords, EltTy.bits .f32 = 32 ∨ (Rect.block (s := S65536x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S65536x1.size a
  hwx0_5 : ∀ i : grid0.Coords, EltTy.bits .f32 = 32 ∨ (Rect.block (s := S65536x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S65536x1.size a
  hwx0_6 : ∀ i : grid0.Coords, EltTy.bits .f32 = 32 ∨ (Rect.block (s := S65536x1) S1024x1.size (cc0_transform_6 i) (hinb0_6 i)).WholeWords (EltTy.packing .f32)

variable [Facts₀]

abbrev win0_0 : Pipeline.Window sig grid0 :=
  Pipeline.Window.ofSpec (Memref.whole main_arg0) S1024x4x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x84.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x84.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S112.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x4x112 : Shape := ⟨3, ![65536, 4, 112]⟩
abbrev S65536x84 : Shape := ⟨2, ![65536, 84]⟩
abbrev S112 : Shape := ⟨1, ![112]⟩
abbrev S3 : Shape := ⟨1, ![3]⟩
abbrev S_ : Shape := ⟨0, ![]⟩
abbrev S111 : Shape := ⟨1, ![111]⟩
abbrev S65536x1x111 : Shape := ⟨3, ![65536, 1, 111]⟩
abbrev S65536x111 : Shape := ⟨2, ![65536, 111]⟩
abbrev S65536x1 : Shape := ⟨2, ![65536, 1]⟩
abbrev S65536x109 : Shape := ⟨2, ![65536, 109]⟩
abbrev S1 : Shape := ⟨1, ![1]⟩
abbrev S109 : Shape := ⟨1, ![109]⟩
abbrev S1x111 : Shape := ⟨2, ![1, 111]⟩
abbrev S65536 : Shape := ⟨1, ![65536]⟩
abbrev S65536x21x4 : Shape := ⟨3, ![65536, 21, 4]⟩
abbrev S3x1 : Shape := ⟨2, ![3, 1]⟩
abbrev S3x2 : Shape := ⟨2, ![3, 2]⟩
abbrev S65536x3 : Shape := ⟨2, ![65536, 3]⟩

abbrev nBuf : Space → Nat
  | .hbm => 136
  | .vmem => 0
  | .smem => 0
  | _ => 0

abbrev hbmTy0_0 (i : Nat) : BufTy := match i % 128 with
  | 0 => ⟨S65536x4x112, .f32⟩
  | 1 => ⟨S65536x84, .f32⟩
  | 2 => ⟨S65536x84, .f32⟩
  | 3 => ⟨S112, .f32⟩
  | 4 => ⟨S3, .i32⟩
  | 5 => ⟨S3, .i1⟩
  | 6 => ⟨S65536x84, .f32⟩
  | 7 => ⟨S65536x84, .f32⟩
  | 8 => ⟨S_, .f32⟩
  | 9 => ⟨S_, .f32⟩
  | 10 => ⟨S_, .f32⟩
  | 11 => ⟨S_, .f32⟩
  | 12 => ⟨S111, .f32⟩
  | 13 => ⟨S65536x1x111, .f32⟩
  | 14 => ⟨S65536x111, .f32⟩
  | 15 => ⟨S65536x1x111, .f32⟩
  | 16 => ⟨S65536x111, .f32⟩
  | 17 => ⟨S65536x1, .f32⟩
  | 18 => ⟨S65536x1, .f32⟩
  | 19 => ⟨S65536x1, .f32⟩
  | 20 => ⟨S65536x109, .f32⟩
  | 21 => ⟨S65536x109, .f32⟩
  | 22 => ⟨S65536x109, .f32⟩
  | 23 => ⟨S_, .f32⟩
  | 24 => ⟨S65536x109, .f32⟩
  | 25 => ⟨S65536x109, .f32⟩
  | 26 => ⟨S65536x1, .f32⟩
  | 27 => ⟨S65536x1, .f32⟩
  | 28 => ⟨S65536x1, .f32⟩
  | 29 => ⟨S65536x111, .f32⟩
  | 30 => ⟨S1, .f32⟩
  | 31 => ⟨S1, .f32⟩
  | 32 => ⟨S1, .f32⟩
  | 33 => ⟨S109, .f32⟩
  | 34 => ⟨S109, .f32⟩
  | 35 => ⟨S109, .f32⟩
  | 36 => ⟨S_, .f32⟩
  | 37 => ⟨S109, .f32⟩
  | 38 => ⟨S109, .f32⟩
  | 39 => ⟨S1, .f32⟩
  | 40 => ⟨S1, .f32⟩
  | 41 => ⟨S1, .f32⟩
  | 42 => ⟨S111, .f32⟩
  | 43 => ⟨S1x111, .f32⟩
  | 44 => ⟨S65536x111, .f32⟩
  | 45 => ⟨S65536x111, .f32⟩
  | 46 => ⟨S_, .f32⟩
  | 47 => ⟨S65536, .f32⟩
  | 48 => ⟨S_, .f32⟩
  | 49 => ⟨S65536, .f32⟩
  | 50 => ⟨S65536x111, .f32⟩
  | 51 => ⟨S_, .f32⟩
  | 52 => ⟨S65536, .f32⟩
  | 53 => ⟨S65536x111, .f32⟩
  | 54 => ⟨S_, .f32⟩
  | 55 => ⟨S65536, .f32⟩
  | 56 => ⟨S_, .f32⟩
  | 57 => ⟨S65536, .f32⟩
  | 58 => ⟨S65536, .f32⟩
  | 59 => ⟨S65536, .f32⟩
  | 60 => ⟨S65536, .f32⟩
  | 61 => ⟨S_, .f32⟩
  | 62 => ⟨S65536, .f32⟩
  | 63 => ⟨S65536, .f32⟩
  | 64 => ⟨S65536, .f32⟩
  | 65 => ⟨S65536, .f32⟩
  | 66 => ⟨S65536, .f32⟩
  | 67 => ⟨S65536, .f32⟩
  | 68 => ⟨S_, .f32⟩
  | 69 => ⟨S65536, .f32⟩
  | 70 => ⟨S65536, .f32⟩
  | 71 => ⟨S65536x21x4, .f32⟩
  | 72 => ⟨S_, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S3x1, .i32⟩
  | 80 => ⟨S3x1, .i32⟩
  | 81 => ⟨S3x2, .i32⟩
  | 82 => ⟨S65536x3, .f32⟩
  | 83 => ⟨S_, .f32⟩
  | 84 => ⟨S65536, .f32⟩
  | 85 => ⟨S_, .f32⟩
  | 86 => ⟨S65536, .f32⟩
  | 87 => ⟨S65536, .f32⟩
  | 88 => ⟨S65536, .f32⟩
  | 89 => ⟨S_, .f32⟩
  | 90 => ⟨S65536, .f32⟩
  | 91 => ⟨S65536, .i1⟩
  | 92 => ⟨S65536, .f32⟩
  | 93 => ⟨S_, .f32⟩
  | 94 => ⟨S65536, .f32⟩
  | 95 => ⟨S65536, .f32⟩
  | 96 => ⟨S65536, .f32⟩
  | 97 => ⟨S_, .f32⟩
  | 98 => ⟨S65536, .f32⟩
  | 99 => ⟨S65536, .f32⟩
  | 100 => ⟨S65536, .f32⟩
  | 101 => ⟨S_, .f32⟩
  | 102 => ⟨S65536, .f32⟩
  | 103 => ⟨S65536, .f32⟩
  | 104 => ⟨S65536, .f32⟩
  | 105 => ⟨S_, .f32⟩
  | 106 => ⟨S65536, .f32⟩
  | 107 => ⟨S65536, .f32⟩
  | 108 => ⟨S65536, .f32⟩
  | 109 => ⟨S65536, .f32⟩
  | 110 => ⟨S65536, .i32⟩
  | 111 => ⟨S_, .i32⟩
  | 112 => ⟨S_, .i32⟩
  | 113 => ⟨S_, .f32⟩
  | 114 => ⟨S_, .f32⟩
  | 115 => ⟨S65536, .f32⟩
  | 116 => ⟨S65536, .f32⟩
  | 117 => ⟨S_, .f32⟩
  | 118 => ⟨S_, .f32⟩
  | 119 => ⟨S_, .i32⟩
  | 120 => ⟨S_, .i32⟩
  | 121 => ⟨S_, .f32⟩
  | 122 => ⟨S_, .f32⟩
  | 123 => ⟨S_, .f32⟩
  | 124 => ⟨S_, .i1⟩
  | 125 => ⟨S_, .i32⟩
  | 126 => ⟨S_, .i1⟩
  | 127 => ⟨S_, .i1⟩
  | _ => ⟨S65536x4x112, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S65536x4x112, .f32⟩

abbrev hbmTy (i : Nat) : BufTy := match i / 128 with
  | 0 => hbmTy0_0 i
  | 1 => hbmTy0_1 i
  | _ => ⟨S65536x4x112, .f32⟩

abbrev bufTy : (tb : Table) → Fin (tcTables nBuf tb) → BufTy
  | .hbm, ⟨i, _⟩ => hbmTy i
  | _, _ => ⟨S65536x4x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_20 : Ref sig .tc := ⟨.hbm, 111, rfl⟩
abbrev main_v85 : Ref sig .tc := ⟨.hbm, 112, rfl⟩
abbrev main_cst_21 : Ref sig .tc := ⟨.hbm, 113, rfl⟩
abbrev main_call0_v0 : Ref sig .tc := ⟨.hbm, 114, rfl⟩
abbrev main_call0_v1 : Ref sig .tc := ⟨.hbm, 115, rfl⟩
abbrev main_v86 : Ref sig .tc := ⟨.hbm, 116, rfl⟩
abbrev main_cst_22 : Ref sig .tc := ⟨.hbm, 117, rfl⟩
abbrev main_v87 : Ref sig .tc := ⟨.hbm, 118, rfl⟩
abbrev main_c_23 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_24 : Ref sig .tc := ⟨.hbm, 123, rfl⟩
abbrev main_v91 : Ref sig .tc := ⟨.hbm, 124, rfl⟩
abbrev main_c_25 : Ref sig .tc := ⟨.hbm, 125, rfl⟩
abbrev main_v92 : Ref sig .tc := ⟨.hbm, 126, rfl⟩
abbrev main_v93 : Ref sig .tc := ⟨.hbm, 127, rfl⟩
abbrev main_cst_26 : Ref sig .tc := ⟨.hbm, 128, rfl⟩
abbrev main_v94 : Ref sig .tc := ⟨.hbm, 129, rfl⟩
abbrev main_cst_27 : Ref sig .tc := ⟨.hbm, 130, rfl⟩
abbrev main_v95 : Ref sig .tc := ⟨.hbm, 131, rfl⟩
abbrev main_cst_28 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  reducesTo_S65536x84_S_d0_1 : S65536x84.ReducesTo [0, 1] S_
  h_S_ : 0 < S_.numel
  slices_S112_S111_0 : S112.Slices ![0] S111
  slices_S65536x4x112_S65536x1x111_0_0_0 : S65536x4x112.Slices ![0, 0, 0] S65536x1x111
  shapeCasts_S65536x1x111_S65536x111 : S65536x1x111.ShapeCasts S65536x111
  slices_S65536x4x112_S65536x1x111_0_3_0 : S65536x4x112.Slices ![0, 3, 0] S65536x1x111
  slices_S65536x111_S65536x1_0_1 : S65536x111.Slices ![0, 1] S65536x1
  slices_S65536x111_S65536x1_0_0 : S65536x111.Slices ![0, 0] S65536x1
  slices_S65536x111_S65536x109_0_2 : S65536x111.Slices ![0, 2] S65536x109
  slices_S65536x111_S65536x109_0_0 : S65536x111.Slices ![0, 0] S65536x109
  bcast_S_S65536x109 : S_.BroadcastsInDim S65536x109 (![] : Fin 0 → Fin S65536x109.rank)
  slices_S65536x111_S65536x1_0_110 : S65536x111.Slices ![0, 110] S65536x1
  slices_S65536x111_S65536x1_0_109 : S65536x111.Slices ![0, 109] S65536x1
  concatenates_S65536x1_S65536x109_S65536x1_S65536x111_d1 : Shape.Concatenates [S65536x1, S65536x109, S65536x1] S65536x111 1
  slices_S111_S1_1 : S111.Slices ![1] S1
  slices_S111_S1_0 : S111.Slices ![0] S1
  slices_S111_S109_2 : S111.Slices ![2] S109
  slices_S111_S109_0 : S111.Slices ![0] S109
  bcast_S_S109 : S_.BroadcastsInDim S109 (![] : Fin 0 → Fin S109.rank)
  slices_S111_S1_110 : S111.Slices ![110] S1
  slices_S111_S1_109 : S111.Slices ![109] S1
  concatenates_S1_S109_S1_S111_d0 : Shape.Concatenates [S1, S109, S1] S111 0
  bcast_S111_S1x111_1 : S111.BroadcastsInDim S1x111 (![1] : Fin 1 → Fin S1x111.rank)
  bcast_S1x111_S65536x111_0_1 : S1x111.BroadcastsInDim S65536x111 (![0, 1] : Fin 2 → Fin S65536x111.rank)
  reducesTo_S65536x111_S65536_d1 : S65536x111.ReducesTo [1] S65536
  bcast_S_S65536 : S_.BroadcastsInDim S65536 (![] : Fin 0 → Fin S65536.rank)
  shapeCasts_S65536x84_S65536x21x4 : S65536x84.ShapeCasts S65536x21x4
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  reducesTo_S65536x3_S65536_d1 : S65536x3.ReducesTo [1] S65536
  natLt_1_32 : 1 < 32
  reducesTo_S65536_S_d0 : S65536.ReducesTo [0] S_
  gather_S65536x21x4_S3x2_S65536x3_0_12_n_n_12_1_6553611_wf : GatherDims.WF S65536x21x4 S3x2 S65536x3 [0] [1, 2] [] [1, 2] [] 1 ![65536, 1, 1]

variable [Facts₀]

def gather_S65536x21x4_S3x2_S65536x3_0_12_n_n_12_1_6553611 : GatherDims S65536x21x4 S3x2 S65536x3 where
  offsetDims := [0]
  collapsedSliceDims := [1, 2]
  operandBatchingDims := []
  startIndicesBatchingDims := []
  startIndexMap := [1, 2]
  indexVectorDim := 1
  sliceSizes := ![65536, 1, 1]
  wf := gather_S65536x21x4_S3x2_S65536x3_0_12_n_n_12_1_6553611_wf

class Facts : Prop extends Facts₀ where

variable [Facts]
-- ==== Proof.Spec.lean ====
/-
  What both programs compute, stated once over the extended reals.

  Per batch row b (65536 of them), from the row of Stokes I (plane 0) and Stokes V (plane 3) over the first 111 wavelengths
  and the first 111 wavelengths themselves:
    grad x k    the one-sided difference at the two ends, the halved central difference inside (numpy's gradient);
    d k         = grad I k / grad wl k                                   (dI/dlambda)
    wfa         = -((111 * sum (d*V) - sum d * sum V) / (111 * sum (d*d) - sum d * sum d)) / c   (the least-squares slope, scaled)
  from the row of 84 predicted atmosphere values: pblos = (p 3 + p 7 + p 11) / 3;
  from the predicted and the target rows: the row's sum of |p - t|.
  The scalar results are then one fixed function (tail) of the vector of wfa, the vector of pblos and the mean of |p - t|:
  the mask |wfa| < 100, the masked mean of |log10(|pblos| + eps) - log10(|wfa| + eps)|, and the two selects on
  (mean < 4e-4 and the mask is not empty).
-/
import Idealize.ShloMosaic.PureOps
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes (literal; the programs' own abbreviations unfold to the same) -/
abbrev T0 : Shape := ⟨0, ![]⟩
abbrev TB : Shape := ⟨1, ![65536]⟩
abbrev TStokes : Shape := ⟨3, ![65536, 4, 112]⟩
abbrev TAtm : Shape := ⟨2, ![65536, 84]⟩
abbrev TWl : Shape := ⟨1, ![112]⟩

/-! ## The constants, as the words both programs carry -/
def half : EReal := Ideal.ofBits .f32 0x3F000000#32
def n111 : EReal := Ideal.ofBits .f32 0x42DE0000#32
def cDen : EReal := Ideal.ofBits .f32 0x37E944AF#32
def three : EReal := Ideal.ofBits .f32 0x40400000#32
def cCount : EReal := Ideal.ofBits .f32 0x4AA80000#32

/-- Lane k of the first 111 as a lane of the 112. -/
abbrev lane (k : Fin 111) : Fin 112 := ⟨k.val, by omega⟩

/-- numpy's gradient of a row of 111 entries at unit spacing. The branches are written as the three pieces laid end to end
    (extents 1, 109, 1) read at lane k. -/
def grad (x : Fin 111 → EReal) (k : Fin 111) : EReal :=
  if h1 : k.val < 1 then x ⟨1, by omega⟩ - x ⟨0, by omega⟩
  else if h2 : k.val < 1 + 109 then (x ⟨k.val - 1 + 2, by omega⟩ - x ⟨k.val - 1, by omega⟩) * half
  else x ⟨110, by omega⟩ - x ⟨109, by omega⟩

/-- dI/dlambda at lane k. -/
def slope (I wl : Fin 111 → EReal) (k : Fin 111) : EReal := Ideal.div (grad I k) (grad wl k)

/-- The scaled least-squares slope of V against dI/dlambda over the 111 lanes. -/
def wfaRow (I V wl : Fin 111 → EReal) : EReal :=
  Ideal.div
    (-(Ideal.div
        (n111 * (∑ k, slope I wl k * V k) - (∑ k, slope I wl k) * (∑ k, V k))
        (n111 * (∑ k, slope I wl k * slope I wl k) - (∑ k, slope I wl k) * (∑ k, slope I wl k))))
    cDen

/-- The mean of the fourth magnetic parameter over the first three optical depths. -/
def pblosRow (p : Fin 84 → EReal) : EReal := Ideal.div (p ⟨3, by omega⟩ + p ⟨7, by omega⟩ + p ⟨11, by omega⟩) three

/-- A row's sum of absolute differences. -/
def absRow (p t : Fin 84 → EReal) : EReal := ∑ j, FloatOps.absf (F := Ideal) (φ := .f32) (p j - t j)

/-! ## The same per row of the argument arrays -/
def wfaArr (a0 : TStokes.Idx → EReal) (a3 : TWl.Idx → EReal) (b : Fin 65536) : EReal :=
  wfaRow (fun k => a0 (ix3 b (0 : Fin 4) (lane k))) (fun k => a0 (ix3 b (3 : Fin 4) (lane k))) (fun k => a3 (ix1 (lane k)))
def pblosArr (a1 : TAtm.Idx → EReal) (b : Fin 65536) : EReal := pblosRow (fun j => a1 (ix2 b j))
def absArr (a1 a2 : TAtm.Idx → EReal) (b : Fin 65536) : EReal := absRow (fun j => a1 (ix2 b j)) (fun j => a2 (ix2 b j))
/-- The mean absolute difference over all 65536 x 84 entries. -/
def baseVal (a1 a2 : TAtm.Idx → EReal) : EReal := Ideal.div (∑ b, absArr a1 a2 b) cCount

/-- The vectors of per-row values, as arrays of 65536. -/
def wfaVec (a0 : TStokes.Idx → EReal) (a3 : TWl.Idx → EReal) : FVec Ideal TB .f32 := fun i => wfaArr a0 a3 ⟨(i 0).val, (i 0).isLt⟩
def pblosVec (a1 : TAtm.Idx → EReal) : FVec Ideal TB .f32 := fun i => pblosArr a1 ⟨(i 0).val, (i 0).isLt⟩
def baseVec (a1 a2 : TAtm.Idx → EReal) : FVec Ideal T0 .f32 := fun _ => baseVal a1 a2

/-! ## The shared scalar tail -/

variable {F : FTy → Type} [FloatOps F]

/-- The two scalar results that depend on the mask (the total loss and the masked loss), from the vector of wfa, the vector
    of pblos and the base loss: the host operations both programs apply, in their order. -/
def tail (hb : T0.BroadcastsInDim TB (![] : Fin 0 → Fin TB.rank)) (hr : TB.ReducesTo [0] T0) (h0 : 0 < T0.numel) (h32 : 1 < 32)
    (w pb : FVec F TB .f32) (base : FVec F T0 .f32) : FVec F T0 .f32 × FVec F T0 .f32 :=
  let mask : IVec TB 1 := cmpf .olt (Host.absf w) (broadcastInDim TB ![] hb (constant T0 .f32 0x42C80000#32))
  let diff : FVec F TB .f32 :=
    Host.absf (subf
      (mulf (Host.log (addf (Host.absf pb) (broadcastInDim TB ![] hb (constant T0 .f32 0x2EDBE6FF#32))))
        (broadcastInDim TB ![] hb (constant T0 .f32 0x3EDE5BD9#32)))
      (mulf (Host.log (addf (Host.absf w) (broadcastInDim TB ![] hb (constant T0 .f32 0x2EDBE6FF#32))))
        (broadcastInDim TB ![] hb (constant T0 .f32 0x3EDE5BD9#32))))
  let cnt : IVec T0 32 := Host.reduce IntOp.addi (extui 32 mask h32) (constantI T0 32 0#32) hr h0
  let masked : FVec F TB .f32 := select mask diff (broadcastInDim TB ![] hb (id (constant T0 .f32 0x00000000#32)))
  let wlm : FVec F T0 .f32 :=
    Host.divf (Host.reduceAdd masked (constant T0 .f32 0x00000000#32) hr h0) (sitofp .f32 (maxsi cnt (constantI T0 32 1#32)))
  let app : IVec T0 1 := andi (cmpf .olt base (constant T0 .f32 0x39D1B717#32)) (cmpi .sgt cnt (constantI T0 32 0#32))
  (select app (addf (mulf (constant T0 .f32 0x3F000000#32) base) (mulf (constant T0 .f32 0x3F000000#32) wlm)) base,
   select app wlm (constant T0 .f32 0x00000000#32))

end Cert.Spec

end
-- ==== Proof.LibRowOps.lean ====
/-
  A lane reduction kept as a column, and a column spread back over the lanes, read at an index on the extended reals.

  For a rank-2 vector `v` of `R` rows and `C` lanes: the sum (or, from a given word, the maximum) of each row over its lanes,
  cast from `[R]` to the column shape `[R, 1]`, holds at `(p, q)` the sum (the maximum) of row `p`; a column `[R, 1]` broadcast
  to `[R, C]` holds at `(p, k)` the column's entry of row `p`. The host's forms of the same (a `reduce` over axis 1, a
  `broadcast_in_dim` on axis 0 or on both axes) read likewise. All are stated at coordinates `p : Fin R`, `k : Fin C`, so that
  they rewrite a term at `ix2 p k` whatever the literal extents.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RowOps

open Idealize.ShloMosaic Idealize.ShloMosaic.ValueIdx

variable {R C : ℕ}

/-- The exponential, the square root and the absolute value of a vector read entry by entry. -/
theorem exp_apply {s : Shape} (v : FVec Ideal s .f32) (i : s.Idx) : exp v i = Ideal.exp (v i) := rfl
theorem sqrt_apply {s : Shape} (v : FVec Ideal s .f32) (i : s.Idx) : sqrt v i = Ideal.sqrt (v i) := rfl
theorem absf_apply {s : Shape} (v : FVec Ideal s .f32) (i : s.Idx) : absf v i = FloatOps.absf (F := Ideal) (φ := .f32) (v i) := rfl

/-- Row `p` with lane `k` put back on axis 1 is the index `(p, k)`. -/
theorem lift_lane (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- The column shape's entry `(p, q)` sits at row-major position `p`, as entry `p` of the vector does. -/
theorem col_pos (p : Fin R) (q : Fin 1) :
    ((⟨1, ![R]⟩ : Shape).rowMajor (ix1 p)).val = ((⟨2, ![R, 1]⟩ : Shape).rowMajor (ix2 p q)).val := by
  rw [Shape.rowMajor_val_one, Shape.rowMajor_val_two]
  have := q.isLt
  show p.val = p.val * 1 + q.val
  omega

/-- A vector cast to a column reads, at `(p, q)`, its entry `p`. -/
theorem castCol_apply {α : Type} (x : (⟨1, ![R]⟩ : Shape).Idx → α) (hc : (⟨1, ![R]⟩ : Shape).ShapeCasts (⟨2, ![R, 1]⟩ : Shape))
    (p : Fin R) (q : Fin 1) : shapeCast (⟨2, ![R, 1]⟩ : Shape) x hc (ix2 p q) = x (ix1 p) :=
  shapeCast_apply x hc (ix2 p q) (ix1 p) (col_pos p q)

/-- The lane sum of a vector, read at row `p`. -/
theorem laneSum_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.add.neutral .f32 hφ)
    (p : Fin R) : multiReduction .add [1] (⟨1, ![R]⟩ : Shape) v acc h hφ hacc (ix1 p) = ∑ k : Fin C, v (ix2 p k) := by
  rw [Ideal.multiReduction_add_single]
  show ∑ k : Fin C, v (h.lift (ix1 p) k) = _
  exact Finset.sum_congr rfl fun k _ => congrArg v (lift_lane h p k)

/-- The lane maximum of a vector from the word `acc`, read at row `p`. -/
theorem laneMax_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.maximumf.neutral .f32 hφ)
    (p : Fin R) : multiReduction .maximumf [1] (⟨1, ![R]⟩ : Shape) v acc h hφ hacc (ix1 p)
      = (Finset.univ : Finset (Fin C)).fold max (Ideal.ofBits .f32 acc) (fun k => v (ix2 p k)) := by
  rw [Ideal.multiReduction_maximumf_single]
  show (Finset.univ : Finset (Fin C)).fold max (Ideal.ofBits .f32 acc) (v ∘ h.lift (ix1 p)) = _
  exact congrArg (fun f => (Finset.univ : Finset (Fin C)).fold max (Ideal.ofBits .f32 acc) f)
    (funext fun k => congrArg v (lift_lane h p k))

/-- A column spread over the lanes reads, at `(p, k)`, the column's entry of row `p`. -/
theorem spreadCol_apply {α : Type} (col : (⟨2, ![R, 1]⟩ : Shape).Idx → α)
    (hb : (⟨2, ![R, 1]⟩ : Shape).Broadcasts (⟨2, ![R, C]⟩ : Shape)) (p : Fin R) (k : Fin C) :
    broadcastTo (⟨2, ![R, C]⟩ : Shape) col hb (ix2 p k) = col (ix2 p (0 : Fin 1)) :=
  broadcastTo_apply col hb (ix2 p k) (ix2 p (0 : Fin 1)) (fun a => by
    match a with
    | ⟨0, _⟩ =>
      show p.val = if R = 1 then 0 else p.val
      split
      · have := p.isLt; omega
      · rfl
    | ⟨1, _⟩ =>
      show (0 : Fin 1).val = if (1 : ℕ) = 1 then 0 else k.val
      simp)

/-- The host's reduce with a maximum body over the lanes, from the rank-zero initial value, read at row `p`. -/
theorem hostLaneMax_apply {u : Shape} (x : FVec Ideal (⟨2, ![R, C]⟩ : Shape) .f32) (init : u.Idx → Ideal .f32)
    (h' : (⟨2, ![R, C]⟩ : Shape).ReducesTo [1] (⟨1, ![R]⟩ : Shape)) (h : (⟨2, ![R, C]⟩ : Shape).Reduces [1] (⟨1, ![R]⟩ : Shape))
    (hu : 0 < u.numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  show (Finset.univ : Finset (Fin C)).fold max (init (Shape.Idx.first hu)) (x ∘ h.lift (ix1 p)) = _
  exact congrArg (fun f => (Finset.univ : Finset (Fin C)).fold max (init (Shape.Idx.first hu)) f)
    (funext fun k => congrArg x (lift_lane h p k))

end Cert.RowOps

end
-- ==== Proof.LibConcat3.lean ====
/-
  Three pieces laid end to end along the last axis, read at an index.

  For pieces of extents a, b, c along the lanes (a + b + c = n), the concatenation holds at lane k the first piece at k when
  k < a, the second at k - a when k < a + b, the third at k - a - b otherwise; the other coordinate (the row) is untouched.
  Stated for a rank-2 array of R rows and for a rank-1 vector, at coordinates, so that it rewrites a term at `ix2 p k` or
  `ix1 k` whatever the literal extents.
-/
import Idealize.ShloMosaic.Lib.ValueIdx
import Idealize.ShloMosaic.Lib.Pipeline.Value

noncomputable section

open scoped BigOperators

namespace Cert.Concat3

open Idealize.ShloMosaic Idealize.ShloMosaic.ValueIdx

variable {α : Type} {R a b c n : ℕ}

/-- Rows: three pieces [R, a], [R, b], [R, c] along axis 1, read at (p, k). -/
theorem cat3_rows (A : (⟨2, ![R, a]⟩ : Shape).Idx → α) (B : (⟨2, ![R, b]⟩ : Shape).Idx → α) (C : (⟨2, ![R, c]⟩ : Shape).Idx → α)
    (h : Shape.Concatenates [(⟨2, ![R, a]⟩ : Shape), ⟨2, ![R, b]⟩, ⟨2, ![R, c]⟩] (⟨2, ![R, n]⟩ : Shape) 1)
    (hn : a + b + c = n) (p : Fin R) (k : Fin n) :
    concatenate (⟨2, ![R, n]⟩ : Shape) 1 [⟨⟨2, ![R, a]⟩, A⟩, ⟨⟨2, ![R, b]⟩, B⟩, ⟨⟨2, ![R, c]⟩, C⟩] h (ix2 p k)
      = if h1 : k.val < a then A (ix2 p ⟨k.val, h1⟩)
        else if h2 : k.val < a + b then B (ix2 p ⟨k.val - a, by omega⟩)
        else C (ix2 p ⟨k.val - a - b, by have := k.isLt; omega⟩) := by
  by_cases h1 : k.val < a
  · -- the first piece holds lane k: nothing lies before it
    rw [dif_pos h1]
    exact concatenate_apply_piece (t := ⟨2, ![R, n]⟩) 1
      [⟨⟨2, ![R, a]⟩, A⟩, ⟨⟨2, ![R, b]⟩, B⟩, ⟨⟨2, ![R, c]⟩, C⟩] h (ix2 p k)
      0 (by simp) ⟨2, ![R, a]⟩ A rfl rfl 0 rfl (ix2 p ⟨k.val, h1⟩)
      (fun d hd => by match d with | ⟨0, _⟩ => rfl | ⟨1, _⟩ => exact absurd rfl hd)
      (by show 0 + k.val = k.val; omega)
  · rw [dif_neg h1]
    by_cases h2 : k.val < a + b
    · -- the second piece: the a lanes of the first lie before it
      rw [dif_pos h2]
      exact concatenate_apply_piece (t := ⟨2, ![R, n]⟩) 1
        [⟨⟨2, ![R, a]⟩, A⟩, ⟨⟨2, ![R, b]⟩, B⟩, ⟨⟨2, ![R, c]⟩, C⟩] h (ix2 p k)
        1 (by simp) ⟨2, ![R, b]⟩ B rfl rfl a (by simp) (ix2 p ⟨k.val - a, by omega⟩)
        (fun d hd => by match d with | ⟨0, _⟩ => rfl | ⟨1, _⟩ => exact absurd rfl hd)
        (by show a + (k.val - a) = k.val; omega)
    · -- the third piece: the a + b lanes of the first two lie before it
      rw [dif_neg h2]
      exact concatenate_apply_piece (t := ⟨2, ![R, n]⟩) 1
        [⟨⟨2, ![R, a]⟩, A⟩, ⟨⟨2, ![R, b]⟩, B⟩, ⟨⟨2, ![R, c]⟩, C⟩] h (ix2 p k)
        2 (by simp) ⟨2, ![R, c]⟩ C rfl rfl (a + b) (by simp) (ix2 p ⟨k.val - a - b, by have := k.isLt; omega⟩)
        (fun d hd => by match d with | ⟨0, _⟩ => rfl | ⟨1, _⟩ => exact absurd rfl hd)
        (by show a + b + (k.val - a - b) = k.val; omega)

/-- A vector: three pieces [a], [b], [c] along axis 0, read at k. -/
theorem cat3_vec (A : (⟨1, ![a]⟩ : Shape).Idx → α) (B : (⟨1, ![b]⟩ : Shape).Idx → α) (C : (⟨1, ![c]⟩ : Shape).Idx → α)
    (h : Shape.Concatenates [(⟨1, ![a]⟩ : Shape), ⟨1, ![b]⟩, ⟨1, ![c]⟩] (⟨1, ![n]⟩ : Shape) 0)
    (hn : a + b + c = n) (k : Fin n) :
    concatenate (⟨1, ![n]⟩ : Shape) 0 [⟨⟨1, ![a]⟩, A⟩, ⟨⟨1, ![b]⟩, B⟩, ⟨⟨1, ![c]⟩, C⟩] h (ix1 k)
      = if h1 : k.val < a then A (ix1 ⟨k.val, h1⟩)
        else if h2 : k.val < a + b then B (ix1 ⟨k.val - a, by omega⟩)
        else C (ix1 ⟨k.val - a - b, by have := k.isLt; omega⟩) := by
  by_cases h1 : k.val < a
  · -- the first piece holds position k: nothing lies before it
    rw [dif_pos h1]
    exact concatenate_apply_piece (t := ⟨1, ![n]⟩) 0
      [⟨⟨1, ![a]⟩, A⟩, ⟨⟨1, ![b]⟩, B⟩, ⟨⟨1, ![c]⟩, C⟩] h (ix1 k)
      0 (by simp) ⟨1, ![a]⟩ A rfl rfl 0 rfl (ix1 ⟨k.val, h1⟩)
      (fun d hd => by match d with | ⟨0, _⟩ => exact absurd rfl hd)
      (by show 0 + k.val = k.val; omega)
  · rw [dif_neg h1]
    by_cases h2 : k.val < a + b
    · -- the second piece: the a positions of the first lie before it
      rw [dif_pos h2]
      exact concatenate_apply_piece (t := ⟨1, ![n]⟩) 0
        [⟨⟨1, ![a]⟩, A⟩, ⟨⟨1, ![b]⟩, B⟩, ⟨⟨1, ![c]⟩, C⟩] h (ix1 k)
        1 (by simp) ⟨1, ![b]⟩ B rfl rfl a (by simp) (ix1 ⟨k.val - a, by omega⟩)
        (fun d hd => by match d with | ⟨0, _⟩ => exact absurd rfl hd)
        (by show a + (k.val - a) = k.val; omega)
    · -- the third piece: the a + b positions of the first two lie before it
      rw [dif_neg h2]
      exact concatenate_apply_piece (t := ⟨1, ![n]⟩) 0
        [⟨⟨1, ![a]⟩, A⟩, ⟨⟨1, ![b]⟩, B⟩, ⟨⟨1, ![c]⟩, C⟩] h (ix1 k)
        2 (by simp) ⟨1, ![c]⟩ C rfl rfl (a + b) (by simp) (ix1 ⟨k.val - a - b, by have := k.isLt; omega⟩)
        (fun d hd => by match d with | ⟨0, _⟩ => exact absurd rfl hd)
        (by show a + b + (k.val - a - b) = k.val; omega)

end Cert.Concat3

end
-- ==== Proof.KernelRows.lean ====
/-
  The kernel body's first stored value (the scaled least-squares slope), read at a row of the block: the specification's row
  function of that row of the loaded planes and of the loaded wavelengths.
-/
import proofs.«173965_j52828097741444_1_alg».proof.Proof.Gen.KernelIdeal.Skeleton
import proofs.«173965_j52828097741444_1_alg».proof.Proof.Spec
import proofs.«173965_j52828097741444_1_alg».proof.Proof.LibRowOps
import proofs.«173965_j52828097741444_1_alg».proof.Proof.LibConcat3
import Idealize.ShloMosaic.Lib.KernelVsHost
import Idealize.ShloMosaic.Lib.ValueLayout

noncomputable section

open scoped BigOperators

namespace Cert.KernelIdeal.Rows

open Cert.KernelIdeal Cert.KernelIdeal.Gen Idealize.ShloMosaic Idealize.ShloMosaic.ValueIdx

/-- A plane of the block, [1024, 1, 111], viewed as [1024, 111]: entry (r, k) is the plane's entry (r, 0, k), the two
    having the same row-major position r * 111 + k. -/
private theorem plane_apply (v : Vec Ideal S1024x1x111 .f32) (h : S1024x1x111.ShapeCasts S1024x111) (r : Fin 1024) (k : Fin 111) :
    shapeCast S1024x111 v h (ix2 r k) = v (ix3 r (0 : Fin 1) k) :=
  shapeCast_apply v h (ix2 r k) (ix3 r (0 : Fin 1) k) (by
    rw [Shape.rowMajor_val_three, Shape.rowMajor_val_two]
    show (r.val * 1 + 0) * 111 + k.val = r.val * 111 + k.val
    omega)

/-- The gradient along the lanes of a [1024, 111] array, laid out as its three pieces (the left end, the halved central
    differences, the right end) end to end, is at (r, k) the specification's gradient of row r at lane k: each piece reads
    two lanes of the row, shifted by the piece's offsets. -/
private theorem gradRows_apply (x : FVec Ideal S1024x111 .f32)
    (h1 : S1024x111.Slices ![0, 1] S1024x1) (h0 : S1024x111.Slices ![0, 0] S1024x1)
    (h2 : S1024x111.Slices ![0, 2] S1024x109) (h0' : S1024x111.Slices ![0, 0] S1024x109)
    (h110 : S1024x111.Slices ![0, 110] S1024x1) (h109 : S1024x111.Slices ![0, 109] S1024x1)
    (hc : Shape.Concatenates [S1024x1, S1024x109, S1024x1] S1024x111 1) (r : Fin 1024) (k : Fin 111) :
    concatenate S1024x111 1
        [⟨S1024x1, subf (extractStridedSlice S1024x1 ![0, 1] x h1) (extractStridedSlice S1024x1 ![0, 0] x h0)⟩,
         ⟨S1024x109, mulf (subf (extractStridedSlice S1024x109 ![0, 2] x h2) (extractStridedSlice S1024x109 ![0, 0] x h0'))
            (broadcast S1024x109 (Scalar.ofBits (F := Ideal) .f32 0x3F000000#32))⟩,
         ⟨S1024x1, subf (extractStridedSlice S1024x1 ![0, 110] x h110) (extractStridedSlice S1024x1 ![0, 109] x h109)⟩]
        hc (ix2 r k)
      = Cert.Spec.grad (fun k' => x (ix2 r k')) k := by
  refine (Cert.Concat3.cat3_rows _ _ _ hc (by norm_num) r k).trans ?_
  unfold Cert.Spec.grad
  by_cases c1 : k.val < 1
  · rw [dif_pos c1, dif_pos c1]
    refine congrArg₂ (fun a b : EReal => a - b)
      (slice2_axis1_apply 1 x h1 r _ _ ?_) (slice2_axis1_apply 0 x h0 r _ _ ?_)
    · show (1 : ℕ) = 1 + k.val
      omega
    · show (0 : ℕ) = 0 + k.val
      omega
  · rw [dif_neg c1, dif_neg c1]
    by_cases c2 : k.val < 1 + 109
    · rw [dif_pos c2, dif_pos c2]
      refine congrArg₂ (fun a b : EReal => a * b)
        (congrArg₂ (fun a b : EReal => a - b)
          (slice2_axis1_apply 2 x h2 r _ _ ?_) (slice2_axis1_apply 0 x h0' r _ _ ?_)) rfl
      · show k.val - 1 + 2 = 2 + (k.val - 1)
        omega
      · show k.val - 1 = 0 + (k.val - 1)
        omega
    · rw [dif_neg c2, dif_neg c2]
      refine congrArg₂ (fun a b : EReal => a - b)
        (slice2_axis1_apply 110 x h110 r _ _ ?_) (slice2_axis1_apply 109 x h109 r _ _ ?_)
      · show (110 : ℕ) = 110 + (k.val - 1 - 109)
        have := k.isLt
        omega
      · show (109 : ℕ) = 109 + (k.val - 1 - 109)
        have := k.isLt
        omega

/-- A vector cut from position o reads, at j, the source at o + j. -/
private theorem slice1_apply {α : Type} {n m : ℕ} (o : ℕ) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-- The same gradient of the wavelength vector: three pieces of extents 1, 109, 1 end to end along the one axis. -/
private theorem gradVec_apply (w : FVec Ideal S111 .f32)
    (h1 : S111.Slices ![1] S1) (h0 : S111.Slices ![0] S1)
    (h2 : S111.Slices ![2] S109) (h0' : S111.Slices ![0] S109)
    (h110 : S111.Slices ![110] S1) (h109 : S111.Slices ![109] S1)
    (hc : Shape.Concatenates [S1, S109, S1] S111 0) (k : Fin 111) :
    concatenate S111 0
        [⟨S1, subf (extractStridedSlice S1 ![1] w h1) (extractStridedSlice S1 ![0] w h0)⟩,
         ⟨S109, mulf (subf (extractStridedSlice S109 ![2] w h2) (extractStridedSlice S109 ![0] w h0'))
            (broadcast S109 (Scalar.ofBits (F := Ideal) .f32 0x3F000000#32))⟩,
         ⟨S1, subf (extractStridedSlice S1 ![110] w h110) (extractStridedSlice S1 ![109] w h109)⟩]
        hc (ix1 k)
      = Cert.Spec.grad (fun k' => w (ix1 k')) k := by
  refine (Cert.Concat3.cat3_vec _ _ _ hc (by norm_num) k).trans ?_
  unfold Cert.Spec.grad
  by_cases c1 : k.val < 1
  · rw [dif_pos c1, dif_pos c1]
    refine congrArg₂ (fun a b : EReal => a - b)
      (slice1_apply 1 w h1 _ _ ?_) (slice1_apply 0 w h0 _ _ ?_)
    · show (1 : ℕ) = 1 + k.val
      omega
    · show (0 : ℕ) = 0 + k.val
      omega
  · rw [dif_neg c1, dif_neg c1]
    by_cases c2 : k.val < 1 + 109
    · rw [dif_pos c2, dif_pos c2]
      refine congrArg₂ (fun a b : EReal => a * b)
        (congrArg₂ (fun a b : EReal => a - b)
          (slice1_apply 2 w h2 _ _ ?_) (slice1_apply 0 w h0' _ _ ?_)) rfl
      · show k.val - 1 + 2 = 2 + (k.val - 1)
        omega
      · show k.val - 1 = 0 + (k.val - 1)
        omega
    · rw [dif_neg c2, dif_neg c2]
      refine congrArg₂ (fun a b : EReal => a - b)
        (slice1_apply 110 w h110 _ _ ?_) (slice1_apply 109 w h109 _ _ ?_)
      · show (110 : ℕ) = 110 + (k.val - 1 - 109)
        have := k.isLt
        omega
      · show (109 : ℕ) = 109 + (k.val - 1 - 109)
        have := k.isLt
        omega

/-- dI/dlambda of the block at (r, k): the specification's slope of row r at lane k. The numerator is the lane gradient of
    the plane I viewed as [1024, 111]; the denominator the gradient of the wavelengths, viewed as one row and repeated down
    the rows. -/
private theorem pay4_apply (v0 : Vec Ideal S1024x1x111 .f32) (v4 : Vec Ideal S111 .f32) (r : Fin 1024) (k : Fin 111) :
    k0_pay4 (F := Ideal) v0 v4 (ix2 r k)
      = Cert.Spec.slope (fun k' => v0 (ix3 r (0 : Fin 1) k')) (fun k' => v4 (ix1 k')) k := by
  unfold k0_pay4 Cert.Spec.slope
  refine congrArg₂ Ideal.div ?_ ?_
  · refine (gradRows_apply _ _ _ _ _ _ _ _ r k).trans ?_
    exact congrArg (fun f => Cert.Spec.grad f k) (funext fun k' => plane_apply v0 _ r k')
  · refine (broadcastTo_1b_ab_apply _ _ r k).trans ?_
    refine (shapeCast_a_1a_apply _ _ (0 : Fin 1) k).trans ?_
    exact gradVec_apply v4 _ _ _ _ _ _ _ k

/-- The lane sum of dI/dlambda, at row r. -/
private theorem pay5_apply (v0 : Vec Ideal S1024x1x111 .f32) (v4 : Vec Ideal S111 .f32) (r : Fin 1024) :
    k0_pay5 (F := Ideal) v0 v4 (ix1 r)
      = ∑ k, Cert.Spec.slope (fun k' => v0 (ix3 r (0 : Fin 1) k')) (fun k' => v4 (ix1 k')) k := by
  unfold k0_pay5
  refine (Cert.RowOps.laneSum_apply _ _ _ _ _ r).trans ?_
  exact Finset.sum_congr rfl fun k _ => pay4_apply v0 v4 r k

/-- The numerator of the least-squares slope, at row r: 111 times the lane sum of the products d * V, less the product of
    the two lane sums. -/
private theorem pay6_apply (v0 v2 : Vec Ideal S1024x1x111 .f32) (v4 : Vec Ideal S111 .f32) (r : Fin 1024) :
    k0_pay6 (F := Ideal) v0 v2 v4 (ix1 r)
      = Cert.Spec.n111 * (∑ k, Cert.Spec.slope (fun k' => v0 (ix3 r (0 : Fin 1) k')) (fun k' => v4 (ix1 k')) k * v2 (ix3 r (0 : Fin 1) k))
        - (∑ k, Cert.Spec.slope (fun k' => v0 (ix3 r (0 : Fin 1) k')) (fun k' => v4 (ix1 k')) k) * (∑ k, v2 (ix3 r (0 : Fin 1) k)) := by
  unfold k0_pay6
  refine congrArg₂ (fun a b : EReal => a - b)
    (congrArg₂ (fun a b : EReal => a * b) rfl ?_)
    (congrArg₂ (fun a b : EReal => a * b) (pay5_apply v0 v4 r) ?_)
  · refine (Cert.RowOps.laneSum_apply _ _ _ _ _ r).trans ?_
    exact Finset.sum_congr rfl fun k _ =>
      congrArg₂ (fun a b : EReal => a * b) (pay4_apply v0 v4 r k) (plane_apply v2 _ r k)
  · refine (Cert.RowOps.laneSum_apply _ _ _ _ _ r).trans ?_
    exact Finset.sum_congr rfl fun k _ => plane_apply v2 _ r k

/-- 111 times the lane sum of the squares of dI/dlambda, at row r. -/
private theorem pay7_apply (v0 : Vec Ideal S1024x1x111 .f32) (v4 : Vec Ideal S111 .f32) (r : Fin 1024) :
    k0_pay7 (F := Ideal) v0 v4 (ix1 r)
      = Cert.Spec.n111 * (∑ k, Cert.Spec.slope (fun k' => v0 (ix3 r (0 : Fin 1) k')) (fun k' => v4 (ix1 k')) k
          * Cert.Spec.slope (fun k' => v0 (ix3 r (0 : Fin 1) k')) (fun k' => v4 (ix1 k')) k) := by
  unfold k0_pay7
  refine congrArg₂ (fun a b : EReal => a * b) rfl ?_
  refine (Cert.RowOps.laneSum_apply _ _ _ _ _ r).trans ?_
  exact Finset.sum_congr rfl fun k _ =>
    congrArg₂ (fun a b : EReal => a * b) (pay4_apply v0 v4 r k) (pay4_apply v0 v4 r k)

/-- The scaled least-squares slope of block row r, from the loaded planes I (v0), V (v2) and the loaded wavelengths (v4). -/
theorem pay_wfa (v0 v2 : Vec Ideal S1024x1x111 .f32) (v4 : Vec Ideal S111 .f32) (r : Fin 1024) (q : Fin 1) :
    k0_pay1 (F := Ideal) (k0_pay5 v0 v4) (k0_pay6 v0 v2 v4) (k0_pay7 v0 v4) (ix2 r q)
      = Cert.Spec.wfaRow (fun k => v0 (ix3 r (0 : Fin 1) k)) (fun k => v2 (ix3 r (0 : Fin 1) k)) (fun k => v4 (ix1 k)) := by
  unfold k0_pay1
  refine (Cert.RowOps.castCol_apply _ _ r q).trans ?_
  unfold Cert.Spec.wfaRow
  refine congrArg₂ Ideal.div ?_ rfl
  show Ideal.ofBits .f32 0x00000000#32
      - Ideal.div (k0_pay6 (F := Ideal) v0 v2 v4 (ix1 r))
          (k0_pay7 (F := Ideal) v0 v4 (ix1 r) - k0_pay5 (F := Ideal) v0 v4 (ix1 r) * k0_pay5 (F := Ideal) v0 v4 (ix1 r)) = _
  rw [Ideal.ofBits_zero_f32, zero_sub, pay6_apply, pay7_apply, pay5_apply]

end Cert.KernelIdeal.Rows

end
-- ==== Proof.KernelRowsAtm.lean ====
/-
  The kernel body's second and third stored values, read at a row of the block: the mean of three columns of the predicted
  atmosphere's row, and the row's sum of absolute differences between the predicted and the target atmosphere.
-/
import proofs.«173965_j52828097741444_1_alg».proof.Proof.Gen.KernelIdeal.Skeleton
import proofs.«173965_j52828097741444_1_alg».proof.Proof.Spec
import proofs.«173965_j52828097741444_1_alg».proof.Proof.LibRowOps
import Idealize.ShloMosaic.Lib.KernelVsHost
import Idealize.ShloMosaic.Lib.ValueLayout

noncomputable section

open scoped BigOperators

namespace Cert.KernelIdeal.Rows

open Cert.KernelIdeal Cert.KernelIdeal.Gen Idealize.ShloMosaic Idealize.ShloMosaic.ValueIdx

/-- One column of the block, taken as a [1024, 1] slice at lane c and flattened to [1024], holds at row r the block's entry (r, c):
    the flattening keeps the row-major position (r * 1 + 0 = r) and the slice shifts the lane by its offset (c + 0 = c). -/
private theorem col_apply (v : FVec Ideal S1024x84 .f32) (c : ℕ) (hc : c < 84) (hs : S1024x84.Slices ![0, c] S1024x1)
    (hcast : S1024x1.ShapeCasts S1024) (r : Fin 1024) :
    shapeCast S1024 (extractStridedSlice S1024x1 ![0, c] v hs) hcast (ix1 r) = v (ix2 r ⟨c, hc⟩) := by
  refine (shapeCast_apply _ hcast (ix1 r) (ix2 r (0 : Fin 1)) ?_).trans ?_
  · rw [Shape.rowMajor_val_two, Shape.rowMajor_val_one]
    show r.val * 1 + 0 = r.val
    omega
  · refine extractStridedSlice_apply _ v hs (ix2 r (0 : Fin 1)) (ix2 r ⟨c, hc⟩) fun a => ?_
    match a with
    | ⟨0, _⟩ => show r.val = 0 + r.val; omega
    | ⟨1, _⟩ => show c = c + 0; omega

/-- The mean of columns 3, 7, 11 of block row r. -/
theorem pay_pblos (v54 : Vec Ideal S1024x84 .f32) (r : Fin 1024) (q : Fin 1) :
    k0_pay2 (F := Ideal) v54 (ix2 r q) = Cert.Spec.pblosRow (fun j => v54 (ix2 r j)) := by
  unfold k0_pay2
  -- the outer cast to a column reads entry r of the vector; below it the operations are entrywise
  refine (Cert.RowOps.castCol_apply _ _ r q).trans ?_
  rw [divf_apply, addf_apply, addf_apply, col_apply v54 3 (by omega) _ _ r, col_apply v54 7 (by omega) _ _ r,
    col_apply v54 11 (by omega) _ _ r]
  -- the divisor is the word of 3.0 at every row
  unfold Cert.Spec.pblosRow Cert.Spec.three
  rfl

/-- The sum of |p - t| over block row r. -/
theorem pay_abs (v54 v68 : Vec Ideal S1024x84 .f32) (r : Fin 1024) (q : Fin 1) :
    k0_pay3 (F := Ideal) v54 v68 (ix2 r q) = Cert.Spec.absRow (fun j => v54 (ix2 r j)) (fun j => v68 (ix2 r j)) := by
  unfold k0_pay3
  -- the outer cast to a column reads entry r of the lane sum, which is the sum over row r's 84 lanes
  refine (Cert.RowOps.castCol_apply _ _ r q).trans ?_
  refine (Cert.RowOps.laneSum_apply _ _ _ _ _ r).trans ?_
  unfold Cert.Spec.absRow
  rfl

end Cert.KernelIdeal.Rows

end
-- ==== Proof.KernelArrays.lean ====
/-
  From blocks to arrays: after the 64 grid points each output array [65536, 1] holds, at row b, the specification's row value of
  row b of the argument arrays (block t covers rows 1024 t .. 1024 t + 1023, and the body's stored value at block row r is the row
  function of row 1024 t + r).
-/
import proofs.«173965_j52828097741444_1_alg».proof.Proof.Gen.KernelIdeal.Frame
import proofs.«173965_j52828097741444_1_alg».proof.Proof.KernelRows
import proofs.«173965_j52828097741444_1_alg».proof.Proof.KernelRowsAtm
import Idealize.ShloMosaic.Lib.Pipeline.Value

noncomputable section

open scoped BigOperators

namespace Cert.KernelIdeal.Arrays

open Cert.KernelIdeal Cert.KernelIdeal.Gen Idealize.ShloMosaic Idealize.ShloMosaic.TcCoe Idealize.ShloMosaic.ValueIdx Idealize.SL.Sem

/-- The three output arrays as whole-array functions of the argument arrays. -/
def G4 (a0 : FVec Ideal S65536x4x112 .f32) (a3 : FVec Ideal S112 .f32) : FVec Ideal S65536x1 .f32 :=
  fun j => Cert.Spec.wfaArr a0 a3 ⟨(j 0).val, (j 0).isLt⟩
def G5 (a1 : FVec Ideal S65536x84 .f32) : FVec Ideal S65536x1 .f32 :=
  fun j => Cert.Spec.pblosArr a1 ⟨(j 0).val, (j 0).isLt⟩
def G6 (a1 a2 : FVec Ideal S65536x84 .f32) : FVec Ideal S65536x1 .f32 :=
  fun j => Cert.Spec.absArr a1 a2 ⟨(j 0).val, (j 0).isLt⟩

variable (m : (ℓ : Loc nD τ sig) → Buf (Elt Ideal) ℓ)

/-! ## The grid's index maps and the rows of a block -/

/-- The zero offsets of a whole-buffer rectangle of rank 2, however spelt. -/
theorem zeros2 : (![0, 0] : Fin 2 → Nat) = fun _ => 0 := funext fun a => by fin_cases a <;> rfl

/-- The printed index maps over the 64 grid points: every row-blocked window's block index is (t, 0, …), the wavelength
    window's is 0. -/
theorem index_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A grid point is below 64. -/
theorem point_lt (t : Fin cfg0.N) : t.val < 64 := lt_of_lt_of_eq t.isLt N_0

/-- Row r of block t as a row of the whole array: 1024 t + r. -/
def rowOf (t : Fin cfg0.N) (r : Fin 1024) : Fin 65536 := ⟨1024 * t.val + r.val, by have := point_lt t; omega⟩

theorem G4_apply (a0 : FVec Ideal S65536x4x112 .f32) (a3 : FVec Ideal S112 .f32) (j : S65536x1.Idx) :
    G4 a0 a3 j = Cert.Spec.wfaArr a0 a3 ⟨(j 0).val, (j 0).isLt⟩ := rfl
theorem G5_apply (a1 : FVec Ideal S65536x84 .f32) (j : S65536x1.Idx) :
    G5 a1 j = Cert.Spec.pblosArr a1 ⟨(j 0).val, (j 0).isLt⟩ := rfl
theorem G6_apply (a1 a2 : FVec Ideal S65536x84 .f32) (j : S65536x1.Idx) :
    G6 a1 a2 j = Cert.Spec.absArr a1 a2 ⟨(j 0).val, (j 0).isLt⟩ := rfl

/-! ## Each loaded block, read at a coordinate, is the argument array at the shifted coordinate -/

/-- Plane 0 of the Stokes block at point t, row r, lane k of the first 111, is the argument at row 1024 t + r. -/
theorem ld_stokes0 (c : Dev nD) (t : Fin cfg0.N) (r : Fin 1024) (k : Fin 111) :
    View.ld (iblk m c 0 t) r0_0 (ix3 r (0 : Fin 1) k) = V m c main_arg0 (ix3 (rowOf t r) (0 : Fin 4) (Cert.Spec.lane k)) := by
  obtain ⟨e0, e1, e2, -⟩ := index_facts t
  unfold iblk
  show V m c main_arg0 (((cfg0.win 0).blk t).view.emb (r0_0.idx (ix3 r (0 : Fin 1) k))) = _
  congr 1
  funext a
  apply Fin.ext
  match a with
  | ⟨0, _⟩ => show win0_0.index t (0 : Fin 3) * 1024 + 1 * (0 + 1 * r.val) = 1024 * t.val + r.val; rw [e0]; omega
  | ⟨1, _⟩ => show win0_0.index t (1 : Fin 3) * 4 + 1 * (0 + 1 * 0) = 0; rw [e1]
  | ⟨2, _⟩ => show win0_0.index t (2 : Fin 3) * 112 + 1 * (0 + 1 * k.val) = k.val; rw [e2]; omega

/-- Plane 3 of the Stokes block likewise (the load's rectangle starts at plane 3). -/
theorem ld_stokes3 (c : Dev nD) (t : Fin cfg0.N) (r : Fin 1024) (k : Fin 111) :
    View.ld (iblk m c 0 t) r0_1 (ix3 r (0 : Fin 1) k) = V m c main_arg0 (ix3 (rowOf t r) (3 : Fin 4) (Cert.Spec.lane k)) := by
  obtain ⟨e0, e1, e2, -⟩ := index_facts t
  unfold iblk
  show V m c main_arg0 (((cfg0.win 0).blk t).view.emb (r0_1.idx (ix3 r (0 : Fin 1) k))) = _
  congr 1
  funext a
  apply Fin.ext
  match a with
  | ⟨0, _⟩ => show win0_0.index t (0 : Fin 3) * 1024 + 1 * (0 + 1 * r.val) = 1024 * t.val + r.val; rw [e0]; omega
  | ⟨1, _⟩ => show win0_0.index t (1 : Fin 3) * 4 + 1 * (3 + 1 * 0) = 3; rw [e1]
  | ⟨2, _⟩ => show win0_0.index t (2 : Fin 3) * 112 + 1 * (0 + 1 * k.val) = k.val; rw [e2]; omega

/-- The wavelength block (the whole array at every point), lane k of the first 111. -/
theorem ld_wl (c : Dev nD) (t : Fin cfg0.N) (k : Fin 111) :
    View.ld (iblk m c 3 t) r0_2 (ix1 k) = V m c main_arg3 (ix1 (Cert.Spec.lane k)) := by
  obtain ⟨-, -, -, -, -, -, -, e0, -⟩ := index_facts t
  unfold iblk
  show V m c main_arg3 (((cfg0.win 3).blk t).view.emb (r0_2.idx (ix1 k))) = _
  congr 1
  funext a
  apply Fin.ext
  match a with
  | ⟨0, _⟩ => show win0_3.index t (0 : Fin 1) * 112 + 1 * (0 + 1 * k.val) = k.val; rw [e0]; omega

/-- The predicted-atmosphere block at point t, row r, entry j, is the argument at row 1024 t + r. -/
theorem ld_pred (c : Dev nD) (t : Fin cfg0.N) (r : Fin 1024) (j : Fin 84) :
    View.ld (iblk m c 1 t) r0_4 (ix2 r j) = V m c main_arg1 (ix2 (rowOf t r) j) := by
  obtain ⟨-, -, -, e0, e1, -⟩ := index_facts t
  unfold iblk
  show V m c main_arg1 (((cfg0.win 1).blk t).view.emb (r0_4.idx (ix2 r j))) = _
  congr 1
  funext a
  apply Fin.ext
  match a with
  | ⟨0, _⟩ => show win0_1.index t (0 : Fin 2) * 1024 + 1 * (0 + 1 * r.val) = 1024 * t.val + r.val; rw [e0]; omega
  | ⟨1, _⟩ => show win0_1.index t (1 : Fin 2) * 84 + 1 * (0 + 1 * j.val) = j.val; rw [e1]; omega

/-- The target-atmosphere block likewise. -/
theorem ld_targ (c : Dev nD) (t : Fin cfg0.N) (r : Fin 1024) (j : Fin 84) :
    View.ld (iblk m c 2 t) r0_4 (ix2 r j) = V m c main_arg2 (ix2 (rowOf t r) j) := by
  obtain ⟨-, -, -, -, -, e0, e1, -⟩ := index_facts t
  unfold iblk
  show V m c main_arg2 (((cfg0.win 2).blk t).view.emb (r0_4.idx (ix2 r j))) = _
  congr 1
  funext a
  apply Fin.ext
  match a with
  | ⟨0, _⟩ => show win0_2.index t (0 : Fin 2) * 1024 + 1 * (0 + 1 * r.val) = 1024 * t.val + r.val; rw [e0]; omega
  | ⟨1, _⟩ => show win0_2.index t (1 : Fin 2) * 84 + 1 * (0 + 1 * j.val) = j.val; rw [e1]; omega

/-! ## Output window 4: the scaled least-squares slope per row -/

/-- Row r of output block t is row 1024 t + r of the array. -/
theorem row4 (t : Fin cfg0.N) (r : Fin 1024) (q : Fin 1) :
    (⟨((((cfg0.win 4).blk t).view.emb (ix2 r q)) 0).val, ((((cfg0.win 4).blk t).view.emb (ix2 r q)) 0).isLt⟩ : Fin 65536) = rowOf t r := by
  obtain ⟨-, -, -, -, -, -, -, -, e0, -⟩ := index_facts t
  apply Fin.ext
  show win0_4.index t (0 : Fin 2) * 1024 + 1 * r.val = 1024 * t.val + r.val
  rw [e0]; omega

/-- What point t writes back is block t of the whole-array function. -/
theorem flushed4_eq (c : Dev nD) (t : Fin cfg0.N) :
    (dats (F := Ideal) m 0 c).flushed 4 t
      = ((cfg0.win 4).blk t).view.read (Elt Ideal) (G4 (V m c main_arg0) (V m c main_arg3)) := by
  show (cfg0.win 4).cut (grid0.coords t) ((dats m 0 c).after 4 t) = _
  rw [after0_4]
  unfold out0_4
  rw [View.canon_unit_zero zeros2]
  funext y
  obtain ⟨r, q, rfl⟩ : ∃ (r : Fin 1024) (q : Fin 1), y = ix2 r q := ⟨y 0, y 1, eq_ix2 y⟩
  show k0_pay1 (F := Ideal) (k0_pay5 (View.ld (iblk m c 0 t) r0_0) (View.ld (iblk m c 3 t) r0_2))
        (k0_pay6 (View.ld (iblk m c 0 t) r0_0) (View.ld (iblk m c 0 t) r0_1) (View.ld (iblk m c 3 t) r0_2))
        (k0_pay7 (View.ld (iblk m c 0 t) r0_0) (View.ld (iblk m c 3 t) r0_2)) (ix2 r q)
      = G4 (V m c main_arg0) (V m c main_arg3) (((cfg0.win 4).blk t).view.emb (ix2 r q))
  refine (Cert.KernelIdeal.Rows.pay_wfa _ _ _ r q).trans ?_
  rw [G4_apply, row4 t r q]
  unfold Cert.Spec.wfaArr
  congr 1
  · funext k; exact ld_stokes0 m c t r k
  · funext k; exact ld_stokes3 m c t r k
  · funext k; exact ld_wl m c t k

/-- An index of the array is in point t's block iff each coordinate is in the block's range on its axis. -/
theorem mem_blk4 (t : Fin cfg0.N) (i : S65536x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_0).slice (win0_4.rect t)).set ↔ _
  rw [View.set_slice_whole, Rect.mem_set_unit]
  exact Iff.rfl

/-- Every row b of the array is in the block of point b / 1024. -/
theorem cover4 (i : S65536x1.Idx) : ∃ t : Fin cfg0.N, (cfg0.win 4).flush t = true ∧ i ∈ ((cfg0.win 4).blk t).view.set := by
  have h0 : (i 0).val < 65536 := (i 0).isLt
  have h1 : (i 1).val < 1 := (i 1).isLt
  refine ⟨⟨(i 0).val / 1024, by rw [show cfg0.N = 64 from N_0]; omega⟩, flush0_4 _, ?_⟩
  obtain ⟨-, -, -, -, -, -, -, -, e0, e1, -⟩ := index_facts ⟨(i 0).val / 1024, by rw [show cfg0.N = 64 from N_0]; omega⟩
  rw [mem_blk4]
  intro a
  match a with
  | ⟨0, _⟩ =>
    show win0_4.index _ (0 : Fin 2) * 1024 ≤ (i 0).val ∧ (i 0).val < win0_4.index _ (0 : Fin 2) * 1024 + 1024
    rw [e0]; show (i 0).val / 1024 * 1024 ≤ (i 0).val ∧ (i 0).val < (i 0).val / 1024 * 1024 + 1024; omega
  | ⟨1, _⟩ =>
    show win0_4.index _ (1 : Fin 2) * 1 ≤ (i 1).val ∧ (i 1).val < win0_4.index _ (1 : Fin 2) * 1 + 1
    rw [e1]; omega

theorem final4 (c : Dev nD) : (dats (F := Ideal) m 0 c).arrAt 4 cfg0.N = G4 (V m c main_arg0) (V m c main_arg3) :=
  (dats (F := Ideal) m 0 c).arrAt_eq_of_cover 4 (G4 (V m c main_arg0) (V m c main_arg3)) (fun t _ => flushed4_eq m c t) cover4

/-! ## Output window 5: the mean of three entries of the predicted row -/

/-- Row r of output block t is row 1024 t + r of the array. -/
theorem row5 (t : Fin cfg0.N) (r : Fin 1024) (q : Fin 1) :
    (⟨((((cfg0.win 5).blk t).view.emb (ix2 r q)) 0).val, ((((cfg0.win 5).blk t).view.emb (ix2 r q)) 0).isLt⟩ : Fin 65536) = rowOf t r := by
  obtain ⟨-, -, -, -, -, -, -, -, -, -, e0, -⟩ := index_facts t
  apply Fin.ext
  show win0_5.index t (0 : Fin 2) * 1024 + 1 * r.val = 1024 * t.val + r.val
  rw [e0]; omega

/-- What point t writes back is block t of the whole-array function. -/
theorem flushed5_eq (c : Dev nD) (t : Fin cfg0.N) :
    (dats (F := Ideal) m 0 c).flushed 5 t = ((cfg0.win 5).blk t).view.read (Elt Ideal) (G5 (V m c main_arg1)) := by
  show (cfg0.win 5).cut (grid0.coords t) ((dats m 0 c).after 5 t) = _
  rw [after0_5]
  unfold out0_5
  rw [View.canon_unit_zero zeros2]
  funext y
  obtain ⟨r, q, rfl⟩ : ∃ (r : Fin 1024) (q : Fin 1), y = ix2 r q := ⟨y 0, y 1, eq_ix2 y⟩
  show k0_pay2 (F := Ideal) (View.ld (iblk m c 1 t) r0_4) (ix2 r q)
      = G5 (V m c main_arg1) (((cfg0.win 5).blk t).view.emb (ix2 r q))
  refine (Cert.KernelIdeal.Rows.pay_pblos _ r q).trans ?_
  rw [G5_apply, row5 t r q]
  unfold Cert.Spec.pblosArr
  congr 1
  funext j; exact ld_pred m c t r j

/-- An index of the array is in point t's block iff each coordinate is in the block's range on its axis. -/
theorem mem_blk5 (t : Fin cfg0.N) (i : S65536x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_1).slice (win0_5.rect t)).set ↔ _
  rw [View.set_slice_whole, Rect.mem_set_unit]
  exact Iff.rfl

/-- Every row b of the array is in the block of point b / 1024. -/
theorem cover5 (i : S65536x1.Idx) : ∃ t : Fin cfg0.N, (cfg0.win 5).flush t = true ∧ i ∈ ((cfg0.win 5).blk t).view.set := by
  have h0 : (i 0).val < 65536 := (i 0).isLt
  have h1 : (i 1).val < 1 := (i 1).isLt
  refine ⟨⟨(i 0).val / 1024, by rw [show cfg0.N = 64 from N_0]; omega⟩, flush0_5 _, ?_⟩
  obtain ⟨-, -, -, -, -, -, -, -, -, -, e0, e1, -⟩ := index_facts ⟨(i 0).val / 1024, by rw [show cfg0.N = 64 from N_0]; omega⟩
  rw [mem_blk5]
  intro a
  match a with
  | ⟨0, _⟩ =>
    show win0_5.index _ (0 : Fin 2) * 1024 ≤ (i 0).val ∧ (i 0).val < win0_5.index _ (0 : Fin 2) * 1024 + 1024
    rw [e0]; show (i 0).val / 1024 * 1024 ≤ (i 0).val ∧ (i 0).val < (i 0).val / 1024 * 1024 + 1024; omega
  | ⟨1, _⟩ =>
    show win0_5.index _ (1 : Fin 2) * 1 ≤ (i 1).val ∧ (i 1).val < win0_5.index _ (1 : Fin 2) * 1 + 1
    rw [e1]; omega

theorem final5 (c : Dev nD) : (dats (F := Ideal) m 0 c).arrAt 5 cfg0.N = G5 (V m c main_arg1) :=
  (dats (F := Ideal) m 0 c).arrAt_eq_of_cover 5 (G5 (V m c main_arg1)) (fun t _ => flushed5_eq m c t) cover5

/-! ## Output window 6: the row's sum of absolute differences -/

/-- Row r of output block t is row 1024 t + r of the array. -/
theorem row6 (t : Fin cfg0.N) (r : Fin 1024) (q : Fin 1) :
    (⟨((((cfg0.win 6).blk t).view.emb (ix2 r q)) 0).val, ((((cfg0.win 6).blk t).view.emb (ix2 r q)) 0).isLt⟩ : Fin 65536) = rowOf t r := by
  obtain ⟨-, -, -, -, -, -, -, -, -, -, -, -, e0, -⟩ := index_facts t
  apply Fin.ext
  show win0_6.index t (0 : Fin 2) * 1024 + 1 * r.val = 1024 * t.val + r.val
  rw [e0]; omega

/-- What point t writes back is block t of the whole-array function. -/
theorem flushed6_eq (c : Dev nD) (t : Fin cfg0.N) :
    (dats (F := Ideal) m 0 c).flushed 6 t
      = ((cfg0.win 6).blk t).view.read (Elt Ideal) (G6 (V m c main_arg1) (V m c main_arg2)) := by
  show (cfg0.win 6).cut (grid0.coords t) ((dats m 0 c).after 6 t) = _
  rw [after0_6]
  unfold out0_6
  rw [View.canon_unit_zero zeros2]
  funext y
  obtain ⟨r, q, rfl⟩ : ∃ (r : Fin 1024) (q : Fin 1), y = ix2 r q := ⟨y 0, y 1, eq_ix2 y⟩
  show k0_pay3 (F := Ideal) (View.ld (iblk m c 1 t) r0_4) (View.ld (iblk m c 2 t) r0_4) (ix2 r q)
      = G6 (V m c main_arg1) (V m c main_arg2) (((cfg0.win 6).blk t).view.emb (ix2 r q))
  refine (Cert.KernelIdeal.Rows.pay_abs _ _ r q).trans ?_
  rw [G6_apply, row6 t r q]
  unfold Cert.Spec.absArr
  congr 1
  · funext j; exact ld_pred m c t r j
  · funext j; exact ld_targ m c t r j

/-- An index of the array is in point t's block iff each coordinate is in the block's range on its axis. -/
theorem mem_blk6 (t : Fin cfg0.N) (i : S65536x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0_2).slice (win0_6.rect t)).set ↔ _
  rw [View.set_slice_whole, Rect.mem_set_unit]
  exact Iff.rfl

/-- Every row b of the array is in the block of point b / 1024. -/
theorem cover6 (i : S65536x1.Idx) : ∃ t : Fin cfg0.N, (cfg0.win 6).flush t = true ∧ i ∈ ((cfg0.win 6).blk t).view.set := by
  have h0 : (i 0).val < 65536 := (i 0).isLt
  have h1 : (i 1).val < 1 := (i 1).isLt
  refine ⟨⟨(i 0).val / 1024, by rw [show cfg0.N = 64 from N_0]; omega⟩, flush0_6 _, ?_⟩
  obtain ⟨-, -, -, -, -, -, -, -, -, -, -, -, e0, e1⟩ := index_facts ⟨(i 0).val / 1024, by rw [show cfg0.N = 64 from N_0]; omega⟩
  rw [mem_blk6]
  intro a
  match a with
  | ⟨0, _⟩ =>
    show win0_6.index _ (0 : Fin 2) * 1024 ≤ (i 0).val ∧ (i 0).val < win0_6.index _ (0 : Fin 2) * 1024 + 1024
    rw [e0]; show (i 0).val / 1024 * 1024 ≤ (i 0).val ∧ (i 0).val < (i 0).val / 1024 * 1024 + 1024; omega
  | ⟨1, _⟩ =>
    show win0_6.index _ (1 : Fin 2) * 1 ≤ (i 1).val ∧ (i 1).val < win0_6.index _ (1 : Fin 2) * 1 + 1
    rw [e1]; omega

theorem final6 (c : Dev nD) : (dats (F := Ideal) m 0 c).arrAt 6 cfg0.N = G6 (V m c main_arg1) (V m c main_arg2) :=
  (dats (F := Ideal) m 0 c).arrAt_eq_of_cover 6 (G6 (V m c main_arg1) (V m c main_arg2)) (fun t _ => flushed6_eq m c t) cover6

end Cert.KernelIdeal.Arrays

end
-- ==== Proof.KernelTail.lean ====
/-
  The idealized kernel's run with its results named: after the region the three output arrays hold the per-row values
  (the blocks-to-arrays module), the host lines reshape them to vectors, sum the third and divide by the count, and apply the
  shared scalar tail.
-/
import proofs.«173965_j52828097741444_1_alg».proof.Proof.Gen.KernelIdeal.Frame
import proofs.«173965_j52828097741444_1_alg».proof.Proof.KernelArrays
import proofs.«173965_j52828097741444_1_alg».proof.Proof.Spec
import Idealize.ShloMosaic.Lib.StableHlo.Run

noncomputable section

open scoped BigOperators

namespace Cert.KernelIdeal.Tail

open Cert.KernelIdeal Cert.KernelIdeal.Gen Cert.KernelIdeal.Arrays Idealize.ShloMosaic Idealize.ShloMosaic.TcCoe Idealize.ShloMosaic.ValueIdx Idealize.SL.Sem

/-- The vector of wfa, of pblos, and the base loss, as the host lines compute them from the output arrays. -/
def kW (a0 : FVec Ideal S65536x4x112 .f32) (a3 : FVec Ideal S112 .f32) : FVec Ideal S65536 .f32 :=
  shapeCast S65536 (G4 a0 a3) Facts₀.shapeCasts_S65536x1_S65536
def kP (a1 : FVec Ideal S65536x84 .f32) : FVec Ideal S65536 .f32 :=
  shapeCast S65536 (G5 a1) Facts₀.shapeCasts_S65536x1_S65536
def kB (a1 a2 : FVec Ideal S65536x84 .f32) : FVec Ideal S_ .f32 :=
  Host.divf (Host.reduceAdd (shapeCast S65536 (G6 a1 a2) Facts₀.shapeCasts_S65536x1_S65536) (constant S_ .f32 0x00000000#32) Facts₀.reducesTo_S65536_S_d0 Facts₀.h_S_)
    (constant S_ .f32 0x4AA80000#32)

/-! ## The host lines after the region, at any contents of the buffers

The 55 lines after the region are straight-line code over the three output arrays: three reshapes to vectors, the sum of the third
vector divided by the count (the base loss), and then the lines of the shared tail in its own order. Read at a result buffer, the
fold of the lines over ANY valuation `W` is therefore the shared tail applied to the reshaped contents of the three output
buffers under `W`. The reductions and the logarithm are kept folded while the two sides are compared: the comparison is of the
lines' order only and never looks inside them. -/

attribute [local irreducible] Host.reduce Host.reduceAdd Host.log in
/-- The total loss: the first component of the shared tail. -/
private theorem after_v37 (W : Valuation τ sig (Elt Ideal)) :
    StableHlo.after (List.flatten [hostOps1, hostOps1_1, hostOps1_2, hostOps1_3, hostOps1_4, hostOps1_5]) W (Proc.devRef .tc main_v37)
      = (Cert.Spec.tail (F := Ideal) Facts₀.bcast_S_S65536 Facts₀.reducesTo_S65536_S_d0 Facts₀.h_S_ Facts₀.natLt_1_32
          (shapeCast S65536 (W (Proc.devRef .tc main_v0_0)) Facts₀.shapeCasts_S65536x1_S65536)
          (shapeCast S65536 (W (Proc.devRef .tc main_v0_1)) Facts₀.shapeCasts_S65536x1_S65536)
          (Host.divf (Host.reduceAdd (shapeCast S65536 (W (Proc.devRef .tc main_v0_2)) Facts₀.shapeCasts_S65536x1_S65536) (constant S_ .f32 0x00000000#32) Facts₀.reducesTo_S65536_S_d0 Facts₀.h_S_)
            (constant S_ .f32 0x4AA80000#32))).1 := by
  simp only [hostOps1, hostOps1_1, hostOps1_2, hostOps1_3, hostOps1_4, hostOps1_5, List.flatten_cons, List.flatten_nil, List.append_nil, List.cons_append, List.nil_append]
  after_results_simp
  rfl

attribute [local irreducible] Host.reduce Host.reduceAdd Host.log in
/-- The base loss: the sum of the third vector over the count. -/
private theorem after_v5 (W : Valuation τ sig (Elt Ideal)) :
    StableHlo.after (List.flatten [hostOps1, hostOps1_1, hostOps1_2, hostOps1_3, hostOps1_4, hostOps1_5]) W (Proc.devRef .tc main_v5)
      = (Host.divf (Host.reduceAdd (shapeCast S65536 (W (Proc.devRef .tc main_v0_2)) Facts₀.shapeCasts_S65536x1_S65536) (constant S_ .f32 0x00000000#32) Facts₀.reducesTo_S65536_S_d0 Facts₀.h_S_)
            (constant S_ .f32 0x4AA80000#32) : FVec Ideal S_ .f32) := by
  simp only [hostOps1, hostOps1_1, hostOps1_2, hostOps1_3, hostOps1_4, hostOps1_5, List.flatten_cons, List.flatten_nil, List.append_nil, List.cons_append, List.nil_append]
  after_results_simp
  rfl

attribute [local irreducible] Host.reduce Host.reduceAdd Host.log in
/-- The masked loss: the second component of the shared tail. -/
private theorem after_v33 (W : Valuation τ sig (Elt Ideal)) :
    StableHlo.after (List.flatten [hostOps1, hostOps1_1, hostOps1_2, hostOps1_3, hostOps1_4, hostOps1_5]) W (Proc.devRef .tc main_v33)
      = (Cert.Spec.tail (F := Ideal) Facts₀.bcast_S_S65536 Facts₀.reducesTo_S65536_S_d0 Facts₀.h_S_ Facts₀.natLt_1_32
          (shapeCast S65536 (W (Proc.devRef .tc main_v0_0)) Facts₀.shapeCasts_S65536x1_S65536)
          (shapeCast S65536 (W (Proc.devRef .tc main_v0_1)) Facts₀.shapeCasts_S65536x1_S65536)
          (Host.divf (Host.reduceAdd (shapeCast S65536 (W (Proc.devRef .tc main_v0_2)) Facts₀.shapeCasts_S65536x1_S65536) (constant S_ .f32 0x00000000#32) Facts₀.reducesTo_S65536_S_d0 Facts₀.h_S_)
            (constant S_ .f32 0x4AA80000#32))).2 := by
  simp only [hostOps1, hostOps1_1, hostOps1_2, hostOps1_3, hostOps1_4, hostOps1_5, List.flatten_cons, List.flatten_nil, List.append_nil, List.cons_append, List.nil_append]
  after_results_simp
  rfl

/-! ## The same at a valuation whose three output buffers hold the per-row values -/

/-- With the output buffers at `G4`, `G5`, `G6` of the arguments, the total loss is the tail's first component at `kW`, `kP`, `kB`. -/
private theorem tail_v37 (W : Valuation τ sig (Elt Ideal)) (a0 : FVec Ideal S65536x4x112 .f32) (a1 a2 : FVec Ideal S65536x84 .f32) (a3 : FVec Ideal S112 .f32)
    (e4 : W (Proc.devRef .tc main_v0_0) = G4 a0 a3) (e5 : W (Proc.devRef .tc main_v0_1) = G5 a1) (e6 : W (Proc.devRef .tc main_v0_2) = G6 a1 a2) :
    StableHlo.after (List.flatten [hostOps1, hostOps1_1, hostOps1_2, hostOps1_3, hostOps1_4, hostOps1_5]) W (Proc.devRef .tc main_v37)
      = (Cert.Spec.tail (F := Ideal) Facts₀.bcast_S_S65536 Facts₀.reducesTo_S65536_S_d0 Facts₀.h_S_ Facts₀.natLt_1_32 (kW a0 a3) (kP a1) (kB a1 a2)).1 := by
  rw [after_v37, e4, e5, e6]
  unfold kW kP kB
  rfl

/-- The base loss is `kB`. -/
private theorem tail_v5 (W : Valuation τ sig (Elt Ideal)) (a0 : FVec Ideal S65536x4x112 .f32) (a1 a2 : FVec Ideal S65536x84 .f32) (a3 : FVec Ideal S112 .f32)
    (e4 : W (Proc.devRef .tc main_v0_0) = G4 a0 a3) (e5 : W (Proc.devRef .tc main_v0_1) = G5 a1) (e6 : W (Proc.devRef .tc main_v0_2) = G6 a1 a2) :
    StableHlo.after (List.flatten [hostOps1, hostOps1_1, hostOps1_2, hostOps1_3, hostOps1_4, hostOps1_5]) W (Proc.devRef .tc main_v5)
      = kB a1 a2 := by
  rw [after_v5, e6]
  unfold kB
  rfl

/-- The masked loss is the tail's second component at `kW`, `kP`, `kB`. -/
private theorem tail_v33 (W : Valuation τ sig (Elt Ideal)) (a0 : FVec Ideal S65536x4x112 .f32) (a1 a2 : FVec Ideal S65536x84 .f32) (a3 : FVec Ideal S112 .f32)
    (e4 : W (Proc.devRef .tc main_v0_0) = G4 a0 a3) (e5 : W (Proc.devRef .tc main_v0_1) = G5 a1) (e6 : W (Proc.devRef .tc main_v0_2) = G6 a1 a2) :
    StableHlo.after (List.flatten [hostOps1, hostOps1_1, hostOps1_2, hostOps1_3, hostOps1_4, hostOps1_5]) W (Proc.devRef .tc main_v33)
      = (Cert.Spec.tail (F := Ideal) Facts₀.bcast_S_S65536 Facts₀.reducesTo_S65536_S_d0 Facts₀.h_S_ Facts₀.natLt_1_32 (kW a0 a3) (kP a1) (kB a1 a2)).2 := by
  rw [after_v33, e4, e5, e6]
  unfold kW kP kB
  rfl

/-! ## The output arrays when the region ends

The contents the host lines start from are the region-entry contents with the pipeline's arrays replaced by what the region left
in them; at the three output arrays that is the per-row value of the argument arrays (the blocks-to-arrays module), the argument
arrays themselves being what the memory held at the start. -/

private theorem arr4 (m : (ℓ : Loc nD τ sig) → Buf (Elt Ideal) ℓ) (c : Dev nD) :
    Pipeline.withArrays (cfgs 0).spec c (V0 m c) (fun w => (dats (F := Ideal) m 0 c).arrAt w (cfgs 0).N) (Proc.devRef .tc main_v0_0)
      = G4 (m ((c.tc : Thread nD τ).loc main_arg0)) (m ((c.tc : Thread nD τ).loc main_arg3)) :=
  (Pipeline.withArrays_arr spec0 launch0.win.arr_inj c _ _ 4).trans (final4 m c)
private theorem arr5 (m : (ℓ : Loc nD τ sig) → Buf (Elt Ideal) ℓ) (c : Dev nD) :
    Pipeline.withArrays (cfgs 0).spec c (V0 m c) (fun w => (dats (F := Ideal) m 0 c).arrAt w (cfgs 0).N) (Proc.devRef .tc main_v0_1)
      = G5 (m ((c.tc : Thread nD τ).loc main_arg1)) :=
  (Pipeline.withArrays_arr spec0 launch0.win.arr_inj c _ _ 5).trans (final5 m c)
private theorem arr6 (m : (ℓ : Loc nD τ sig) → Buf (Elt Ideal) ℓ) (c : Dev nD) :
    Pipeline.withArrays (cfgs 0).spec c (V0 m c) (fun w => (dats (F := Ideal) m 0 c).arrAt w (cfgs 0).N) (Proc.devRef .tc main_v0_2)
      = G6 (m ((c.tc : Thread nD τ).loc main_arg1)) (m ((c.tc : Thread nD τ).loc main_arg2)) :=
  (Pipeline.withArrays_arr spec0 launch0.win.arr_inj c _ _ 6).trans (final6 m c)

/-- Every weakly fair execution of the idealized kernel's @main terminates with the three results at the shared tail of
    (kW, kP, kB) and the base loss at kB, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37)
          = (Cert.Spec.tail (F := Ideal) Facts₀.bcast_S_S65536 Facts₀.reducesTo_S65536_S_d0 Facts₀.h_S_ Facts₀.natLt_1_32
              (kW (m ((c.tc : Thread nD τ).loc main_arg0)) (m ((c.tc : Thread nD τ).loc main_arg3)))
              (kP (m ((c.tc : Thread nD τ).loc main_arg1)))
              (kB (m ((c.tc : Thread nD τ).loc main_arg1)) (m ((c.tc : Thread nD τ).loc main_arg2)))).1
      ∧ r.2.mem ((c.tc : Thread nD τ).loc main_v5) = kB (m ((c.tc : Thread nD τ).loc main_arg1)) (m ((c.tc : Thread nD τ).loc main_arg2))
      ∧ r.2.mem ((c.tc : Thread nD τ).loc main_v33)
          = (Cert.Spec.tail (F := Ideal) Facts₀.bcast_S_S65536 Facts₀.reducesTo_S65536_S_d0 Facts₀.h_S_ Facts₀.natLt_1_32
              (kW (m ((c.tc : Thread nD τ).loc main_arg0)) (m ((c.tc : Thread nD τ).loc main_arg3)))
              (kP (m ((c.tc : Thread nD τ).loc main_arg1)))
              (kB (m ((c.tc : Thread nD τ).loc main_arg1)) (m ((c.tc : Thread nD τ).loc main_arg2)))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Gen.run_main m ρ)
  refine ⟨?_, ?_, ?_, ?_, ?_, ?_, ?_⟩
  · refine ((h c).2 main_v37 (Pipeline.mem_restRefs_of _ rfl (by decide))).trans ?_
    unfold Pipeline.afterTail₀
    exact tail_v37 _ _ _ _ _ (arr4 m c) (arr5 m c) (arr6 m c)
  · refine ((h c).2 main_v5 (Pipeline.mem_restRefs_of _ rfl (by decide))).trans ?_
    unfold Pipeline.afterTail₀
    exact tail_v5 _ _ _ _ _ (arr4 m c) (arr5 m c) (arr6 m c)
  · refine ((h c).2 main_v33 (Pipeline.mem_restRefs_of _ rfl (by decide))).trans ?_
    unfold Pipeline.afterTail₀
    exact tail_v33 _ _ _ _ _ (arr4 m c) (arr5 m c) (arr6 m c)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))
  · exact ((h c).1 3).trans (((dats m 0 c).arrAt_in 3 rfl _).trans ((A_eq m c 3).trans (V_main_arg3 m c)))

end Cert.KernelIdeal.Tail

end
-- ==== Proof.KernelVals.lean ====
/-
  The kernel's three host-side values are the specification's: the reshaped output arrays are the vectors of per-row values,
  and the sum of the row sums over the count is the mean absolute difference.
-/
import proofs.«173965_j52828097741444_1_alg».proof.Proof.KernelTail
import proofs.«173965_j52828097741444_1_alg».proof.Proof.Spec
import proofs.«173965_j52828097741444_1_alg».proof.Proof.LibRowOps
import Idealize.ShloMosaic.Lib.KernelVsHost
import Idealize.ShloMosaic.Lib.ValueIdxRank1
import Idealize.ShloMosaic.Lib.Pipeline.Value
import Idealize.ShloMosaic.PureOps.Ideal.Laws

noncomputable section

open scoped BigOperators

namespace Cert.KernelIdeal.Vals

open Cert.KernelIdeal Cert.KernelIdeal.Arrays Cert.KernelIdeal.Tail Idealize.ShloMosaic Idealize.ShloMosaic.ValueIdx

/-- Entry b of a column [65536, 1] cast to a vector is the column's entry (b, 0). -/
theorem castVec_apply {α : Type} (x : S65536x1.Idx → α) (b : Fin 65536) :
    shapeCast S65536 x Facts₀.shapeCasts_S65536x1_S65536 (ix1 b) = x (ix2 b (0 : Fin 1)) :=
  shapeCast_apply x Facts₀.shapeCasts_S65536x1_S65536 (ix1 b) (ix2 b (0 : Fin 1)) (Cert.RowOps.col_pos b (0 : Fin 1)).symm

theorem kW_eq (a0 : FVec Ideal S65536x4x112 .f32) (a3 : FVec Ideal S112 .f32) : kW a0 a3 = Cert.Spec.wfaVec a0 a3 := by
  funext i
  obtain ⟨b, rfl⟩ : ∃ b : Fin 65536, i = ix1 b := ⟨i 0, eq_ix1 i⟩
  unfold kW
  rw [castVec_apply]
  rfl

theorem kP_eq (a1 : FVec Ideal S65536x84 .f32) : kP a1 = Cert.Spec.pblosVec a1 := by
  funext i
  obtain ⟨b, rfl⟩ : ∃ b : Fin 65536, i = ix1 b := ⟨i 0, eq_ix1 i⟩
  unfold kP
  rw [castVec_apply]
  rfl

/-- A sum over the indices of a vector of 65536 is the sum over its rows. -/
theorem sum_rows (f : S65536.Idx → EReal) : ∑ i : S65536.Idx, f i = ∑ b : Fin 65536, f (ix1 b) :=
  (Equiv.sum_comp (idxEquiv1 (n := 65536)).symm f).symm

/-- The host's sum of the row sums over the count is the mean absolute difference: the sum from zero over the 65536 rows of the
    reshaped third output array, whose entry b is row b's sum. -/
theorem kB_eq (a1 a2 : FVec Ideal S65536x84 .f32) : kB a1 a2 = Cert.Spec.baseVec a1 a2 := by
  funext i
  unfold kB Cert.Spec.baseVec Cert.Spec.baseVal
  show Ideal.div (Ideal.hostReduceAdd Facts₀.reducesTo_S65536_S_d0 (shapeCast S65536 (G6 a1 a2) Facts₀.shapeCasts_S65536x1_S65536)
      (Ideal.ofBits .f32 0x00000000#32) i) (Ideal.ofBits .f32 0x4AA80000#32) = _
  rw [Ideal.hostReduceAdd_total Facts₀.reducesTo_S65536_S_d0 (fun b => b.elim0), Ideal.ofBits_zero_f32, zero_add, sum_rows]
  refine congrArg (fun s => Ideal.div s Cert.Spec.cCount) ?_
  refine Finset.sum_congr rfl fun b _ => ?_
  rw [castVec_apply]
  rfl

end Cert.KernelIdeal.Vals

end
-- ==== Proof.RefStages.lean ====
/-
  The reference's intermediate values as functions of its arguments, one definition per stage of @main, each the composition of
  the printed host operations that produce it: the two Stokes planes over the first 111 wavelengths, numpy's gradient of a
  [rows, 111] array and of the wavelength vector (ends one-sided, interior central and halved, laid end to end), dI/dlambda, the
  four lane sums, the scaled least-squares slope (wfa), the mean of three gathered columns (pblos), and the mean absolute
  difference (base).
-/
import proofs.«173965_j52828097741444_1_alg».proof.ReferenceIdeal

noncomputable section

namespace Cert.ReferenceIdeal.Stages

open Cert.ReferenceIdeal Cert.ReferenceIdeal.Facts₀ Idealize.ShloMosaic

variable {F : FTy → Type} [FloatOps F] [Facts]

/-- The scalar zero the host's sums start from. -/
abbrev zero0 : FVec F S_ .f32 := constant S_ .f32 0x00000000#32

/-- The first 111 wavelengths. -/
def wl111 (a3 : FVec F S112 .f32) : FVec F S111 .f32 := extractStridedSlice S111 ![0] a3 slices_S112_S111_0
/-- Stokes plane `pl` (0: I, 3: V) over the first 111 wavelengths, as [65536, 111]. -/
def planeI (a0 : FVec F S65536x4x112 .f32) : FVec F S65536x111 .f32 :=
  shapeCast S65536x111 (extractStridedSlice S65536x1x111 ![0, 0, 0] a0 slices_S65536x4x112_S65536x1x111_0_0_0) shapeCasts_S65536x1x111_S65536x111
def planeV (a0 : FVec F S65536x4x112 .f32) : FVec F S65536x111 .f32 :=
  shapeCast S65536x111 (extractStridedSlice S65536x1x111 ![0, 3, 0] a0 slices_S65536x4x112_S65536x1x111_0_3_0) shapeCasts_S65536x1x111_S65536x111

/-- numpy's gradient along the lanes of a [65536, 111] array. -/
def gradRows (x : FVec F S65536x111 .f32) : FVec F S65536x111 .f32 :=
  concatenate S65536x111 1
    [⟨S65536x1, subf (extractStridedSlice S65536x1 ![0, 1] x slices_S65536x111_S65536x1_0_1) (extractStridedSlice S65536x1 ![0, 0] x slices_S65536x111_S65536x1_0_0)⟩,
     ⟨S65536x109, mulf (subf (extractStridedSlice S65536x109 ![0, 2] x slices_S65536x111_S65536x109_0_2) (extractStridedSlice S65536x109 ![0, 0] x slices_S65536x111_S65536x109_0_0))
        (broadcastInDim S65536x109 ![] bcast_S_S65536x109 (constant S_ .f32 0x3F000000#32))⟩,
     ⟨S65536x1, subf (extractStridedSlice S65536x1 ![0, 110] x slices_S65536x111_S65536x1_0_110) (extractStridedSlice S65536x1 ![0, 109] x slices_S65536x111_S65536x1_0_109)⟩]
    concatenates_S65536x1_S65536x109_S65536x1_S65536x111_d1

/-- numpy's gradient of the vector of 111 wavelengths. -/
def gradWl (w : FVec F S111 .f32) : FVec F S111 .f32 :=
  concatenate S111 0
    [⟨S1, subf (extractStridedSlice S1 ![1] w slices_S111_S1_1) (extractStridedSlice S1 ![0] w slices_S111_S1_0)⟩,
     ⟨S109, mulf (subf (extractStridedSlice S109 ![2] w slices_S111_S109_2) (extractStridedSlice S109 ![0] w slices_S111_S109_0))
        (broadcastInDim S109 ![] bcast_S_S109 (constant S_ .f32 0x3F000000#32))⟩,
     ⟨S1, subf (extractStridedSlice S1 ![110] w slices_S111_S1_110) (extractStridedSlice S1 ![109] w slices_S111_S1_109)⟩]
    concatenates_S1_S109_S1_S111_d0

/-- dI/dlambda: the gradient of plane I over the gradient of the wavelengths spread down the rows. -/
def dIdl (a0 : FVec F S65536x4x112 .f32) (a3 : FVec F S112 .f32) : FVec F S65536x111 .f32 :=
  Host.divf (gradRows (planeI a0))
    (broadcastInDim S65536x111 ![0, 1] bcast_S1x111_S65536x111_0_1 (broadcastInDim S1x111 ![1] bcast_S111_S1x111_1 (gradWl (wl111 a3))))

/-- A lane sum of a [65536, 111] array from zero. -/
def laneSum (x : FVec F S65536x111 .f32) : FVec F S65536 .f32 := Host.reduceAdd x zero0 reducesTo_S65536x111_S65536_d1 h_S_

/-- The scaled least-squares slope per row, from dI/dlambda `d` and plane V `v`. -/
def wfaOf (d v : FVec F S65536x111 .f32) : FVec F S65536 .f32 :=
  Host.divf
    (Host.negf (Host.divf
      (subf (mulf (broadcastInDim S65536 ![] bcast_S_S65536 (constant S_ .f32 0x42DE0000#32)) (laneSum (mulf d v))) (mulf (laneSum d) (laneSum v)))
      (subf (mulf (broadcastInDim S65536 ![] bcast_S_S65536 (constant S_ .f32 0x42DE0000#32)) (laneSum (mulf d d))) (mulf (laneSum d) (laneSum d)))))
    (broadcastInDim S65536 ![] bcast_S_S65536 (constant S_ .f32 0x37E944AF#32))

/-- wfa as a function of the arguments. -/
def wfa (a0 : FVec F S65536x4x112 .f32) (a3 : FVec F S112 .f32) : FVec F S65536 .f32 := wfaOf (dIdl a0 a3) (planeV a0)

/-- The index table of the gather: rows (tau, 3) for tau = 0, 1, 2 (the wrap of negative entries selected away by an all-false mask). -/
def gatherIdx : IVec S3x2 32 :=
  concatenate S3x2 1
    [⟨S3x1, broadcastInDim S3x1 ![0] bcast_S3_S3x1_0
        (select (constantI S3 1 0#1) (addi (fun i => lit0 (S3.rowMajor i)) (broadcastInDim S3 ![] bcast_S_S3 (constantI S_ 32 21#32))) (fun i => lit0 (S3.rowMajor i)))⟩,
     ⟨S3x1, broadcastInDim S3x1 ![0] bcast_S3_S3x1_0 (id (broadcastInDim S3 ![] bcast_S_S3 (constantI S_ 32 3#32)))⟩]
    concatenates_S3x1_S3x1_S3x2_d1

/-- pblos: the mean over the three gathered entries of each row of the atmosphere seen as [65536, 21, 4]. -/
def pblos (a1 : FVec F S65536x84 .f32) : FVec F S65536 .f32 :=
  Host.divf
    (Host.reduceAdd (Host.gather gather_S65536x21x4_S3x2_S65536x3_0_12_n_n_12_1_6553611 (shapeCast S65536x21x4 a1 shapeCasts_S65536x84_S65536x21x4) gatherIdx)
      zero0 reducesTo_S65536x3_S65536_d1 h_S_)
    (broadcastInDim S65536 ![] bcast_S_S65536 (constant S_ .f32 0x40400000#32))

/-- base: the sum of |a1 - a2| over both axes, over the count. -/
def base (a1 a2 : FVec F S65536x84 .f32) : FVec F S_ .f32 :=
  Host.divf (Host.reduceAdd (Host.absf (subf a1 a2)) zero0 reducesTo_S65536x84_S_d0_1 h_S_) (constant S_ .f32 0x4AA80000#32)

end Cert.ReferenceIdeal.Stages

end
-- ==== Proof.RefRun.lean ====
/-
  The reference's run read back: @main as the list of its host operations (the outlined selects listed at their call sites),
  and every weakly fair execution terminating with the three results at the shared tail of the stages (wfa, pblos, base) of the
  arguments, the arguments unchanged.
-/
import proofs.«173965_j52828097741444_1_alg».proof.Proof.Gen.ReferenceIdeal
import proofs.«173965_j52828097741444_1_alg».proof.Proof.RefStages
import proofs.«173965_j52828097741444_1_alg».proof.Proof.Spec
import Idealize.ShloMosaic.Lib.StableHlo.Run

noncomputable section

open scoped BigOperators

namespace Cert.ReferenceIdeal.RunBack

open Cert.ReferenceIdeal Cert.ReferenceIdeal.Gen Idealize.ShloMosaic Idealize.ShloMosaic.TcCoe Idealize.SL.Sem Idealize.ShloMosaic.StableHlo

section Line

variable {F : FTy → Type} [FloatOps F]

/-! ## The three concatenations, named

An operation that lays its operands end to end reads them inside a list of shape-tagged pairs; named as a function of plain
operands, the operands are arguments like any other operation's. -/

/-- The three pieces of a row gradient laid end to end along the lanes. -/
def catRows (x : FVec F S65536x1 .f32) (y : FVec F S65536x109 .f32) (z : FVec F S65536x1 .f32) : FVec F S65536x111 .f32 :=
  concatenate S65536x111 1 [⟨S65536x1, x⟩, ⟨S65536x109, y⟩, ⟨S65536x1, z⟩] concatenates_S65536x1_S65536x109_S65536x1_S65536x111_d1
/-- The three pieces of the wavelength gradient laid end to end. -/
def catWl (x : FVec F S1 .f32) (y : FVec F S109 .f32) (z : FVec F S1 .f32) : FVec F S111 .f32 :=
  concatenate S111 0 [⟨S1, x⟩, ⟨S109, y⟩, ⟨S1, z⟩] concatenates_S1_S109_S1_S111_d0
/-- The two columns of the gather's index table side by side. -/
def catIdx (a b : IVec S3x1 32) : IVec S3x2 32 :=
  concatenate S3x2 1 [⟨S3x1, a⟩, ⟨S3x1, b⟩] concatenates_S3x1_S3x1_S3x2_d1

/-! ## The tail's intermediate values, as functions of wfa and pblos (the shared tail's own bindings, in its order) -/

/-- The mask: |wfa| < 100. -/
def tMask (w : FVec F S65536 .f32) : IVec S65536 1 :=
  cmpf .olt (Host.absf w) (broadcastInDim S65536 ![] bcast_S_S65536 (constant S_ .f32 0x42C80000#32))
/-- |log10(|pblos| + eps) - log10(|wfa| + eps)|. -/
def tDiff (w pb : FVec F S65536 .f32) : FVec F S65536 .f32 :=
  Host.absf (subf
    (mulf (Host.log (addf (Host.absf pb) (broadcastInDim S65536 ![] bcast_S_S65536 (constant S_ .f32 0x2EDBE6FF#32))))
      (broadcastInDim S65536 ![] bcast_S_S65536 (constant S_ .f32 0x3EDE5BD9#32)))
    (mulf (Host.log (addf (Host.absf w) (broadcastInDim S65536 ![] bcast_S_S65536 (constant S_ .f32 0x2EDBE6FF#32))))
      (broadcastInDim S65536 ![] bcast_S_S65536 (constant S_ .f32 0x3EDE5BD9#32))))
/-- The number of rows the mask keeps. -/
def tCnt (w : FVec F S65536 .f32) : IVec S_ 32 :=
  Host.reduce IntOp.addi (extui 32 (tMask w) natLt_1_32) (constantI S_ 32 0#32) reducesTo_S65536_S_d0 h_S_
/-- The masked mean of the difference (over at least one). -/
def tWlm (w pb : FVec F S65536 .f32) : FVec F S_ .f32 :=
  Host.divf
    (Host.reduceAdd (select (tMask w) (tDiff w pb) (broadcastInDim S65536 ![] bcast_S_S65536 (id (constant S_ .f32 0x00000000#32))))
      (constant S_ .f32 0x00000000#32) reducesTo_S65536_S_d0 h_S_)
    (sitofp .f32 (maxsi (tCnt w) (constantI S_ 32 1#32)))

/-! ## @main as a list of operations, in eight stretches (the outlined selects' operations at their call sites) -/

/-- The mean absolute difference: the two index tables, |a1 - a2| summed over both axes, over the count. -/
abbrev opsA : List (HloOp τ sig (Elt F)) :=
  [ nullary main_c (fun i => lit0 (S3.rowMajor i)),
    nullary main_c_0 (constantI S3 1 0#1),
    binary main_arg1 main_arg2 main_v0 (subf : (⟨S65536x84, .f32⟩ : BufTy).Contents (Elt F) → (⟨S65536x84, .f32⟩ : BufTy).Contents (Elt F) → (⟨S65536x84, .f32⟩ : BufTy).Contents (Elt F)),
    unary main_v0 main_v1 (Host.absf : (⟨S65536x84, .f32⟩ : BufTy).Contents (Elt F) → (⟨S65536x84, .f32⟩ : BufTy).Contents (Elt F)),
    nullary main_cst (constant S_ .f32 0x00000000#32),
    binary main_v1 main_cst main_v2 ((fun x v => Host.reduceAdd x v reducesTo_S65536x84_S_d0_1 h_S_) : (⟨S65536x84, .f32⟩ : BufTy).Contents (Elt F) → (⟨S_, .f32⟩ : BufTy).Contents (Elt F) → (⟨S_, .f32⟩ : BufTy).Contents (Elt F)),
    nullary main_cst_1 (constant S_ .f32 0x4AA80000#32),
    binary main_v2 main_cst_1 main_v3 (Host.divf : (⟨S_, .f32⟩ : BufTy).Contents (Elt F) → (⟨S_, .f32⟩ : BufTy).Contents (Elt F) → (⟨S_, .f32⟩ : BufTy).Contents (Elt F)) ]

/-- The first 111 wavelengths, the two Stokes planes, and the gradient of plane I along the lanes (three pieces laid end to end). -/
abbrev opsB : List (HloOp τ sig (Elt F)) :=
  [ unary main_arg3 main_v4 ((extractStridedSlice S111 ![0] · slices_S112_S111_0) : (⟨S112, .f32⟩ : BufTy).Contents (Elt F) → (⟨S111, .f32⟩ : BufTy).Contents (Elt F)),
    unary main_arg0 main_v5 ((extractStridedSlice S65536x1x111 ![0, 0, 0] · slices_S65536x4x112_S65536x1x111_0_0_0) : (⟨S65536x4x112, .f32⟩ : BufTy).Contents (Elt F) → (⟨S65536x1x111, .f32⟩ : BufTy).Contents (Elt F)),
    reshape main_v5 main_v6 rfl shapeCasts_S65536x1x111_S65536x111,
    unary main_arg0 main_v7 ((extractStridedSlice S65536x1x111 ![0, 3, 0] · slices_S65536x4x112_S65536x1x111_0_3_0) : (⟨S65536x4x112, .f32⟩ : BufTy).Contents (Elt F) → (⟨S65536x1x111, .f32⟩ : BufTy).Contents (Elt F)),
    reshape main_v7 main_v8 rfl shapeCasts_S65536x1x111_S65536x111,
    unary main_v6 main_v9 ((extractStridedSlice S65536x1 ![0, 1] · slices_S65536x111_S65536x1_0_1) : (⟨S65536x111, .f32⟩ : BufTy).Contents (Elt F) → (⟨S65536x1, .f32⟩ : BufTy).Contents (Elt F)),
    unary main_v6 main_v10 ((extractStridedSlice S65536x1 ![0, 0] · slices_S65536x111_S65536x1_0_0) : (⟨S65536x111, .f32⟩ : BufTy).Contents (Elt F) → (⟨S65536x1, .f32⟩ : BufTy).Contents (Elt F)),
    binary main_v9 main_v10 main_v11 (subf : (⟨S65536x1, .f32⟩ : BufTy).Contents (Elt F) → (⟨S65536x1, .f32⟩ : BufTy).Contents (Elt F) → (⟨S65536x1, .f32⟩ : BufTy).Contents (Elt F)),
    unary main_v6 main_v12 ((extractStridedSlice S65536x109 ![0, 2] · slices_S65536x111_S65536x109_0_2) : (⟨S65536x111, .f32⟩ : BufTy).Contents (Elt F) → (⟨S65536x109, .f32⟩ : BufTy).Contents (Elt F)),
    unary main_v6 main_v13 ((extractStridedSlice S65536x109 ![0, 0] · slices_S65536x111_S65536x109_0_0) : (⟨S65536x111, .f32⟩ : BufTy).Contents (Elt F) → (⟨S65536x109, .f32⟩ : BufTy).Contents (Elt F)),
    binary main_v12 main_v13 main_v14 (subf : (⟨S65536x109, .f32⟩ : BufTy).Contents (Elt F) → (⟨S65536x109, .f32⟩ : BufTy).Contents (Elt F) → (⟨S65536x109, .f32⟩ : BufTy).Contents (Elt F)),
    nullary main_cst_2 (constant S_ .f32 0x3F000000#32),
    unary main_cst_2 main_v15 (broadcastInDim S65536x109 ![] bcast_S_S65536x109 : (⟨S_, .f32⟩ : BufTy).Contents (Elt F) → (⟨S65536x109, .f32⟩ : BufTy).Contents (Elt F)),
    binary main_v14 main_v15 main_v16 (mulf : (⟨S65536x109, .f32⟩ : BufTy).Contents (Elt F) → (⟨S65536x109, .f32⟩ : BufTy).Contents (Elt F) → (⟨S65536x109, .f32⟩ : BufTy).Contents (Elt F)),
    unary main_v6 main_v17 ((extractStridedSlice S65536x1 ![0, 110] · slices_S65536x111_S65536x1_0_110) : (⟨S65536x111, .f32⟩ : BufTy).Contents (Elt F) → (⟨S65536x1, .f32⟩ : BufTy).Contents (Elt F)),
    unary main_v6 main_v18 ((extractStridedSlice S65536x1 ![0, 109] · slices_S65536x111_S65536x1_0_109) : (⟨S65536x111, .f32⟩ : BufTy).Contents (Elt F) → (⟨S65536x1, .f32⟩ : BufTy).Contents (Elt F)),
    binary main_v17 main_v18 main_v19 (subf : (⟨S65536x1, .f32⟩ : BufTy).Contents (Elt F) → (⟨S65536x1, .f32⟩ : BufTy).Contents (Elt F) → (⟨S65536x1, .f32⟩ : BufTy).Contents (Elt F)),
    nary ![main_v11, main_v16, main_v19] main_v20 (fun u => catRows (u 0) (u 1) (u 2)) ]

/-- The gradient of the wavelengths (three pieces laid end to end), spread down the rows, and dI/dlambda. -/
abbrev opsC : List (HloOp τ sig (Elt F)) :=
  [ unary main_v4 main_v21 ((extractStridedSlice S1 ![1] · slices_S111_S1_1) : (⟨S111, .f32⟩ : BufTy).Contents (Elt F) → (⟨S1, .f32⟩ : BufTy).Contents (Elt F)),
    unary main_v4 main_v22 ((extractStridedSlice S1 ![0] · slices_S111_S1_0) : (⟨S111, .f32⟩ : BufTy).Contents (Elt F) → (⟨S1, .f32⟩ : BufTy).Contents (Elt F)),
    binary main_v21 main_v22 main_v23 (subf : (⟨S1, .f32⟩ : BufTy).Contents (Elt F) → (⟨S1, .f32⟩ : BufTy).Contents (Elt F) → (⟨S1, .f32⟩ : BufTy).Contents (Elt F)),
    unary main_v4 main_v24 ((extractStridedSlice S109 ![2] · slices_S111_S109_2) : (⟨S111, .f32⟩ : BufTy).Contents (Elt F) → (⟨S109, .f32⟩ : BufTy).Contents (Elt F)),
    unary main_v4 main_v25 ((extractStridedSlice S109 ![0] · slices_S111_S109_0) : (⟨S111, .f32⟩ : BufTy).Contents (Elt F) → (⟨S109, .f32⟩ : BufTy).Contents (Elt F)),
    binary main_v24 main_v25 main_v26 (subf : (⟨S109, .f32⟩ : BufTy).Contents (Elt F) → (⟨S109, .f32⟩ : BufTy).Contents (Elt F) → (⟨S109, .f32⟩ : BufTy).Contents (Elt F)),
    nullary main_cst_3 (constant S_ .f32 0x3F000000#32),
    unary main_cst_3 main_v27 (broadcastInDim S109 ![] bcast_S_S109 : (⟨S_, .f32⟩ : BufTy).Contents (Elt F) → (⟨S109, .f32⟩ : BufTy).Contents (Elt F)),
    binary main_v26 main_v27 main_v28 (mulf : (⟨S109, .f32⟩ : BufTy).Contents (Elt F) → (⟨S109, .f32⟩ : BufTy).Contents (Elt F) → (⟨S109, .f32⟩ : BufTy).Contents (Elt F)),
    unary main_v4 main_v29 ((extractStridedSlice S1 ![110] · slices_S111_S1_110) : (⟨S111, .f32⟩ : BufTy).Contents (Elt F) → (⟨S1, .f32⟩ : BufTy).Contents (Elt F)),
    unary main_v4 main_v30 ((extractStridedSlice S1 ![109] · slices_S111_S1_109) : (⟨S111, .f32⟩ : BufTy).Contents (Elt F) → (⟨S1, .f32⟩ : BufTy).Contents (Elt F)),
    binary main_v29 main_v30 main_v31 (subf : (⟨S1, .f32⟩ : BufTy).Contents (Elt F) → (⟨S1, .f32⟩ : BufTy).Contents (Elt F) → (⟨S1, .f32⟩ : BufTy).Contents (Elt F)),
    nary ![main_v23, main_v28, main_v31] main_v32 (fun u => catWl (u 0) (u 1) (u 2)),
    unary main_v32 main_v33 (broadcastInDim S1x111 ![1] bcast_S111_S1x111_1 : (⟨S111, .f32⟩ : BufTy).Contents (Elt F) → (⟨S1x111, .f32⟩ : BufTy).Contents (Elt F)),
    unary main_v33 main_v34 (broadcastInDim S65536x111 ![0, 1] bcast_S1x111_S65536x111_0_1 : (⟨S1x111, .f32⟩ : BufTy).Contents (Elt F) → (⟨S65536x111, .f32⟩ : BufTy).Contents (Elt F)),
    binary main_v20 main_v34 main_v35 (Host.divf : (⟨S65536x111, .f32⟩ : BufTy).Contents (Elt F) → (⟨S65536x111, .f32⟩ : BufTy).Contents (Elt F) → (⟨S65536x111, .f32⟩ : BufTy).Contents (Elt F)) ]

/-- The four lane sums and the two products of the slope's numerator and denominator. -/
abbrev opsD : List (HloOp τ sig (Elt F)) :=
  [ nullary main_cst_4 (constant S_ .f32 0x00000000#32),
    binary main_v35 main_cst_4 main_v36 ((fun x v => Host.reduceAdd x v reducesTo_S65536x111_S65536_d1 h_S_) : (⟨S65536x111, .f32⟩ : BufTy).Contents (Elt F) → (⟨S_, .f32⟩ : BufTy).Contents (Elt F) → (⟨S65536, .f32⟩ : BufTy).Contents (Elt F)),
    nullary main_cst_5 (constant S_ .f32 0x00000000#32),
    binary main_v8 main_cst_5 main_v37 ((fun x v => Host.reduceAdd x v reducesTo_S65536x111_S65536_d1 h_S_) : (⟨S65536x111, .f32⟩ : BufTy).Contents (Elt F) → (⟨S_, .f32⟩ : BufTy).Contents (Elt F) → (⟨S65536, .f32⟩ : BufTy).Contents (Elt F)),
    binary main_v35 main_v35 main_v38 (mulf : (⟨S65536x111, .f32⟩ : BufTy).Contents (Elt F) → (⟨S65536x111, .f32⟩ : BufTy).Contents (Elt F) → (⟨S65536x111, .f32⟩ : BufTy).Contents (Elt F)),
    nullary main_cst_6 (constant S_ .f32 0x00000000#32),
    binary main_v38 main_cst_6 main_v39 ((fun x v => Host.reduceAdd x v reducesTo_S65536x111_S65536_d1 h_S_) : (⟨S65536x111, .f32⟩ : BufTy).Contents (Elt F) → (⟨S_, .f32⟩ : BufTy).Contents (Elt F) → (⟨S65536, .f32⟩ : BufTy).Contents (Elt F)),
    binary main_v35 main_v8 main_v40 (mulf : (⟨S65536x111, .f32⟩ : BufTy).Contents (Elt F) → (⟨S65536x111, .f32⟩ : BufTy).Contents (Elt F) → (⟨S65536x111, .f32⟩ : BufTy).Contents (Elt F)),
    nullary main_cst_7 (constant S_ .f32 0x00000000#32),
    binary main_v40 main_cst_7 main_v41 ((fun x v => Host.reduceAdd x v reducesTo_S65536x111_S65536_d1 h_S_) : (⟨S65536x111, .f32⟩ : BufTy).Contents (Elt F) → (⟨S_, .f32⟩ : BufTy).Contents (Elt F) → (⟨S65536, .f32⟩ : BufTy).Contents (Elt F)),
    nullary main_cst_8 (constant S_ .f32 0x42DE0000#32),
    unary main_cst_8 main_v42 (broadcastInDim S65536 ![] bcast_S_S65536 : (⟨S_, .f32⟩ : BufTy).Contents (Elt F) → (⟨S65536, .f32⟩ : BufTy).Contents (Elt F)),
    binary main_v42 main_v41 main_v43 (mulf : (⟨S65536, .f32⟩ : BufTy).Contents (Elt F) → (⟨S65536, .f32⟩ : BufTy).Contents (Elt F) → (⟨S65536, .f32⟩ : BufTy).Contents (Elt F)),
    binary main_v36 main_v37 main_v44 (mulf : (⟨S65536, .f32⟩ : BufTy).Contents (Elt F) → (⟨S65536, .f32⟩ : BufTy).Contents (Elt F) → (⟨S65536, .f32⟩ : BufTy).Contents (Elt F)),
    binary main_v43 main_v44 main_v45 (subf : (⟨S65536, .f32⟩ : BufTy).Contents (Elt F) → (⟨S65536, .f32⟩ : BufTy).Contents (Elt F) → (⟨S65536, .f32⟩ : BufTy).Contents (Elt F)),
    nullary main_cst_9 (constant S_ .f32 0x42DE0000#32),
    unary main_cst_9 main_v46 (broadcastInDim S65536 ![] bcast_S_S65536 : (⟨S_, .f32⟩ : BufTy).Contents (Elt F) → (⟨S65536, .f32⟩ : BufTy).Contents (Elt F)),
    binary main_v46 main_v39 main_v47 (mulf : (⟨S65536, .f32⟩ : BufTy).Contents (Elt F) → (⟨S65536, .f32⟩ : BufTy).Contents (Elt F) → (⟨S65536, .f32⟩ : BufTy).Contents (Elt F)) ]

/-- The scaled least-squares slope per row (wfa). -/
abbrev opsE : List (HloOp τ sig (Elt F)) :=
  [ binary main_v36 main_v36 main_v48 (mulf : (⟨S65536, .f32⟩ : BufTy).Contents (Elt F) → (⟨S65536, .f32⟩ : BufTy).Contents (Elt F) → (⟨S65536, .f32⟩ : BufTy).Contents (Elt F)),
    binary main_v47 main_v48 main_v49 (subf : (⟨S65536, .f32⟩ : BufTy).Contents (Elt F) → (⟨S65536, .f32⟩ : BufTy).Contents (Elt F) → (⟨S65536, .f32⟩ : BufTy).Contents (Elt F)),
    binary main_v45 main_v49 main_v50 (Host.divf : (⟨S65536, .f32⟩ : BufTy).Contents (Elt F) → (⟨S65536, .f32⟩ : BufTy).Contents (Elt F) → (⟨S65536, .f32⟩ : BufTy).Contents (Elt F)),
    unary main_v50 main_v51 (Host.negf : (⟨S65536, .f32⟩ : BufTy).Contents (Elt F) → (⟨S65536, .f32⟩ : BufTy).Contents (Elt F)),
    nullary main_cst_10 (constant S_ .f32 0x37E944AF#32),
    unary main_cst_10 main_v52 (broadcastInDim S65536 ![] bcast_S_S65536 : (⟨S_, .f32⟩ : BufTy).Contents (Elt F) → (⟨S65536, .f32⟩ : BufTy).Contents (Elt F)),
    binary main_v51 main_v52 main_v53 (Host.divf : (⟨S65536, .f32⟩ : BufTy).Contents (Elt F) → (⟨S65536, .f32⟩ : BufTy).Contents (Elt F) → (⟨S65536, .f32⟩ : BufTy).Contents (Elt F)) ]

/-- The gather's index table, the gather of the three entries per row, and their mean (pblos). -/
abbrev opsF : List (HloOp τ sig (Elt F)) :=
  [ reshape main_arg1 main_v54 rfl shapeCasts_S65536x84_S65536x21x4,
    nullary main_c_11 (constantI S_ 32 21#32),
    unary main_c_11 main_v55 (broadcastInDim S3 ![] bcast_S_S3 : (⟨S_, .i32⟩ : BufTy).Contents (Elt F) → (⟨S3, .i32⟩ : BufTy).Contents (Elt F)),
    binary main_c main_v55 main_v56 (addi : (⟨S3, .i32⟩ : BufTy).Contents (Elt F) → (⟨S3, .i32⟩ : BufTy).Contents (Elt F) → (⟨S3, .i32⟩ : BufTy).Contents (Elt F)),
    ternary main_c_0 main_v56 main_c main_v57 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    nullary main_c_12 (constantI S_ 32 3#32),
    unary main_c_12 main_v58 (broadcastInDim S3 ![] bcast_S_S3 : (⟨S_, .i32⟩ : BufTy).Contents (Elt F) → (⟨S3, .i32⟩ : BufTy).Contents (Elt F)),
    unary main_v58 main_v59 (id : (⟨S3, .i32⟩ : BufTy).Contents (Elt F) → (⟨S3, .i32⟩ : BufTy).Contents (Elt F)),
    unary main_v57 main_v60 (broadcastInDim S3x1 ![0] bcast_S3_S3x1_0 : (⟨S3, .i32⟩ : BufTy).Contents (Elt F) → (⟨S3x1, .i32⟩ : BufTy).Contents (Elt F)),
    unary main_v59 main_v61 (broadcastInDim S3x1 ![0] bcast_S3_S3x1_0 : (⟨S3, .i32⟩ : BufTy).Contents (Elt F) → (⟨S3x1, .i32⟩ : BufTy).Contents (Elt F)),
    binary main_v60 main_v61 main_v62 (catIdx : (⟨S3x1, .i32⟩ : BufTy).Contents (Elt F) → (⟨S3x1, .i32⟩ : BufTy).Contents (Elt F) → (⟨S3x2, .i32⟩ : BufTy).Contents (Elt F)),
    binary main_v54 main_v62 main_v63 ((fun x i => Host.gather gather_S65536x21x4_S3x2_S65536x3_0_12_n_n_12_1_6553611 x i) : (⟨S65536x21x4, .f32⟩ : BufTy).Contents (Elt F) → (⟨S3x2, .i32⟩ : BufTy).Contents (Elt F) → (⟨S65536x3, .f32⟩ : BufTy).Contents (Elt F)),
    nullary main_cst_13 (constant S_ .f32 0x00000000#32),
    binary main_v63 main_cst_13 main_v64 ((fun x v => Host.reduceAdd x v reducesTo_S65536x3_S65536_d1 h_S_) : (⟨S65536x3, .f32⟩ : BufTy).Contents (Elt F) → (⟨S_, .f32⟩ : BufTy).Contents (Elt F) → (⟨S65536, .f32⟩ : BufTy).Contents (Elt F)),
    nullary main_cst_14 (constant S_ .f32 0x40400000#32),
    unary main_cst_14 main_v65 (broadcastInDim S65536 ![] bcast_S_S65536 : (⟨S_, .f32⟩ : BufTy).Contents (Elt F) → (⟨S65536, .f32⟩ : BufTy).Contents (Elt F)),
    binary main_v64 main_v65 main_v66 (Host.divf : (⟨S65536, .f32⟩ : BufTy).Contents (Elt F) → (⟨S65536, .f32⟩ : BufTy).Contents (Elt F) → (⟨S65536, .f32⟩ : BufTy).Contents (Elt F)) ]

/-- The shared tail up to the masked mean: the mask, the two logarithms' difference, the count, the select outlined as a call (its three operations at the call site), the masked sum over the count; then the first comparison. -/
abbrev opsG : List (HloOp τ sig (Elt F)) :=
  [ unary main_v53 main_v67 (Host.absf : (⟨S65536, .f32⟩ : BufTy).Contents (Elt F) → (⟨S65536, .f32⟩ : BufTy).Contents (Elt F)),
    nullary main_cst_15 (constant S_ .f32 0x42C80000#32),
    unary main_cst_15 main_v68 (broadcastInDim S65536 ![] bcast_S_S65536 : (⟨S_, .f32⟩ : BufTy).Contents (Elt F) → (⟨S65536, .f32⟩ : BufTy).Contents (Elt F)),
    binary main_v67 main_v68 main_v69 (cmpf .olt : (⟨S65536, .f32⟩ : BufTy).Contents (Elt F) → (⟨S65536, .f32⟩ : BufTy).Contents (Elt F) → (⟨S65536, .i1⟩ : BufTy).Contents (Elt F)),
    unary main_v66 main_v70 (Host.absf : (⟨S65536, .f32⟩ : BufTy).Contents (Elt F) → (⟨S65536, .f32⟩ : BufTy).Contents (Elt F)),
    nullary main_cst_16 (constant S_ .f32 0x2EDBE6FF#32),
    unary main_cst_16 main_v71 (broadcastInDim S65536 ![] bcast_S_S65536 : (⟨S_, .f32⟩ : BufTy).Contents (Elt F) → (⟨S65536, .f32⟩ : BufTy).Contents (Elt F)),
    binary main_v70 main_v71 main_v72 (addf : (⟨S65536, .f32⟩ : BufTy).Contents (Elt F) → (⟨S65536, .f32⟩ : BufTy).Contents (Elt F) → (⟨S65536, .f32⟩ : BufTy).Contents (Elt F)),
    unary main_v72 main_v73 (Host.log : (⟨S65536, .f32⟩ : BufTy).Contents (Elt F) → (⟨S65536, .f32⟩ : BufTy).Contents (Elt F)),
    nullary main_cst_17 (constant S_ .f32 0x3EDE5BD9#32),
    unary main_cst_17 main_v74 (broadcastInDim S65536 ![] bcast_S_S65536 : (⟨S_, .f32⟩ : BufTy).Contents (Elt F) → (⟨S65536, .f32⟩ : BufTy).Contents (Elt F)),
    binary main_v73 main_v74 main_v75 (mulf : (⟨S65536, .f32⟩ : BufTy).Contents (Elt F) → (⟨S65536, .f32⟩ : BufTy).Contents (Elt F) → (⟨S65536, .f32⟩ : BufTy).Contents (Elt F)),
    unary main_v53 main_v76 (Host.absf : (⟨S65536, .f32⟩ : BufTy).Contents (Elt F) → (⟨S65536, .f32⟩ : BufTy).Contents (Elt F)),
    nullary main_cst_18 (constant S_ .f32 0x2EDBE6FF#32),
    unary main_cst_18 main_v77 (broadcastInDim S65536 ![] bcast_S_S65536 : (⟨S_, .f32⟩ : BufTy).Contents (Elt F) → (⟨S65536, .f32⟩ : BufTy).Contents (Elt F)),
    binary main_v76 main_v77 main_v78 (addf : (⟨S65536, .f32⟩ : BufTy).Contents (Elt F) → (⟨S65536, .f32⟩ : BufTy).Contents (Elt F) → (⟨S65536, .f32⟩ : BufTy).Contents (Elt F)),
    unary main_v78 main_v79 (Host.log : (⟨S65536, .f32⟩ : BufTy).Contents (Elt F) → (⟨S65536, .f32⟩ : BufTy).Contents (Elt F)),
    nullary main_cst_19 (constant S_ .f32 0x3EDE5BD9#32),
    unary main_cst_19 main_v80 (broadcastInDim S65536 ![] bcast_S_S65536 : (⟨S_, .f32⟩ : BufTy).Contents (Elt F) → (⟨S65536, .f32⟩ : BufTy).Contents (Elt F)),
    binary main_v79 main_v80 main_v81 (mulf : (⟨S65536, .f32⟩ : BufTy).Contents (Elt F) → (⟨S65536, .f32⟩ : BufTy).Contents (Elt F) → (⟨S65536, .f32⟩ : BufTy).Contents (Elt F)),
    binary main_v75 main_v81 main_v82 (subf : (⟨S65536, .f32⟩ : BufTy).Contents (Elt F) → (⟨S65536, .f32⟩ : BufTy).Contents (Elt F) → (⟨S65536, .f32⟩ : BufTy).Contents (Elt F)),
    unary main_v82 main_v83 (Host.absf : (⟨S65536, .f32⟩ : BufTy).Contents (Elt F) → (⟨S65536, .f32⟩ : BufTy).Contents (Elt F)),
    unary main_v69 main_v84 ((extui 32 · natLt_1_32) : (⟨S65536, .i1⟩ : BufTy).Contents (Elt F) → (⟨S65536, .i32⟩ : BufTy).Contents (Elt F)),
    nullary main_c_20 (constantI S_ 32 0#32),
    binary main_v84 main_c_20 main_v85 ((fun x v => Host.reduce IntOp.addi x v reducesTo_S65536_S_d0 h_S_) : (⟨S65536, .i32⟩ : BufTy).Contents (Elt F) → (⟨S_, .i32⟩ : BufTy).Contents (Elt F) → (⟨S_, .i32⟩ : BufTy).Contents (Elt F)),
    nullary main_cst_21 (constant S_ .f32 0x00000000#32),
    TRef.unary (TRef.of main_cst_21 : TRef sig ⟨S_, .f32⟩) main_call0.v0 id,
    TRef.unary main_call0.v0 main_call0.v1 (broadcastInDim S65536 ![] bcast_S_S65536),
    TRef.ternary (TRef.of main_v69 : TRef sig ⟨S65536, .i1⟩) (TRef.of main_v83 : TRef sig ⟨S65536, .f32⟩) main_call0.v1 main_call0.v2 select,
    nullary main_cst_22 (constant S_ .f32 0x00000000#32),
    binary main_v86 main_cst_22 main_v87 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_c_23 (constantI S_ 32 1#32),
    binary main_v85 main_c_23 main_v88 (maxsi : (⟨S_, .i32⟩ : BufTy).Contents (Elt F) → (⟨S_, .i32⟩ : BufTy).Contents (Elt F) → (⟨S_, .i32⟩ : BufTy).Contents (Elt F)),
    unary main_v88 main_v89 (sitofp .f32 : (⟨S_, .i32⟩ : BufTy).Contents (Elt F) → (⟨S_, .f32⟩ : BufTy).Contents (Elt F)),
    binary main_v87 main_v89 main_v90 (Host.divf : (⟨S_, .f32⟩ : BufTy).Contents (Elt F) → (⟨S_, .f32⟩ : BufTy).Contents (Elt F) → (⟨S_, .f32⟩ : BufTy).Contents (Elt F)),
    nullary main_cst_24 (constant S_ .f32 0x39D1B717#32),
    binary main_v3 main_cst_24 main_v91 (cmpf .olt : (⟨S_, .f32⟩ : BufTy).Contents (Elt F) → (⟨S_, .f32⟩ : BufTy).Contents (Elt F) → (⟨S_, .i1⟩ : BufTy).Contents (Elt F)),
    nullary main_c_25 (constantI S_ 32 0#32) ]

/-- The second comparison, their conjunction, and the two scalar selects (each an outlined call: its one operation at the call site). -/
abbrev opsH : List (HloOp τ sig (Elt F)) :=
  [ binary main_v85 main_c_25 main_v92 (cmpi .sgt : (⟨S_, .i32⟩ : BufTy).Contents (Elt F) → (⟨S_, .i32⟩ : BufTy).Contents (Elt F) → (⟨S_, .i1⟩ : BufTy).Contents (Elt F)),
    binary main_v91 main_v92 main_v93 (andi : (⟨S_, .i1⟩ : BufTy).Contents (Elt F) → (⟨S_, .i1⟩ : BufTy).Contents (Elt F) → (⟨S_, .i1⟩ : BufTy).Contents (Elt F)),
    nullary main_cst_26 (constant S_ .f32 0x00000000#32),
    TRef.ternary (TRef.of main_v93 : TRef sig ⟨S_, .i1⟩) (TRef.of main_v90 : TRef sig ⟨S_, .f32⟩) (TRef.of main_cst_26 : TRef sig ⟨S_, .f32⟩) main_call1.v0 select,
    nullary main_cst_27 (constant S_ .f32 0x3F000000#32),
    binary main_cst_27 main_v3 main_v95 (mulf : (⟨S_, .f32⟩ : BufTy).Contents (Elt F) → (⟨S_, .f32⟩ : BufTy).Contents (Elt F) → (⟨S_, .f32⟩ : BufTy).Contents (Elt F)),
    nullary main_cst_28 (constant S_ .f32 0x3F000000#32),
    binary main_cst_28 main_v90 main_v96 (mulf : (⟨S_, .f32⟩ : BufTy).Contents (Elt F) → (⟨S_, .f32⟩ : BufTy).Contents (Elt F) → (⟨S_, .f32⟩ : BufTy).Contents (Elt F)),
    binary main_v95 main_v96 main_v97 (addf : (⟨S_, .f32⟩ : BufTy).Contents (Elt F) → (⟨S_, .f32⟩ : BufTy).Contents (Elt F) → (⟨S_, .f32⟩ : BufTy).Contents (Elt F)),
    TRef.ternary (TRef.of main_v93 : TRef sig ⟨S_, .i1⟩) (TRef.of main_v97 : TRef sig ⟨S_, .f32⟩) (TRef.of main_v3 : TRef sig ⟨S_, .f32⟩) main_call2.v0 select ]

/-- @main's operations, in order. -/
abbrev ops : List (HloOp τ sig (Elt F)) :=
  opsA ++ (opsB ++ (opsC ++ (opsD ++ (opsE ++ (opsF ++ (opsG ++ opsH))))))

set_option maxRecDepth 8192 in
theorem main_part0_eq (c : Dev nD) : main_part0 (F := F) c = seq (opsA ++ (opsB ++ (opsC ++ opsD))) := rfl
set_option maxRecDepth 8192 in
theorem main_part1_eq (c : Dev nD) : main_part1 (F := F) c = seq (opsE ++ (opsF ++ opsG)) := by
  simp only [main_part1, fn_where.body, List.cons_append, List.nil_append, seq, bind_assoc, pure_bind]
  rfl
set_option maxRecDepth 8192 in
theorem main_part2_eq (c : Dev nD) : main_part2 (F := F) c = seq opsH := by
  simp only [main_part2, fn_where_0.body, seq, bind_assoc, pure_bind]
set_option maxRecDepth 8192 in
theorem main_eq (c : Dev nD) : main (F := F) c = seq ops := by
  simp only [main, main_part0_eq, main_part1_eq, main_part2_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨nullary_bufs_sub .., nullary_bufs_sub .., binary_bufs_sub .., unary_bufs_sub .., nullary_bufs_sub .., binary_bufs_sub .., nullary_bufs_sub .., binary_bufs_sub ..⟩
set_option maxRecDepth 8192 in
theorem opsB_sub : (opsB : List (HloOp τ sig (Elt F))).Forall fun op => op.bufs ⊆ tcRefs τ sig :=
  ⟨unary_bufs_sub .., unary_bufs_sub .., reshape_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nary_bufs_sub ..⟩
set_option maxRecDepth 8192 in
theorem opsC_sub : (opsC : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nary_bufs_sub .., unary_bufs_sub .., unary_bufs_sub .., binary_bufs_sub ..⟩
set_option maxRecDepth 8192 in
theorem opsD_sub : (opsD : List (HloOp τ sig (Elt F))).Forall fun op => op.bufs ⊆ tcRefs τ sig :=
  ⟨nullary_bufs_sub .., binary_bufs_sub .., nullary_bufs_sub .., binary_bufs_sub .., binary_bufs_sub .., nullary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., binary_bufs_sub ..⟩
set_option maxRecDepth 8192 in
theorem opsE_sub : (opsE : List (HloOp τ sig (Elt F))).Forall fun op => op.bufs ⊆ tcRefs τ sig :=
  ⟨binary_bufs_sub .., binary_bufs_sub .., binary_bufs_sub .., unary_bufs_sub .., nullary_bufs_sub .., unary_bufs_sub .., binary_bufs_sub ..⟩
set_option maxRecDepth 8192 in
theorem opsF_sub : (opsF : List (HloOp τ sig (Elt F))).Forall fun op => op.bufs ⊆ tcRefs τ sig :=
  ⟨reshape_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub ..⟩
set_option maxRecDepth 8192 in
theorem opsG_sub : (opsG : List (HloOp τ sig (Elt F))).Forall fun op => op.bufs ⊆ tcRefs τ sig :=
  ⟨unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., unary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., unary_bufs_sub .., binary_bufs_sub .., nullary_bufs_sub .., binary_bufs_sub .., nullary_bufs_sub ..⟩
set_option maxRecDepth 8192 in
theorem opsH_sub : (opsH : List (HloOp τ sig (Elt F))).Forall fun op => op.bufs ⊆ tcRefs τ sig :=
  ⟨binary_bufs_sub .., binary_bufs_sub .., nullary_bufs_sub .., ternary_bufs_sub .., nullary_bufs_sub .., binary_bufs_sub .., nullary_bufs_sub .., binary_bufs_sub .., binary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE_sub op h, List.forall_iff_forall_mem.mp opsF_sub op h, List.forall_iff_forall_mem.mp opsG_sub op h, List.forall_iff_forall_mem.mp opsH_sub op h]

/-! ## The contents stretch by stretch

From any contents `V0`: `valK V0` is what the buffers hold after the first K stretches; a buffer a stretch does not write keeps
its contents, and each buffer a later stretch (or the result) reads is the named stage of the arguments. -/

attribute [local irreducible] Host.reduce Host.reduceAdd Host.gather

/-- One operation's written buffer is among the listed ones. -/
local macro "writes_one" : tactic =>
  `(tactic| (simp only [nullary_writes, unary_writes, binary_writes, ternary_writes, quaternary_writes, reshape_writes,
               binaryIndexed_writes, nary_writes, unaryIndexed_writes, Finset.singleton_subset_iff, List.mem_toFinset]
             exact List.mem_map_of_mem (by decide)))

/-! ### Stretch 1: the mean absolute difference and the two index tables -/

/-- The buffer contents after the first 1 stretch. -/
def val1 (V0 : Valuation τ sig (Elt F)) : Valuation τ sig (Elt F) := after opsA (V0)
/-- The buffers that stretch 1 writes. -/
abbrev opsA_W : List (Ref sig .tc) := [main_c, main_c_0, main_v0, main_v1, main_cst, main_v2, main_cst_1, main_v3]
set_option maxRecDepth 8192 in
theorem opsA_writes : (opsA : List (HloOp τ sig (Elt F))).Forall fun op => op.writes ⊆ (opsA_W.map (Proc.devRef (τ := τ) .tc)).toFinset := by
  simp only [List.Forall]
  refine ⟨?_, ?_, ?_, ?_, ?_, ?_, ?_, ?_⟩ <;> writes_one
/-- A buffer that stretch 1 does not write keeps its contents through it. -/
theorem val1_keep (V0 : Valuation τ sig (Elt F)) (r : Ref sig .tc) (h : r ∉ opsA_W) :
    val1 V0 (Proc.devRef .tc r) = V0 (Proc.devRef .tc r) :=
  after_of_writes_sub opsA _ opsA_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
set_option maxRecDepth 8192 in
theorem val1_main_c (V0 : Valuation τ sig (Elt F)) : val1 V0 (no_index (Proc.devRef .tc main_c)) = (fun i => lit0 (S3.rowMajor i)) := by
  unfold val1
  simp only [opsA]
  after_results_simp
  rfl
set_option maxRecDepth 8192 in
theorem val1_main_c_0 (V0 : Valuation τ sig (Elt F)) : val1 V0 (no_index (Proc.devRef .tc main_c_0)) = constantI S3 1 0#1 := by
  unfold val1
  simp only [opsA]
  after_results_simp
set_option maxRecDepth 8192 in
theorem val1_main_v3 (V0 : Valuation τ sig (Elt F)) : val1 V0 (no_index (Proc.devRef .tc main_v3)) = Stages.base (V0 (Proc.devRef .tc main_arg1)) (V0 (Proc.devRef .tc main_arg2)) := by
  unfold val1
  simp only [opsA]
  after_results_simp
  rfl

/-! ### Stretch 2: the wavelengths, the Stokes planes and the row gradient of plane I -/

/-- The buffer contents after the first 2 stretches. -/
def val2 (V0 : Valuation τ sig (Elt F)) : Valuation τ sig (Elt F) := after opsB (val1 V0)
/-- The buffers that stretch 2 writes. -/
abbrev opsB_W : List (Ref sig .tc) := [main_v4, main_v5, main_v6, main_v7, main_v8, main_v9, main_v10, main_v11, main_v12, main_v13, main_v14, main_cst_2, main_v15, main_v16, main_v17, main_v18, main_v19, main_v20]
set_option maxRecDepth 8192 in
theorem opsB_writes : (opsB : List (HloOp τ sig (Elt F))).Forall fun op => op.writes ⊆ (opsB_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> writes_one
/-- A buffer that stretch 2 does not write keeps its contents through it. -/
theorem val2_keep (V0 : Valuation τ sig (Elt F)) (r : Ref sig .tc) (h : r ∉ opsB_W) :
    val2 V0 (Proc.devRef .tc r) = val1 V0 (Proc.devRef .tc r) :=
  after_of_writes_sub opsB _ opsB_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_c (V0 : Valuation τ sig (Elt F)) : val2 V0 (no_index (Proc.devRef .tc main_c)) = (fun i => lit0 (S3.rowMajor i)) :=
  (val2_keep V0 main_c (by decide)).trans (val1_main_c V0)
theorem val2_main_c_0 (V0 : Valuation τ sig (Elt F)) : val2 V0 (no_index (Proc.devRef .tc main_c_0)) = constantI S3 1 0#1 :=
  (val2_keep V0 main_c_0 (by decide)).trans (val1_main_c_0 V0)
theorem val2_main_v3 (V0 : Valuation τ sig (Elt F)) : val2 V0 (no_index (Proc.devRef .tc main_v3)) = Stages.base (V0 (Proc.devRef .tc main_arg1)) (V0 (Proc.devRef .tc main_arg2)) :=
  (val2_keep V0 main_v3 (by decide)).trans (val1_main_v3 V0)
set_option maxRecDepth 8192 in
theorem val2_main_v4 (V0 : Valuation τ sig (Elt F)) : val2 V0 (no_index (Proc.devRef .tc main_v4)) = Stages.wl111 (V0 (Proc.devRef .tc main_arg3)) := by
  unfold val2
  simp only [opsB]
  after_results_simp
  simp only [val1_main_arg3]
  rfl
set_option maxRecDepth 8192 in
theorem val2_main_v8 (V0 : Valuation τ sig (Elt F)) : val2 V0 (no_index (Proc.devRef .tc main_v8)) = Stages.planeV (V0 (Proc.devRef .tc main_arg0)) := by
  unfold val2
  simp only [opsB]
  after_results_simp
  simp only [val1_main_arg0]
  rfl
set_option maxRecDepth 8192 in
theorem val2_main_v20 (V0 : Valuation τ sig (Elt F)) : val2 V0 (no_index (Proc.devRef .tc main_v20)) = Stages.gradRows (Stages.planeI (V0 (Proc.devRef .tc main_arg0))) := by
  unfold val2
  simp only [opsB]
  after_results_simp
  dsimp only [Matrix.cons_val]
  after_results_simp
  simp only [val1_main_arg0]
  rfl

/-! ### Stretch 3: the wavelength gradient and dI/dlambda -/

/-- The buffer contents after the first 3 stretches. -/
def val3 (V0 : Valuation τ sig (Elt F)) : Valuation τ sig (Elt F) := after opsC (val2 V0)
/-- The buffers that stretch 3 writes. -/
abbrev opsC_W : List (Ref sig .tc) := [main_v21, main_v22, main_v23, main_v24, main_v25, main_v26, main_cst_3, main_v27, main_v28, main_v29, main_v30, main_v31, main_v32, main_v33, main_v34, main_v35]
set_option maxRecDepth 8192 in
theorem opsC_writes : (opsC : List (HloOp τ sig (Elt F))).Forall fun op => op.writes ⊆ (opsC_W.map (Proc.devRef (τ := τ) .tc)).toFinset := by
  simp only [List.Forall]
  refine ⟨?_, ?_, ?_, ?_, ?_, ?_, ?_, ?_, ?_, ?_, ?_, ?_, ?_, ?_, ?_, ?_⟩ <;> writes_one
/-- A buffer that stretch 3 does not write keeps its contents through it. -/
theorem val3_keep (V0 : Valuation τ sig (Elt F)) (r : Ref sig .tc) (h : r ∉ opsC_W) :
    val3 V0 (Proc.devRef .tc r) = val2 V0 (Proc.devRef .tc r) :=
  after_of_writes_sub opsC _ opsC_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_c (V0 : Valuation τ sig (Elt F)) : val3 V0 (no_index (Proc.devRef .tc main_c)) = (fun i => lit0 (S3.rowMajor i)) :=
  (val3_keep V0 main_c (by decide)).trans (val2_main_c V0)
theorem val3_main_c_0 (V0 : Valuation τ sig (Elt F)) : val3 V0 (no_index (Proc.devRef .tc main_c_0)) = constantI S3 1 0#1 :=
  (val3_keep V0 main_c_0 (by decide)).trans (val2_main_c_0 V0)
theorem val3_main_v3 (V0 : Valuation τ sig (Elt F)) : val3 V0 (no_index (Proc.devRef .tc main_v3)) = Stages.base (V0 (Proc.devRef .tc main_arg1)) (V0 (Proc.devRef .tc main_arg2)) :=
  (val3_keep V0 main_v3 (by decide)).trans (val2_main_v3 V0)
theorem val3_main_v8 (V0 : Valuation τ sig (Elt F)) : val3 V0 (no_index (Proc.devRef .tc main_v8)) = Stages.planeV (V0 (Proc.devRef .tc main_arg0)) :=
  (val3_keep V0 main_v8 (by decide)).trans (val2_main_v8 V0)
set_option maxRecDepth 8192 in
theorem val3_main_v35 (V0 : Valuation τ sig (Elt F)) : val3 V0 (no_index (Proc.devRef .tc main_v35)) = Stages.dIdl (V0 (Proc.devRef .tc main_arg0)) (V0 (Proc.devRef .tc main_arg3)) := by
  unfold val3
  simp only [opsC]
  after_results_simp
  dsimp only [Matrix.cons_val]
  after_results_simp
  simp only [val2_main_v4, val2_main_v20]
  rfl

/-! ### Stretch 4: the lane sums and the slope's two products -/

/-- The buffer contents after the first 4 stretches. -/
def val4 (V0 : Valuation τ sig (Elt F)) : Valuation τ sig (Elt F) := after opsD (val3 V0)
/-- The buffers that stretch 4 writes. -/
abbrev opsD_W : List (Ref sig .tc) := [main_cst_4, main_v36, main_cst_5, main_v37, main_v38, main_cst_6, main_v39, main_v40, main_cst_7, main_v41, main_cst_8, main_v42, main_v43, main_v44, main_v45, main_cst_9, main_v46, main_v47]
set_option maxRecDepth 8192 in
theorem opsD_writes : (opsD : List (HloOp τ sig (Elt F))).Forall fun op => op.writes ⊆ (opsD_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> writes_one
/-- A buffer that stretch 4 does not write keeps its contents through it. -/
theorem val4_keep (V0 : Valuation τ sig (Elt F)) (r : Ref sig .tc) (h : r ∉ opsD_W) :
    val4 V0 (Proc.devRef .tc r) = val3 V0 (Proc.devRef .tc r) :=
  after_of_writes_sub opsD _ opsD_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_c (V0 : Valuation τ sig (Elt F)) : val4 V0 (no_index (Proc.devRef .tc main_c)) = (fun i => lit0 (S3.rowMajor i)) :=
  (val4_keep V0 main_c (by decide)).trans (val3_main_c V0)
theorem val4_main_c_0 (V0 : Valuation τ sig (Elt F)) : val4 V0 (no_index (Proc.devRef .tc main_c_0)) = constantI S3 1 0#1 :=
  (val4_keep V0 main_c_0 (by decide)).trans (val3_main_c_0 V0)
theorem val4_main_v3 (V0 : Valuation τ sig (Elt F)) : val4 V0 (no_index (Proc.devRef .tc main_v3)) = Stages.base (V0 (Proc.devRef .tc main_arg1)) (V0 (Proc.devRef .tc main_arg2)) :=
  (val4_keep V0 main_v3 (by decide)).trans (val3_main_v3 V0)
set_option maxRecDepth 8192 in
theorem val4_main_v36 (V0 : Valuation τ sig (Elt F)) : val4 V0 (no_index (Proc.devRef .tc main_v36)) = Stages.laneSum (Stages.dIdl (V0 (Proc.devRef .tc main_arg0)) (V0 (Proc.devRef .tc main_arg3))) := by
  unfold val4
  simp only [opsD]
  after_results_simp
  simp only [val3_main_v35]
  rfl
set_option maxRecDepth 8192 in
theorem val4_main_v45 (V0 : Valuation τ sig (Elt F)) : val4 V0 (no_index (Proc.devRef .tc main_v45)) = subf (mulf (broadcastInDim S65536 ![] bcast_S_S65536 (constant S_ .f32 0x42DE0000#32)) (Stages.laneSum (mulf (Stages.dIdl (V0 (Proc.devRef .tc main_arg0)) (V0 (Proc.devRef .tc main_arg3))) (Stages.planeV (V0 (Proc.devRef .tc main_arg0)))))) (mulf (Stages.laneSum (Stages.dIdl (V0 (Proc.devRef .tc main_arg0)) (V0 (Proc.devRef .tc main_arg3)))) (Stages.laneSum (Stages.planeV (V0 (Proc.devRef .tc main_arg0))))) := by
  unfold val4
  simp only [opsD]
  after_results_simp
  simp only [val3_main_v35, val3_main_v8]
  rfl
set_option maxRecDepth 8192 in
theorem val4_main_v47 (V0 : Valuation τ sig (Elt F)) : val4 V0 (no_index (Proc.devRef .tc main_v47)) = mulf (broadcastInDim S65536 ![] bcast_S_S65536 (constant S_ .f32 0x42DE0000#32)) (Stages.laneSum (mulf (Stages.dIdl (V0 (Proc.devRef .tc main_arg0)) (V0 (Proc.devRef .tc main_arg3))) (Stages.dIdl (V0 (Proc.devRef .tc main_arg0)) (V0 (Proc.devRef .tc main_arg3))))) := by
  unfold val4
  simp only [opsD]
  after_results_simp
  simp only [val3_main_v35]
  rfl

/-! ### Stretch 5: wfa -/

/-- The buffer contents after the first 5 stretches. -/
def val5 (V0 : Valuation τ sig (Elt F)) : Valuation τ sig (Elt F) := after opsE (val4 V0)
/-- The buffers that stretch 5 writes. -/
abbrev opsE_W : List (Ref sig .tc) := [main_v48, main_v49, main_v50, main_v51, main_cst_10, main_v52, main_v53]
set_option maxRecDepth 8192 in
theorem opsE_writes : (opsE : List (HloOp τ sig (Elt F))).Forall fun op => op.writes ⊆ (opsE_W.map (Proc.devRef (τ := τ) .tc)).toFinset := by
  simp only [List.Forall]
  refine ⟨?_, ?_, ?_, ?_, ?_, ?_, ?_⟩ <;> writes_one
/-- A buffer that stretch 5 does not write keeps its contents through it. -/
theorem val5_keep (V0 : Valuation τ sig (Elt F)) (r : Ref sig .tc) (h : r ∉ opsE_W) :
    val5 V0 (Proc.devRef .tc r) = val4 V0 (Proc.devRef .tc r) :=
  after_of_writes_sub opsE _ opsE_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_c (V0 : Valuation τ sig (Elt F)) : val5 V0 (no_index (Proc.devRef .tc main_c)) = (fun i => lit0 (S3.rowMajor i)) :=
  (val5_keep V0 main_c (by decide)).trans (val4_main_c V0)
theorem val5_main_c_0 (V0 : Valuation τ sig (Elt F)) : val5 V0 (no_index (Proc.devRef .tc main_c_0)) = constantI S3 1 0#1 :=
  (val5_keep V0 main_c_0 (by decide)).trans (val4_main_c_0 V0)
theorem val5_main_v3 (V0 : Valuation τ sig (Elt F)) : val5 V0 (no_index (Proc.devRef .tc main_v3)) = Stages.base (V0 (Proc.devRef .tc main_arg1)) (V0 (Proc.devRef .tc main_arg2)) :=
  (val5_keep V0 main_v3 (by decide)).trans (val4_main_v3 V0)
set_option maxRecDepth 8192 in
theorem val5_main_v53 (V0 : Valuation τ sig (Elt F)) : val5 V0 (no_index (Proc.devRef .tc main_v53)) = Stages.wfa (V0 (Proc.devRef .tc main_arg0)) (V0 (Proc.devRef .tc main_arg3)) := by
  unfold val5
  simp only [opsE]
  after_results_simp
  simp only [val4_main_v36, val4_main_v45, val4_main_v47]
  rfl

/-! ### Stretch 6: pblos -/

/-- The buffer contents after the first 6 stretches. -/
def val6 (V0 : Valuation τ sig (Elt F)) : Valuation τ sig (Elt F) := after opsF (val5 V0)
/-- The buffers that stretch 6 writes. -/
abbrev opsF_W : List (Ref sig .tc) := [main_v54, main_c_11, main_v55, main_v56, main_v57, main_c_12, main_v58, main_v59, main_v60, main_v61, main_v62, main_v63, main_cst_13, main_v64, main_cst_14, main_v65, main_v66]
set_option maxRecDepth 8192 in
theorem opsF_writes : (opsF : List (HloOp τ sig (Elt F))).Forall fun op => op.writes ⊆ (opsF_W.map (Proc.devRef (τ := τ) .tc)).toFinset := by
  simp only [List.Forall]
  refine ⟨?_, ?_, ?_, ?_, ?_, ?_, ?_, ?_, ?_, ?_, ?_, ?_, ?_, ?_, ?_, ?_, ?_⟩ <;> writes_one
/-- A buffer that stretch 6 does not write keeps its contents through it. -/
theorem val6_keep (V0 : Valuation τ sig (Elt F)) (r : Ref sig .tc) (h : r ∉ opsF_W) :
    val6 V0 (Proc.devRef .tc r) = val5 V0 (Proc.devRef .tc r) :=
  after_of_writes_sub opsF _ opsF_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_v3 (V0 : Valuation τ sig (Elt F)) : val6 V0 (no_index (Proc.devRef .tc main_v3)) = Stages.base (V0 (Proc.devRef .tc main_arg1)) (V0 (Proc.devRef .tc main_arg2)) :=
  (val6_keep V0 main_v3 (by decide)).trans (val5_main_v3 V0)
theorem val6_main_v53 (V0 : Valuation τ sig (Elt F)) : val6 V0 (no_index (Proc.devRef .tc main_v53)) = Stages.wfa (V0 (Proc.devRef .tc main_arg0)) (V0 (Proc.devRef .tc main_arg3)) :=
  (val6_keep V0 main_v53 (by decide)).trans (val5_main_v53 V0)
set_option maxRecDepth 8192 in
theorem val6_main_v66 (V0 : Valuation τ sig (Elt F)) : val6 V0 (no_index (Proc.devRef .tc main_v66)) = Stages.pblos (V0 (Proc.devRef .tc main_arg1)) := by
  unfold val6
  simp only [opsF]
  after_results_simp
  simp only [val5_main_arg1, val5_main_c, val5_main_c_0]
  rfl

/-! ### Stretch 7: the tail's count, masked mean and first comparison -/

/-- The buffer contents after the first 7 stretches. -/
def val7 (V0 : Valuation τ sig (Elt F)) : Valuation τ sig (Elt F) := after opsG (val6 V0)
/-- The buffers that stretch 7 writes. -/
abbrev opsG_W : List (Ref sig .tc) := [main_v67, main_cst_15, main_v68, main_v69, main_v70, main_cst_16, main_v71, main_v72, main_v73, main_cst_17, main_v74, main_v75, main_v76, main_cst_18, main_v77, main_v78, main_v79, main_cst_19, main_v80, main_v81, main_v82, main_v83, main_v84, main_c_20, main_v85, main_cst_21, main_call0_v0, main_call0_v1, main_v86, main_cst_22, main_v87, main_c_23, main_v88, main_v89, main_v90, main_cst_24, main_v91, main_c_25]
set_option maxRecDepth 8192 in
theorem opsG_writes : (opsG : List (HloOp τ sig (Elt F))).Forall fun op => op.writes ⊆ (opsG_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- A buffer that stretch 7 does not write keeps its contents through it. -/
theorem val7_keep (V0 : Valuation τ sig (Elt F)) (r : Ref sig .tc) (h : r ∉ opsG_W) :
    val7 V0 (Proc.devRef .tc r) = val6 V0 (Proc.devRef .tc r) :=
  after_of_writes_sub opsG _ opsG_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_v3 (V0 : Valuation τ sig (Elt F)) : val7 V0 (no_index (Proc.devRef .tc main_v3)) = Stages.base (V0 (Proc.devRef .tc main_arg1)) (V0 (Proc.devRef .tc main_arg2)) :=
  (val7_keep V0 main_v3 (by decide)).trans (val6_main_v3 V0)
set_option maxRecDepth 8192 in
theorem val7_main_v85 (V0 : Valuation τ sig (Elt F)) : val7 V0 (no_index (Proc.devRef .tc main_v85)) = tCnt (Stages.wfa (V0 (Proc.devRef .tc main_arg0)) (V0 (Proc.devRef .tc main_arg3))) := by
  unfold val7
  simp only [opsG]
  after_results_simp
  simp only [val6_main_v53]
  rfl
set_option maxRecDepth 8192 in
theorem val7_main_v90 (V0 : Valuation τ sig (Elt F)) : val7 V0 (no_index (Proc.devRef .tc main_v90)) = tWlm (Stages.wfa (V0 (Proc.devRef .tc main_arg0)) (V0 (Proc.devRef .tc main_arg3))) (Stages.pblos (V0 (Proc.devRef .tc main_arg1))) := by
  unfold val7
  simp only [opsG]
  after_results_simp
  simp only [val6_main_v53, val6_main_v66]
  rfl
set_option maxRecDepth 8192 in
theorem val7_main_v91 (V0 : Valuation τ sig (Elt F)) : val7 V0 (no_index (Proc.devRef .tc main_v91)) = cmpf .olt (Stages.base (V0 (Proc.devRef .tc main_arg1)) (V0 (Proc.devRef .tc main_arg2))) (constant S_ .f32 0x39D1B717#32) := by
  unfold val7
  simp only [opsG]
  after_results_simp
  simp only [val6_main_v3]
set_option maxRecDepth 8192 in
theorem val7_main_c_25 (V0 : Valuation τ sig (Elt F)) : val7 V0 (no_index (Proc.devRef .tc main_c_25)) = constantI S_ 32 0#32 := by
  unfold val7
  simp only [opsG]
  after_results_simp

/-! ### Stretch 8: the two scalar results -/

/-- The buffer contents after the first 8 stretches. -/
def val8 (V0 : Valuation τ sig (Elt F)) : Valuation τ sig (Elt F) := after opsH (val7 V0)
/-- The buffers that stretch 8 writes. -/
abbrev opsH_W : List (Ref sig .tc) := [main_v92, main_v93, main_cst_26, main_v94, main_cst_27, main_v95, main_cst_28, main_v96, main_v97, main_v98]
set_option maxRecDepth 8192 in
theorem opsH_writes : (opsH : List (HloOp τ sig (Elt F))).Forall fun op => op.writes ⊆ (opsH_W.map (Proc.devRef (τ := τ) .tc)).toFinset := by
  simp only [List.Forall]
  refine ⟨?_, ?_, ?_, ?_, ?_, ?_, ?_, ?_, ?_, ?_⟩ <;> writes_one
/-- A buffer that stretch 8 does not write keeps its contents through it. -/
theorem val8_keep (V0 : Valuation τ sig (Elt F)) (r : Ref sig .tc) (h : r ∉ opsH_W) :
    val8 V0 (Proc.devRef .tc r) = val7 V0 (Proc.devRef .tc r) :=
  after_of_writes_sub opsH _ opsH_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_v3 (V0 : Valuation τ sig (Elt F)) : val8 V0 (no_index (Proc.devRef .tc main_v3)) = Stages.base (V0 (Proc.devRef .tc main_arg1)) (V0 (Proc.devRef .tc main_arg2)) :=
  (val8_keep V0 main_v3 (by decide)).trans (val7_main_v3 V0)
set_option maxRecDepth 8192 in
theorem val8_main_v98 (V0 : Valuation τ sig (Elt F)) : val8 V0 (no_index (Proc.devRef .tc main_v98)) = (Cert.Spec.tail (F := F) Facts₀.bcast_S_S65536 Facts₀.reducesTo_S65536_S_d0 Facts₀.h_S_ Facts₀.natLt_1_32 (Stages.wfa (V0 (Proc.devRef .tc main_arg0)) (V0 (Proc.devRef .tc main_arg3))) (Stages.pblos (V0 (Proc.devRef .tc main_arg1))) (Stages.base (V0 (Proc.devRef .tc main_arg1)) (V0 (Proc.devRef .tc main_arg2)))).1 := by
  unfold val8
  simp only [opsH]
  after_results_simp
  simp only [val7_main_v85, val7_main_v90, val7_main_v91, val7_main_c_25, val7_main_v3]
  rfl
set_option maxRecDepth 8192 in
theorem val8_main_v94 (V0 : Valuation τ sig (Elt F)) : val8 V0 (no_index (Proc.devRef .tc main_v94)) = (Cert.Spec.tail (F := F) Facts₀.bcast_S_S65536 Facts₀.reducesTo_S65536_S_d0 Facts₀.h_S_ Facts₀.natLt_1_32 (Stages.wfa (V0 (Proc.devRef .tc main_arg0)) (V0 (Proc.devRef .tc main_arg3))) (Stages.pblos (V0 (Proc.devRef .tc main_arg1))) (Stages.base (V0 (Proc.devRef .tc main_arg1)) (V0 (Proc.devRef .tc main_arg2)))).2 := by
  unfold val8
  simp only [opsH]
  after_results_simp
  simp only [val7_main_v85, val7_main_v90, val7_main_v91, val7_main_c_25]
  rfl

/-- The contents after two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V0 : Valuation τ sig (Elt F)) : after ops V0 = val8 V0 := by
  simp only [ops, after_app]
  rfl

/-- For any float values: every weakly fair execution of @main terminates with the three results at the shared tail of the
    stages of the arguments, the arguments unchanged. -/
theorem run_line (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v98)
          = (Cert.Spec.tail (F := F) Facts₀.bcast_S_S65536 Facts₀.reducesTo_S65536_S_d0 Facts₀.h_S_ Facts₀.natLt_1_32
              (Stages.wfa (F := F) (m ((c.tc : Thread nD τ).loc main_arg0)) (m ((c.tc : Thread nD τ).loc main_arg3)))
              (Stages.pblos (F := F) (m ((c.tc : Thread nD τ).loc main_arg1)))
              (Stages.base (F := F) (m ((c.tc : Thread nD τ).loc main_arg1)) (m ((c.tc : Thread nD τ).loc main_arg2)))).1
      ∧ r.2.mem ((c.tc : Thread nD τ).loc main_v3) = Stages.base (F := F) (m ((c.tc : Thread nD τ).loc main_arg1)) (m ((c.tc : Thread nD τ).loc main_arg2))
      ∧ r.2.mem ((c.tc : Thread nD τ).loc main_v94)
          = (Cert.Spec.tail (F := F) Facts₀.bcast_S_S65536 Facts₀.reducesTo_S65536_S_d0 Facts₀.h_S_ Facts₀.natLt_1_32
              (Stages.wfa (F := F) (m ((c.tc : Thread nD τ).loc main_arg0)) (m ((c.tc : Thread nD τ).loc main_arg3)))
              (Stages.pblos (F := F) (m ((c.tc : Thread nD τ).loc main_arg1)))
              (Stages.base (F := F) (m ((c.tc : Thread nD τ).loc main_arg1)) (m ((c.tc : Thread nD τ).loc main_arg2)))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v98).trans (by simp only [after_ops]; exact val8_main_v98 (launchContents m c)),
      (h c main_v3).trans (by simp only [after_ops]; exact val8_main_v3 (launchContents m c)),
      (h c main_v94).trans (by simp only [after_ops]; exact val8_main_v94 (launchContents m c)),
      (h c main_arg0).trans (by simp only [after_ops]; exact val8_main_arg0 (launchContents m c)),
      (h c main_arg1).trans (by simp only [after_ops]; exact val8_main_arg1 (launchContents m c)),
      (h c main_arg2).trans (by simp only [after_ops]; exact val8_main_arg2 (launchContents m c)),
      (h c main_arg3).trans (by simp only [after_ops]; exact val8_main_arg3 (launchContents m c))⟩)
    (run_seq scopedRefs_eq scopedSems_eq defs main (fun _ => ops) main_eq (fun _ => ops_sub) m ρ)

end Line

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v98)
          = (Cert.Spec.tail (F := Ideal) Facts₀.bcast_S_S65536 Facts₀.reducesTo_S65536_S_d0 Facts₀.h_S_ Facts₀.natLt_1_32
              (Stages.wfa (F := Ideal) (m ((c.tc : Thread nD τ).loc main_arg0)) (m ((c.tc : Thread nD τ).loc main_arg3)))
              (Stages.pblos (F := Ideal) (m ((c.tc : Thread nD τ).loc main_arg1)))
              (Stages.base (F := Ideal) (m ((c.tc : Thread nD τ).loc main_arg1)) (m ((c.tc : Thread nD τ).loc main_arg2)))).1
      ∧ r.2.mem ((c.tc : Thread nD τ).loc main_v3) = Stages.base (F := Ideal) (m ((c.tc : Thread nD τ).loc main_arg1)) (m ((c.tc : Thread nD τ).loc main_arg2))
      ∧ r.2.mem ((c.tc : Thread nD τ).loc main_v94)
          = (Cert.Spec.tail (F := Ideal) Facts₀.bcast_S_S65536 Facts₀.reducesTo_S65536_S_d0 Facts₀.h_S_ Facts₀.natLt_1_32
              (Stages.wfa (F := Ideal) (m ((c.tc : Thread nD τ).loc main_arg0)) (m ((c.tc : Thread nD τ).loc main_arg3)))
              (Stages.pblos (F := Ideal) (m ((c.tc : Thread nD τ).loc main_arg1)))
              (Stages.base (F := Ideal) (m ((c.tc : Thread nD τ).loc main_arg1)) (m ((c.tc : Thread nD τ).loc main_arg2)))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_line (F := Ideal) m ρ

end Cert.ReferenceIdeal.RunBack

end
-- ==== Proof.RefRows.lean ====
/-
  The reference's wfa stage is the specification's: read at row b it is the scaled least-squares slope of row b of the two
  Stokes planes against the wavelengths.
-/
import proofs.«173965_j52828097741444_1_alg».proof.Proof.Gen.ReferenceIdeal
import proofs.«173965_j52828097741444_1_alg».proof.Proof.RefStages
import proofs.«173965_j52828097741444_1_alg».proof.Proof.Spec
import proofs.«173965_j52828097741444_1_alg».proof.Proof.LibRowOps
import proofs.«173965_j52828097741444_1_alg».proof.Proof.LibConcat3
import Idealize.ShloMosaic.Lib.KernelVsHost
import Idealize.ShloMosaic.Lib.ValueLayout

noncomputable section

open scoped BigOperators

namespace Cert.ReferenceIdeal.Rows

open Cert.ReferenceIdeal Cert.ReferenceIdeal.Gen Idealize.ShloMosaic Idealize.ShloMosaic.ValueIdx

/-! ## The host's pointwise operations and splat constants read at an index -/

/-- The host's quotient at an index is the quotient of the entries. -/
private theorem hostDivf_apply {s : Shape} (x y : FVec Ideal s .f32) (i : s.Idx) :
    Host.divf x y i = Ideal.div (x i) (y i) := rfl

/-- The host's negation at an index is the negation of the entry. -/
private theorem hostNegf_apply {s : Shape} (x : FVec Ideal s .f32) (i : s.Idx) : Host.negf x i = -(x i) := rfl

/-- A scalar constant broadcast to any shape reads, everywhere, the extended real its word encodes. -/
private theorem bcastConst_apply {t : Shape} (h : S_.BroadcastsInDim t (![] : Fin 0 → Fin t.rank)) (w : BitVec 32) (j : t.Idx) :
    broadcastInDim t ![] h (constant (F := Ideal) S_ .f32 w) j = Ideal.ofBits .f32 w := rfl

/-! ## Slices along the lanes read at an index -/

/-- Lanes `o, o + 1, …` of a rank-2 array: entry `(p, q)` of the slice is entry `(p, o + q)` of the array. -/
private theorem sliceLanes_apply {R C W : ℕ} {α : Type} (o : ℕ) (x : (⟨2, ![R, C]⟩ : Shape).Idx → α)
    (h : (⟨2, ![R, C]⟩ : Shape).Slices ![0, o] (⟨2, ![R, W]⟩ : Shape)) (p : Fin R) (q : Fin W) (c : Fin C)
    (hc : c.val = o + q.val) :
    extractStridedSlice (⟨2, ![R, W]⟩ : Shape) ![0, o] x h (ix2 p q) = x (ix2 p c) := by
  refine extractStridedSlice_apply _ x h (ix2 p q) (ix2 p c) ?_
  intro a
  match a with
  | ⟨0, _⟩ => show p.val = 0 + p.val; omega
  | ⟨1, _⟩ => exact hc

/-- Entries `o, o + 1, …` of a vector: entry `q` of the slice is entry `o + q` of the vector. -/
private theorem sliceVec_apply {C W : ℕ} {α : Type} (o : ℕ) (x : (⟨1, ![C]⟩ : Shape).Idx → α)
    (h : (⟨1, ![C]⟩ : Shape).Slices ![o] (⟨1, ![W]⟩ : Shape)) (q : Fin W) (c : Fin C) (hc : c.val = o + q.val) :
    extractStridedSlice (⟨1, ![W]⟩ : Shape) ![o] x h (ix1 q) = x (ix1 c) := by
  refine extractStridedSlice_apply _ x h (ix1 q) (ix1 c) ?_
  intro a
  match a with
  | ⟨0, _⟩ => exact hc

/-! ## The arguments' slices -/

/-- The first 111 wavelengths: entry `k` is wavelength `k`. -/
private theorem wl111_apply (a3 : FVec Ideal S112 .f32) (k : Fin 111) :
    Stages.wl111 (F := Ideal) a3 (ix1 k) = a3 (ix1 (Cert.Spec.lane k)) := by
  unfold Stages.wl111
  exact sliceVec_apply 0 a3 _ k (Cert.Spec.lane k) (by show k.val = 0 + k.val; omega)

/-- A Stokes plane over the first 111 wavelengths: entry `(b, k)` of the [65536, 111] array is entry `(b, pl, k)` of the
    argument. -/
private theorem plane_apply (a0 : FVec Ideal S65536x4x112 .f32) (pl : Fin 4)
    (hs : S65536x4x112.Slices ![0, pl.val, 0] S65536x1x111) (b : Fin 65536) (k : Fin 111) :
    shapeCast S65536x111 (extractStridedSlice S65536x1x111 ![0, pl.val, 0] a0 hs) shapeCasts_S65536x1x111_S65536x111 (ix2 b k)
      = a0 (ix3 b pl (Cert.Spec.lane k)) := by
  refine (shapeCast_apply _ _ (ix2 b k) (ix3 b (0 : Fin 1) k) ?_).trans ?_
  · rw [Shape.rowMajor_val_three, Shape.rowMajor_val_two]
    show (b.val * 1 + 0) * 111 + k.val = b.val * 111 + k.val
    omega
  · refine extractStridedSlice_apply _ a0 hs (ix3 b (0 : Fin 1) k) (ix3 b pl (Cert.Spec.lane k)) ?_
    intro a
    match a with
    | ⟨0, _⟩ => show b.val = 0 + b.val; omega
    | ⟨1, _⟩ => show pl.val = pl.val + 0; omega
    | ⟨2, _⟩ => show k.val = 0 + k.val; omega

/-- Plane I (plane 0) at `(b, k)`. -/
private theorem planeI_apply (a0 : FVec Ideal S65536x4x112 .f32) (b : Fin 65536) (k : Fin 111) :
    Stages.planeI (F := Ideal) a0 (ix2 b k) = a0 (ix3 b (0 : Fin 4) (Cert.Spec.lane k)) := by
  unfold Stages.planeI
  exact plane_apply a0 (0 : Fin 4) _ b k

/-- Plane V (plane 3) at `(b, k)`. -/
private theorem planeV_apply (a0 : FVec Ideal S65536x4x112 .f32) (b : Fin 65536) (k : Fin 111) :
    Stages.planeV (F := Ideal) a0 (ix2 b k) = a0 (ix3 b (3 : Fin 4) (Cert.Spec.lane k)) := by
  unfold Stages.planeV
  exact plane_apply a0 (3 : Fin 4) _ b k

/-! ## numpy's gradient: the three pieces laid end to end, read at a lane -/

/-- The gradient along the lanes of a [65536, 111] array, at `(b, k)`, is the gradient of row `b` at lane `k`. -/
private theorem gradRows_apply (x : FVec Ideal S65536x111 .f32) (b : Fin 65536) (k : Fin 111) :
    Stages.gradRows (F := Ideal) x (ix2 b k) = Cert.Spec.grad (fun k' => x (ix2 b k')) k := by
  unfold Stages.gradRows Cert.Spec.grad
  refine (Cert.Concat3.cat3_rows _ _ _ _ (by norm_num) b k).trans ?_
  by_cases h1 : k.val < 1
  · rw [dif_pos h1, dif_pos h1]
    refine congrArg₂ (fun u v : EReal => u - v) ?_ ?_
    · exact sliceLanes_apply 1 x _ b _ _ (by show 1 = 1 + k.val; omega)
    · exact sliceLanes_apply 0 x _ b _ _ (by show 0 = 0 + k.val; omega)
  · rw [dif_neg h1, dif_neg h1]
    by_cases h2 : k.val < 1 + 109
    · rw [dif_pos h2, dif_pos h2]
      refine congrArg₂ (fun u v : EReal => u * v) (congrArg₂ (fun u v : EReal => u - v) ?_ ?_) (bcastConst_apply _ _ _)
      · exact sliceLanes_apply 2 x _ b _ _ (by show k.val - 1 + 2 = 2 + (k.val - 1); omega)
      · exact sliceLanes_apply 0 x _ b _ _ (by show k.val - 1 = 0 + (k.val - 1); omega)
    · rw [dif_neg h2, dif_neg h2]
      refine congrArg₂ (fun u v : EReal => u - v) ?_ ?_
      · exact sliceLanes_apply 110 x _ b _ _ (by show 110 = 110 + (k.val - 1 - 109); omega)
      · exact sliceLanes_apply 109 x _ b _ _ (by show 109 = 109 + (k.val - 1 - 109); omega)

/-- The gradient of the vector of 111 wavelengths at `k`. -/
private theorem gradWl_apply (w : FVec Ideal S111 .f32) (k : Fin 111) :
    Stages.gradWl (F := Ideal) w (ix1 k) = Cert.Spec.grad (fun k' => w (ix1 k')) k := by
  unfold Stages.gradWl Cert.Spec.grad
  refine (Cert.Concat3.cat3_vec _ _ _ _ (by norm_num) k).trans ?_
  by_cases h1 : k.val < 1
  · rw [dif_pos h1, dif_pos h1]
    refine congrArg₂ (fun u v : EReal => u - v) ?_ ?_
    · exact sliceVec_apply 1 w _ _ _ (by show 1 = 1 + k.val; omega)
    · exact sliceVec_apply 0 w _ _ _ (by show 0 = 0 + k.val; omega)
  · rw [dif_neg h1, dif_neg h1]
    by_cases h2 : k.val < 1 + 109
    · rw [dif_pos h2, dif_pos h2]
      refine congrArg₂ (fun u v : EReal => u * v) (congrArg₂ (fun u v : EReal => u - v) ?_ ?_) (bcastConst_apply _ _ _)
      · exact sliceVec_apply 2 w _ _ _ (by show k.val - 1 + 2 = 2 + (k.val - 1); omega)
      · exact sliceVec_apply 0 w _ _ _ (by show k.val - 1 = 0 + (k.val - 1); omega)
    · rw [dif_neg h2, dif_neg h2]
      refine congrArg₂ (fun u v : EReal => u - v) ?_ ?_
      · exact sliceVec_apply 110 w _ _ _ (by show 110 = 110 + (k.val - 1 - 109); omega)
      · exact sliceVec_apply 109 w _ _ _ (by show 109 = 109 + (k.val - 1 - 109); omega)

/-! ## dI/dlambda, the lane sums, and the slope -/

/-- dI/dlambda at `(b, k)`: the gradient of row `b` of plane I over the gradient of the wavelengths, at lane `k`. -/
private theorem dIdl_apply (a0 : FVec Ideal S65536x4x112 .f32) (a3 : FVec Ideal S112 .f32) (b : Fin 65536) (k : Fin 111) :
    Stages.dIdl (F := Ideal) a0 a3 (ix2 b k)
      = Cert.Spec.slope (fun k' => a0 (ix3 b (0 : Fin 4) (Cert.Spec.lane k'))) (fun k' => a3 (ix1 (Cert.Spec.lane k'))) k := by
  unfold Stages.dIdl Cert.Spec.slope
  refine (hostDivf_apply _ _ _).trans (congrArg₂ Ideal.div ?_ ?_)
  · refine (gradRows_apply _ b k).trans ?_
    exact congrArg (fun f => Cert.Spec.grad f k) (funext fun k' => planeI_apply a0 b k')
  · refine (broadcastInDim_oneRow_apply _ _ b k).trans ?_
    refine (broadcastInDim_apply ![1] _ _ (ix2 (0 : Fin 1) k) (ix1 k) ?_).trans ?_
    · intro a
      match a with
      | ⟨0, _⟩ => show k.val = if (111 : ℕ) = 1 then 0 else k.val; simp
    · refine (gradWl_apply _ k).trans ?_
      exact congrArg (fun f => Cert.Spec.grad f k) (funext fun k' => wl111_apply a3 k')

/-- A lane sum from zero, at row `b`, is the sum of the row's 111 entries. -/
private theorem laneSum_apply (x : FVec Ideal S65536x111 .f32) (b : Fin 65536) :
    Stages.laneSum (F := Ideal) x (ix1 b) = ∑ k : Fin 111, x (ix2 b k) := by
  have h : S65536x111.Reduces [1] S65536 := by decide
  unfold Stages.laneSum Host.reduceAdd
  show Ideal.hostReduceAdd reducesTo_S65536x111_S65536_d1 x (Ideal.ofBits .f32 0x00000000#32) (ix1 b) = _
  rw [Ideal.hostReduceAdd_single reducesTo_S65536x111_S65536_d1 h, Ideal.ofBits_zero_f32, zero_add]
  show ∑ k : Fin 111, x (h.lift (ix1 b) k) = _
  exact Finset.sum_congr rfl fun k _ => congrArg x (Cert.RowOps.lift_lane h b k)

/-- The slope stage at row `b`, from the rows `D` of `d` and `V` of `v`. -/
private theorem wfaOf_apply (d v : FVec Ideal S65536x111 .f32) (b : Fin 65536) (D V : Fin 111 → EReal)
    (hd : ∀ k, d (ix2 b k) = D k) (hv : ∀ k, v (ix2 b k) = V k) :
    Stages.wfaOf (F := Ideal) d v (ix1 b)
      = Ideal.div
          (-(Ideal.div
              (Cert.Spec.n111 * (∑ k, D k * V k) - (∑ k, D k) * (∑ k, V k))
              (Cert.Spec.n111 * (∑ k, D k * D k) - (∑ k, D k) * (∑ k, D k))))
          Cert.Spec.cDen := by
  have sd : Stages.laneSum (F := Ideal) d (ix1 b) = ∑ k, D k :=
    (laneSum_apply d b).trans (Finset.sum_congr rfl fun k _ => hd k)
  have sv : Stages.laneSum (F := Ideal) v (ix1 b) = ∑ k, V k :=
    (laneSum_apply v b).trans (Finset.sum_congr rfl fun k _ => hv k)
  have sdv : Stages.laneSum (F := Ideal) (mulf d v) (ix1 b) = ∑ k, D k * V k :=
    (laneSum_apply _ b).trans (Finset.sum_congr rfl fun k _ => congrArg₂ (fun u w : EReal => u * w) (hd k) (hv k))
  have sdd : Stages.laneSum (F := Ideal) (mulf d d) (ix1 b) = ∑ k, D k * D k :=
    (laneSum_apply _ b).trans (Finset.sum_congr rfl fun k _ => congrArg₂ (fun u w : EReal => u * w) (hd k) (hd k))
  unfold Stages.wfaOf
  refine (hostDivf_apply _ _ _).trans (congrArg₂ Ideal.div ?_ (bcastConst_apply _ _ _))
  refine (hostNegf_apply _ _).trans (congrArg (fun u : EReal => -u) ?_)
  refine (hostDivf_apply _ _ _).trans (congrArg₂ Ideal.div ?_ ?_)
  · exact congrArg₂ (fun u w : EReal => u - w)
      (congrArg₂ (fun u w : EReal => u * w) (bcastConst_apply _ _ _) sdv)
      (congrArg₂ (fun u w : EReal => u * w) sd sv)
  · exact congrArg₂ (fun u w : EReal => u - w)
      (congrArg₂ (fun u w : EReal => u * w) (bcastConst_apply _ _ _) sdd)
      (congrArg₂ (fun u w : EReal => u * w) sd sd)

/-- Row `b` of the reference's wfa is the specification's row value: both are the same expression in the entries of row `b`
    of planes I and V and in the wavelengths, once every stage is read at its index. -/
theorem wfa_eq (a0 : FVec Ideal S65536x4x112 .f32) (a3 : FVec Ideal S112 .f32) : Stages.wfa (F := Ideal) a0 a3 = Cert.Spec.wfaVec a0 a3 := by
  funext i
  obtain ⟨b, rfl⟩ : ∃ b : Fin 65536, i = ix1 b := ⟨i 0, eq_ix1 i⟩
  unfold Stages.wfa Cert.Spec.wfaVec Cert.Spec.wfaArr Cert.Spec.wfaRow
  exact wfaOf_apply _ _ b _ _ (fun k => dIdl_apply a0 a3 b k) (fun k => planeV_apply a0 b k)

end Cert.ReferenceIdeal.Rows

end
-- ==== Proof.RefRowsAtm.lean ====
/-
  The reference's pblos and base stages are the specification's: the mean over the three gathered entries of row b is the mean of
  columns 3, 7, 11 of that row, and the sum over both axes of the absolute differences is the sum over the rows of the row sums.
-/
import proofs.«173965_j52828097741444_1_alg».proof.Proof.Gen.ReferenceIdeal
import proofs.«173965_j52828097741444_1_alg».proof.Proof.RefStages
import proofs.«173965_j52828097741444_1_alg».proof.Proof.Spec
import proofs.«173965_j52828097741444_1_alg».proof.Proof.LibRowOps
import Idealize.ShloMosaic.Lib.KernelVsHost
import Idealize.ShloMosaic.Lib.ValueLayout

noncomputable section

open scoped BigOperators

namespace Cert.ReferenceIdeal.Rows

open Cert.ReferenceIdeal Cert.ReferenceIdeal.Gen Idealize.ShloMosaic Idealize.ShloMosaic.ValueIdx

/-! ## The gather read at an index -/

section Gather
variable [Facts₀] {α : Type}

/-- The gather's dimension numbers: offset axis 0 of the result keeps the operand's rows; the operand's axes 1 and 2 are
    collapsed and take the two components of a start index. -/
private abbrev G : GatherDims S65536x21x4 S3x2 S65536x3 := gather_S65536x21x4_S3x2_S65536x3_0_12_n_n_12_1_6553611

/-- The operand index of the gather at result index (b, t): row b kept (the one offset axis), and on the two collapsed axes the
    two components of start index t, each read signed and clamped into its axis. -/
private theorem gather_operandIdx (idx : IVec S3x2 32) (b : Fin 65536) (t : Fin 3) :
    G.operandIdx (ix2 b t) idx
      = ix3 b (⟨min (idx (ix2 t (0 : Fin 2))).toInt.toNat 20, by omega⟩ : Fin 21)
          (⟨min (idx (ix2 t (1 : Fin 2))).toInt.toNat 3, by omega⟩ : Fin 4) := by
  funext a
  refine Fin.ext ?_
  match a with
  | ⟨0, _⟩ =>
    show G.start (ix2 b t) idx (0 : Fin 3) + G.batchCoord (ix2 b t) (0 : Fin 3) + G.offCoord (ix2 b t) (0 : Fin 3) = b.val
    rw [GatherDims.batchCoord_eq_zero _ _ _ List.not_mem_nil]
    have hs : G.start (ix2 b t) idx (0 : Fin 3) = 0 := by
      unfold GatherDims.start
      exact dif_neg (show (0 : Fin 3) ∉ ([1, 2] : List (Fin 3)) by decide)
    have ho : G.offCoord (ix2 b t) (0 : Fin 3) = b.val := by
      unfold GatherDims.offCoord
      rw [dif_pos ((GatherDims.mem_sKept _ _).2 ⟨show (0 : Fin 3) ∉ ([1, 2] : List (Fin 3)) by decide, List.not_mem_nil⟩)]
      rfl
    simp only [hs, ho, Nat.zero_add]
  | ⟨1, _⟩ =>
    show G.start (ix2 b t) idx (1 : Fin 3) + G.batchCoord (ix2 b t) (1 : Fin 3) + G.offCoord (ix2 b t) (1 : Fin 3)
      = min (idx (ix2 t (0 : Fin 2))).toInt.toNat 20
    rw [GatherDims.batchCoord_eq_zero _ _ _ List.not_mem_nil,
      GatherDims.offCoord_eq_zero _ _ _ (fun h => ((GatherDims.mem_sKept _ _).1 h).1 (show (1 : Fin 3) ∈ ([1, 2] : List (Fin 3)) by decide))]
    simp only [Nat.add_zero]
    unfold GatherDims.start
    rw [dif_pos (show (1 : Fin 3) ∈ G.startIndexMap from (show (1 : Fin 3) ∈ ([1, 2] : List (Fin 3)) by decide))]
    have hsi : G.siIdx (ix2 b t) ⟨List.idxOf (1 : Fin 3) G.startIndexMap, List.idxOf_lt_length_iff.2 (show (1 : Fin 3) ∈ ([1, 2] : List (Fin 3)) by decide)⟩
        = ix2 t (0 : Fin 2) := by
      funext c; refine Fin.ext ?_
      match c with
      | ⟨0, _⟩ => rfl
      | ⟨1, _⟩ => rfl
    rw [hsi]
    rfl
  | ⟨2, _⟩ =>
    show G.start (ix2 b t) idx (2 : Fin 3) + G.batchCoord (ix2 b t) (2 : Fin 3) + G.offCoord (ix2 b t) (2 : Fin 3)
      = min (idx (ix2 t (1 : Fin 2))).toInt.toNat 3
    rw [GatherDims.batchCoord_eq_zero _ _ _ List.not_mem_nil,
      GatherDims.offCoord_eq_zero _ _ _ (fun h => ((GatherDims.mem_sKept _ _).1 h).1 (show (2 : Fin 3) ∈ ([1, 2] : List (Fin 3)) by decide))]
    simp only [Nat.add_zero]
    unfold GatherDims.start
    rw [dif_pos (show (2 : Fin 3) ∈ G.startIndexMap from (show (2 : Fin 3) ∈ ([1, 2] : List (Fin 3)) by decide))]
    have hsi : G.siIdx (ix2 b t) ⟨List.idxOf (2 : Fin 3) G.startIndexMap, List.idxOf_lt_length_iff.2 (show (2 : Fin 3) ∈ ([1, 2] : List (Fin 3)) by decide)⟩
        = ix2 t (1 : Fin 2) := by
      funext c; refine Fin.ext ?_
      match c with
      | ⟨0, _⟩ => rfl
      | ⟨1, _⟩ => rfl
    rw [hsi]
    rfl

/-- The gather read at (b, t): the operand at row b and the clamped start index t. -/
private theorem gather_apply (x : S65536x21x4.Idx → α) (idx : IVec S3x2 32) (b : Fin 65536) (t : Fin 3) :
    Host.gather G x idx (ix2 b t)
      = x (ix3 b (⟨min (idx (ix2 t (0 : Fin 2))).toInt.toNat 20, by omega⟩ : Fin 21)
          (⟨min (idx (ix2 t (1 : Fin 2))).toInt.toNat 3, by omega⟩ : Fin 4)) := by
  unfold Host.gather
  exact congrArg x (gather_operandIdx idx b t)

end Gather

/-! ## The index table, the cast, and the lane sum -/

/-- The index table's first column holds 0, 1, 2 (the wrapped entries are selected away) and its second column holds 3. -/
private theorem gatherIdx_col0 (t : Fin 3) : Stages.gatherIdx (ix2 t (0 : Fin 2)) = lit0 t := by
  fin_cases t <;> rfl
private theorem gatherIdx_col1 (t : Fin 3) : Stages.gatherIdx (ix2 t (1 : Fin 2)) = 3#32 := by
  fin_cases t <;> rfl

/-- So no start index is clamped: component 0 of start index t is t (at most 20) and component 1 is 3 (at most 3). -/
private theorem start_col (t : Fin 3) : min (Stages.gatherIdx (ix2 t (0 : Fin 2))).toInt.toNat 20 = t.val := by
  rw [gatherIdx_col0]
  fin_cases t <;> rfl
private theorem start_lane (t : Fin 3) : min (Stages.gatherIdx (ix2 t (1 : Fin 2))).toInt.toNat 3 = 3 := by
  rw [gatherIdx_col1]
  rfl

/-- Entry (b, t) of the gathered array is column 4 t + 3 of row b: entry (b, t, 3) of the rows seen as 21 groups of 4. -/
private theorem gathered_apply (a1 : FVec Ideal S65536x84 .f32) (b : Fin 65536) (t : Fin 3) :
    Host.gather G (shapeCast S65536x21x4 a1 Facts₀.shapeCasts_S65536x84_S65536x21x4) Stages.gatherIdx (ix2 b t)
      = a1 (ix2 b (⟨4 * t.val + 3, by omega⟩ : Fin 84)) := by
  rw [gather_apply]
  refine shapeCast_apply a1 _ _ (ix2 b (⟨4 * t.val + 3, by omega⟩ : Fin 84)) ?_
  rw [Shape.rowMajor_val_two, Shape.rowMajor_val_three]
  show b.val * 84 + (4 * t.val + 3)
    = (b.val * 21 + min (Stages.gatherIdx (ix2 t (0 : Fin 2))).toInt.toNat 20) * 4
        + min (Stages.gatherIdx (ix2 t (1 : Fin 2))).toInt.toNat 3
  rw [start_col, start_lane]
  omega

/-- The host's sum over the lanes from an initial value, read at row p. -/
private theorem hostLaneSum_apply {R C : ℕ} (x : FVec Ideal (⟨2, ![R, C]⟩ : Shape) .f32) (init : EReal)
    (h' : (⟨2, ![R, C]⟩ : Shape).ReducesTo [1] (⟨1, ![R]⟩ : Shape)) (h : (⟨2, ![R, C]⟩ : Shape).Reduces [1] (⟨1, ![R]⟩ : Shape))
    (p : Fin R) : Ideal.hostReduceAdd h' x init (ix1 p) = init + ∑ k : Fin C, x (ix2 p k) := by
  rw [Ideal.hostReduceAdd_single h' h]
  show init + ∑ k : Fin C, x (h.lift (ix1 p) k) = _
  exact congrArg (init + ·) (Finset.sum_congr rfl fun k _ => congrArg x (Cert.RowOps.lift_lane h p k))

theorem pblos_eq (a1 : FVec Ideal S65536x84 .f32) : Stages.pblos (F := Ideal) a1 = Cert.Spec.pblosVec a1 := by
  funext i
  obtain ⟨b, rfl⟩ : ∃ b : Fin 65536, i = ix1 b := ⟨i 0, eq_ix1 i⟩
  unfold Stages.pblos Cert.Spec.pblosVec Cert.Spec.pblosArr Cert.Spec.pblosRow Cert.Spec.three
  show Ideal.div (Ideal.hostReduceAdd Facts₀.reducesTo_S65536x3_S65536_d1
        (Host.gather G (shapeCast S65536x21x4 a1 Facts₀.shapeCasts_S65536x84_S65536x21x4) Stages.gatherIdx)
        (Ideal.ofBits .f32 0x00000000#32) (ix1 b))
      (Ideal.ofBits .f32 0x40400000#32) = _
  rw [hostLaneSum_apply _ _ _ (by decide) b, Ideal.ofBits_zero_f32, zero_add, Fin.sum_univ_three,
    gathered_apply, gathered_apply, gathered_apply]
  rfl
theorem base_eq (a1 a2 : FVec Ideal S65536x84 .f32) : Stages.base (F := Ideal) a1 a2 = Cert.Spec.baseVec a1 a2 := by
  funext i
  unfold Stages.base Cert.Spec.baseVec Cert.Spec.baseVal
  show Ideal.div (Ideal.hostReduceAdd Facts₀.reducesTo_S65536x84_S_d0_1 (Host.absf (subf a1 a2)) (Ideal.ofBits .f32 0x00000000#32) i)
      (Ideal.ofBits .f32 0x4AA80000#32) = _
  rw [Ideal.hostReduceAdd_total _ (fun b => b.elim0), Ideal.ofBits_zero_f32, zero_add, sum_idx2]
  rfl

end Cert.ReferenceIdeal.Rows

end
-- ==== Proof.lean ====
/-
  The certificate of the WFA-consistency loss kernel against its jnp reference, over the extended reals.

  Both programs compute, per batch row, the scaled least-squares slope of Stokes V against dI/dlambda over 111 wavelengths (wfa),
  the mean of three entries of the predicted atmosphere (pblos) and the row's sum of |predicted - target|; then three scalars by one
  shared chain of host operations on (the vector of wfa, the vector of pblos, the mean absolute difference). The kernel computes
  the per-row values block by block (64 blocks of 1024 rows) and sums the row sums on the host; the reference computes them on whole
  arrays and sums |predicted - target| over both axes at once. At the ideal values the per-row values are the same expressions read
  row by row (Proof/Spec.lean), a sum of row sums is the sum over both axes, and 0 - x is -x: nothing else separates the two, so no
  finiteness of the inputs is used.

  The kernel's two frames are the generated ones; the reference's frame is its run with the results dropped; the ideal pass rewrote
  nothing, so `preserves` is `True`.
-/
import proofs.«173965_j52828097741444_1_alg».proof.Defs
import proofs.«173965_j52828097741444_1_alg».proof.Proof.Gen.Kernel
import proofs.«173965_j52828097741444_1_alg».proof.Proof.Gen.Kernel.Skeleton
import proofs.«173965_j52828097741444_1_alg».proof.Proof.Gen.Kernel.Launch
import proofs.«173965_j52828097741444_1_alg».proof.Proof.Gen.Kernel.Points
import proofs.«173965_j52828097741444_1_alg».proof.Proof.Gen.Kernel.Frame
import proofs.«173965_j52828097741444_1_alg».proof.Proof.Gen.KernelIdeal
import proofs.«173965_j52828097741444_1_alg».proof.Proof.Gen.KernelIdeal.Skeleton
import proofs.«173965_j52828097741444_1_alg».proof.Proof.Gen.KernelIdeal.Launch
import proofs.«173965_j52828097741444_1_alg».proof.Proof.Gen.KernelIdeal.Points
import proofs.«173965_j52828097741444_1_alg».proof.Proof.Gen.KernelIdeal.Frame
import proofs.«173965_j52828097741444_1_alg».proof.Proof.Gen.ReferenceIdeal
import proofs.«173965_j52828097741444_1_alg».proof.Proof.Gen.Pre_finite_inputs
import proofs.«173965_j52828097741444_1_alg».proof.Proof.KernelTail
import proofs.«173965_j52828097741444_1_alg».proof.Proof.KernelVals
import proofs.«173965_j52828097741444_1_alg».proof.Proof.RefRun
import proofs.«173965_j52828097741444_1_alg».proof.Proof.RefRows
import proofs.«173965_j52828097741444_1_alg».proof.Proof.RefRowsAtm
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run read back, the results dropped. -/
theorem frame_ri : Cert.frame_ReferenceIdeal := fun m ρ _ =>
  (θ_run Cert.ReferenceIdeal.defs _ _).mono (fun _ h c => (h c).2.2.2) (Cert.ReferenceIdeal.RunBack.run m ρ)

/-- From memories agreeing on the arguments both programs end with the three scalars at the shared tail of the specification's
    per-row vectors: the kernel's host-side values and the reference's stages are those vectors. -/
theorem algebraic : Cert.algebraic_KernelIdeal_ReferenceIdeal := by
  intro m ρ m' ρ' _ hagree
  refine ⟨fun c => (Cert.Spec.tail (F := Ideal) Cert.KernelIdeal.Facts₀.bcast_S_S65536 Cert.KernelIdeal.Facts₀.reducesTo_S65536_S_d0
      Cert.KernelIdeal.Facts₀.h_S_ Cert.KernelIdeal.Facts₀.natLt_1_32
      (Cert.Spec.wfaVec (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (Cert.Spec.pblosVec (m ((c.tc : Thread Cert.KernelIdeal.nD Cert.KernelIdeal.τ).loc Cert.KernelIdeal.main_arg1)))
      (Cert.Spec.baseVec (m ((c.tc : Thread Cert.KernelIdeal.nD Cert.KernelIdeal.τ).loc Cert.KernelIdeal.main_arg1)) (m ((c.tc : Thread Cert.KernelIdeal.nD Cert.KernelIdeal.τ).loc Cert.KernelIdeal.main_arg2)))).1,
    fun c => Cert.Spec.baseVec (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => (Cert.Spec.tail (F := Ideal) Cert.KernelIdeal.Facts₀.bcast_S_S65536 Cert.KernelIdeal.Facts₀.reducesTo_S65536_S_d0
      Cert.KernelIdeal.Facts₀.h_S_ Cert.KernelIdeal.Facts₀.natLt_1_32
      (Cert.Spec.wfaVec (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (Cert.Spec.pblosVec (m ((c.tc : Thread Cert.KernelIdeal.nD Cert.KernelIdeal.τ).loc Cert.KernelIdeal.main_arg1)))
      (Cert.Spec.baseVec (m ((c.tc : Thread Cert.KernelIdeal.nD Cert.KernelIdeal.τ).loc Cert.KernelIdeal.main_arg1)) (m ((c.tc : Thread Cert.KernelIdeal.nD Cert.KernelIdeal.τ).loc Cert.KernelIdeal.main_arg2)))).2,
    ?_, ?_⟩
  · refine (θ_run Cert.KernelIdeal.defs _ _).mono (fun r h c => ?_) (Cert.KernelIdeal.Tail.run m ρ)
    obtain ⟨h1, h2, h3, h4, h5, h6, h7⟩ := h c
    refine ⟨?_, ?_, ?_, h4, h5, h6, h7⟩
    · rw [h1, Cert.KernelIdeal.Vals.kW_eq, Cert.KernelIdeal.Vals.kP_eq, Cert.KernelIdeal.Vals.kB_eq]
    · rw [h2, Cert.KernelIdeal.Vals.kB_eq]
    · rw [h3, Cert.KernelIdeal.Vals.kW_eq, Cert.KernelIdeal.Vals.kP_eq, Cert.KernelIdeal.Vals.kB_eq]
  · refine (θ_run Cert.ReferenceIdeal.defs _ _).mono (fun r h c => ?_) (Cert.ReferenceIdeal.RunBack.run m' ρ')
    obtain ⟨h1, h2, h3, h4, h5, h6, h7⟩ := h c
    obtain ⟨e0, e1, e2, e3⟩ := hagree c
    refine ⟨?_, ?_, ?_, h4, h5, h6, h7⟩
    · rw [h1, Cert.ReferenceIdeal.Rows.wfa_eq, Cert.ReferenceIdeal.Rows.pblos_eq, Cert.ReferenceIdeal.Rows.base_eq, e0, e1, e2, e3]
    · rw [h2, Cert.ReferenceIdeal.Rows.base_eq, e1, e2]
    · rw [h3, Cert.ReferenceIdeal.Rows.wfa_eq, Cert.ReferenceIdeal.Rows.pblos_eq, Cert.ReferenceIdeal.Rows.base_eq, e0, e1, e2, e3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
